-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S_ : Shape := ⟨0, ![]⟩
abbrev S1024x3072 : Shape := ⟨2, ![1024, 3072]⟩
abbrev S3072 : Shape := ⟨1, ![3072]⟩
abbrev S1x3072 : Shape := ⟨2, ![1, 3072]⟩
abbrev S8192x3072 : Shape := ⟨2, ![8192, 3072]⟩
abbrev S512x1024 : Shape := ⟨2, ![512, 1024]⟩
abbrev S512x3072 : Shape := ⟨2, ![512, 3072]⟩
abbrev S4x2048x3072 : Shape := ⟨3, ![4, 2048, 3072]⟩
abbrev S1x1024x1024 : Shape := ⟨3, ![1, 1024, 1024]⟩
abbrev S1024x1 : Shape := ⟨2, ![1024, 1]⟩

abbrev nBuf : Space → Nat
  | .hbm => 24
  | .vmem => 17
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x3072, .f32⟩
  | .hbm, ⟨18, _⟩ => ⟨S1024x3072, .bf16⟩
  | .hbm, ⟨19, _⟩ => ⟨S3072, .f32⟩
  | .hbm, ⟨20, _⟩ => ⟨S1x3072, .f32⟩
  | .hbm, ⟨21, _⟩ => ⟨S8192x3072, .bf16⟩
  | .hbm, ⟨22, _⟩ => ⟨S4x2048x3072, .bf16⟩
  | .hbm, ⟨23, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x3072, .bf16⟩
  | .local _ .vmem, ⟨5, _⟩ => ⟨S512x3072, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .f32⟩
  | .local _ .vmem, ⟨13, _⟩ => ⟨S1x1024x1024, .f32⟩
  | .local _ .vmem, ⟨14, _⟩ => ⟨S1024x1, .f32⟩
  | .local _ .vmem, ⟨15, _⟩ => ⟨S1024x1, .f32⟩
  | .local _ .vmem, ⟨16, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![4, 2, 2], ![false, false, false]⟩

def k1_cond2 (i : grid1.Coords) : BitVec 1 :=
  let arg2 : BitVec 32 := BitVec.ofNat 32 (i 2).val
  let c1_i32 : BitVec 32 := 1#32
  let v41 : BitVec 1 := Scalar.cmpi .eq arg2 c1_i32
  let v42 : BitVec 32 := Scalar.extui v41
  let c0_i32_26 : BitVec 32 := 0#32
  let v43 : BitVec 1 := Scalar.cmpi .ne v42 c0_i32_26
  v43

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg2.toNat, c1_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, arg2.toNat, c2_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x2048x1024_S8192x1024 : S4x2048x1024.ShapeCasts S8192x1024
  bcast_S_S1024x1024 : S_.BroadcastsInDim S1024x1024 (![] : Fin 0 → Fin S1024x1024.rank)
  bcast_S_S1024 : S_.BroadcastsInDim S1024 (![] : Fin 0 → Fin S1024.rank)
  transposes_S1024x1024_S1024x1024_1_0 : S1024x1024.Transposes [1, 0] S1024x1024
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S8192x3072_S4x2048x3072 : S8192x3072.ShapeCasts S4x2048x3072
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  transposes_S1024x1024_p1_0_S1024x1024 : S1024x1024.Transposes [1, 0] S1024x1024
  reduces_S1024x1024_S1024 : S1024x1024.Reduces [1] S1024
  shapeCasts_S1024_S1024x1 : S1024.ShapeCasts S1024x1
  broadcasts_S1024x1_S1024x1024 : S1024x1.Broadcasts S1024x1024
  shapeCasts_S1024x1024_S1x1024x1024 : S1024x1024.ShapeCasts S1x1024x1024
  dot_S512x1024_S1024x3072_S512x3072_1_0_0_1_n_n_wf : DotDims.WF S512x1024 S1024x3072 S512x3072 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S8192x3072.size a
  hwx0_3 : ∀ i : grid0.Coords, EltTy.bits .bf16 = 32 ∨ (Rect.block (s := S8192x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x2048x3072.size a
  hwx1_0 : ∀ i : grid1.Coords, EltTy.bits .bf16 = 32 ∨ (Rect.block (s := S4x2048x3072) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S4x2048x3072.size a
  hwx1_1 : ∀ i : grid1.Coords, EltTy.bits .bf16 = 32 ∨ (Rect.block (s := S4x2048x3072) S1x1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S4x2048x3072.size a
  hwx1_2 : ∀ i : grid1.Coords, EltTy.bits .bf16 = 32 ∨ (Rect.block (s := S4x2048x3072) S1x1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x2048x1024.size a
  hwx1_3 : ∀ i : grid1.Coords, EltTy.bits .f32 = 32 ∨ (Rect.block (s := S4x2048x1024) S1x1024x1024.size (cc1_transform_3 i) (hinb1_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .f32⟩
  | .hbm, ⟨8, _⟩ => ⟨S1x1x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x2048, .f32⟩
  | .hbm, ⟨20, _⟩ => ⟨S_, .f32⟩
  | .hbm, ⟨21, _⟩ => ⟨S_, .f32⟩
  | .hbm, ⟨22, _⟩ => ⟨S4x2048x2048, .f32⟩
  | .hbm, ⟨23, _⟩ => ⟨S4x2048x2048, .f32⟩
  | .hbm, ⟨24, _⟩ => ⟨S_, .f32⟩
  | .hbm, ⟨25, _⟩ => ⟨S4x2048, .f32⟩
  | .hbm, ⟨26, _⟩ => ⟨S_, .f32⟩
  | .hbm, ⟨27, _⟩ => ⟨S4x2048, .f32⟩
  | .hbm, ⟨28, _⟩ => ⟨S4x2048, .f32⟩
  | .hbm, ⟨29, _⟩ => ⟨S4x2048x1, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S_, .f32⟩
  | .hbm, ⟨34, _⟩ => ⟨S4x2048, .f32⟩
  | .hbm, ⟨35, _⟩ => ⟨S4x2048x1, .f32⟩
  | .hbm, ⟨36, _⟩ => ⟨S4x2048x2048, .f32⟩
  | .hbm, ⟨37, _⟩ => ⟨S4x2048x2048, .f32⟩
  | .hbm, ⟨38, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.KProj.lean ====
/-
  The projection call of the kernel (the first of its two pallas_calls): one grid point per block of 512 rows.
  A point loads its block of the flattened input, the whole concatenated weight matrix and the bias row, and stores
  the block  x · W + b  into its output window. Stated here: the proof data of that pipeline at any contents `V` of
  the TensorCore's buffers at the call's entry, and the body obligation at every point.
-/
import proofs.«415141_j87746181857559_3_alg».proof.Proof.Gen.Kernel.Launch
import proofs.«415141_j87746181857559_3_alg».proof.Proof.Gen.Kernel.Skeleton
import proofs.«415141_j87746181857559_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the projection call, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of input rows, the weight matrix and the bias row a point reads, at their literal types. -/
abbrev xblk0 (c : Dev nD) (t : Fin cfg0.N) : Vec F S512x1024 .f32 := iblk0 V c 0 t
abbrev wblk0 (c : Dev nD) (t : Fin cfg0.N) : Vec F S1024x3072 .bf16 := iblk0 V c 1 t
abbrev bblk0 (c : Dev nD) (t : Fin cfg0.N) : Vec F S1x3072 .f32 := iblk0 V c 2 t

/-- The proof data of the projection pipeline on core `c`: the arrays as the call finds them; after the body each input
    window's buffer at its block and the output window's at the block product plus bias; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (xblk0 V c t) (wblk0 V c t) (bblk0 V c t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay1 (xblk0 V c t) (wblk0 V c t) (bblk0 V c t) := by dsimp only [dat0]

/-! ## The input windows' buffers at a point -/

/-- The block of input rows is fetched at every point, so its buffer holds this point's block. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The weight matrix is fetched at the first point only; its block index never moves, so at a later point the
    buffer still holds the first point's block, which is every point's. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- The bias row likewise. -/
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## The body's accesses: each is its buffer's whole rectangle at offset zero -/

theorem hz0 : (![0, 0] : Fin 2 → Nat) = fun _ => 0 := funext fun a => by fin_cases a <;> rfl

abbrev rx0 : Rect S512x1024 := Rect.unit (s := S512x1024) ![0, 0] S512x1024.size inb_S512x1024_S512x1024_0_0
abbrev rw0 : Rect S1024x3072 := Rect.unit (s := S1024x3072) ![0, 0] S1024x3072.size inb_S1024x3072_S1024x3072_0_0
abbrev rb0 : Rect S1x3072 := Rect.unit (s := S1x3072) ![0, 0] S1x3072.size inb_S1x3072_S1x3072_0_0
abbrev ro0 : Rect S512x3072 := Rect.unit (s := S512x3072) ![0, 0] S512x3072.size inb_S512x3072_S512x3072_0_0

/-- What the body's one store leaves in the output buffer, from the three input buffers' contents: the store as a piece
    over what the three loads read. -/
def out0_3 (x : Vec F S512x1024 .f32) (w : Vec F S1024x3072 .bf16) (b : Vec F S1x3072 .f32) : Vec F S512x3072 .bf16 :=
  View.canon [⟨ro0, k0_pay1 (View.ld x rx0) (View.ld w rw0) (View.ld b rb0)⟩]

/-- The store's rectangle is the whole buffer, so it covers it. -/
theorem cover0_3 (p : Vec F S512x3072 .bf16) (y : S512x3072.Idx) :
    ∃ pc ∈ ([⟨ro0, p⟩] : List (View.Piece (Elt F) S512x3072 .bf16)), y ∈ pc.1.set :=
  ⟨_, List.mem_singleton_self _, View.mem_set_unit_zero hz0 inb_S512x3072_S512x3072_0_0 y⟩

/-- A whole-buffer load reads the contents and a whole-buffer store leaves its payload: what the store leaves is the
    block product plus bias of the three buffers' contents. -/
theorem out0_3_eq (x : Vec F S512x1024 .f32) (w : Vec F S1024x3072 .bf16) (b : Vec F S1x3072 .f32) :
    out0_3 x w b = k0_pay1 x w b := by
  unfold out0_3
  rw [View.canon_unit_zero hz0, View.ld_unit_zero (S := S512x1024) hz0, View.ld_unit_zero (S := S1024x3072) hz0,
    View.ld_unit_zero (S := S1x3072) hz0]

/-! ## The body's triple -/

set_option maxHeartbeats 1000000 in
/-- The kernel body on whole staging memrefs, the three inputs' at read contents `x`, `w`, `b` and the output's at
    anything, runs to the continuation holding the inputs' as they were and the output's at `x · w + b` (the payload). -/
theorem sound_kernel0 (c : Dev nD) (E : Set ℕ) (i : grid0.Coords)
    (arg1 : Memref sig .tc .vmem S512x1024 .f32) (harg1 : arg1.IsWhole)
    (arg2 : Memref sig .tc .vmem S1024x3072 .bf16) (harg2 : arg2.IsWhole)
    (arg3 : Memref sig .tc .vmem S1x3072 .f32) (harg3 : arg3.IsWhole)
    (arg4 : Memref sig .tc .vmem S512x3072 .bf16) (harg4 : arg4.IsWhole)
    (x : Vec F S512x1024 .f32) (w : Vec F S1024x3072 .bf16) (b : Vec F S1x3072 .f32) (K : PUnit → sProp 𝕄) :
    iprop(owns (c : Thread nD τ) arg1 fullShare x ∗ owns (c : Thread nD τ) arg2 fullShare w
        ∗ owns (c : Thread nD τ) arg3 fullShare b ∗ (∃ d, owns (c : Thread nD τ) arg4 fullShare d)
        ∗ (iprop(owns (c : Thread nD τ) arg1 fullShare x ∗ owns (c : Thread nD τ) arg2 fullShare w
            ∗ owns (c : Thread nD τ) arg3 fullShare b ∗ owns (c : Thread nD τ) arg4 fullShare (k0_pay1 x w b)) -∗ K ⟨⟩))
      ⊢ wp frame (wpE (defs₀ (F := F)) Variants.none c none) E
          (cc0__proj_kernel i arg1 harg1 arg2 harg2 arg3 harg3 arg4 harg4) K := by
  simp only [cc0__proj_kernel_eq_skeleton]; unfold cc0__proj_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact (View.read_writes_eq_canon _ _ _ (cover0_3 _)).trans
    (out0_3_eq (arg1.view.read (Elt F) f1) (arg2.view.read (Elt F) f2) (arg3.view.read (Elt F) f3))

/-! ## The body obligation, at a generic point -/

/-- What the body is called with at point `t`: the invariant, the core's debts, and each window's current buffer at what
    the pipeline has put there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns: each window's buffer at what the proof data say the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the three input buffers hold their blocks, so the body's triple applies at those blocks; the
    invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the projection pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KAttnDefs.lean ====
/-
  The attention call of the kernel (the second of its two pallas_calls): sixteen grid points (batch, query
  tile, key tile), the key tile innermost. A point at key tile 0 resets the three scratch buffers (running maximum,
  running denominator, running numerator) and performs one online-softmax update from its query, key and value blocks;
  the point after it, at key tile 1, performs the second update from what the first left and stores numerator /
  denominator into the output window, which is written back there and idle at the even points.
  Stated here: one update as a function of the blocks and of the previous scratch contents, what the scratch buffers
  hold after each point, the proof data of the pipeline at any entry contents `V`, the body obligation, and the
  invariant's two ends.
-/
import proofs.«415141_j87746181857559_3_alg».proof.Proof.Gen.Kernel.Launch
import proofs.«415141_j87746181857559_3_alg».proof.Proof.Gen.Kernel.Skeleton
import proofs.«415141_j87746181857559_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the attention call, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query, key and value blocks a point reads, at their literal types. -/
abbrev qblk (c : Dev nD) (t : Fin cfg1.N) : Vec F S1x1024x1024 .bf16 := iblk1 V c 0 t
abbrev kblk (c : Dev nD) (t : Fin cfg1.N) : Vec F S1x1024x1024 .bf16 := iblk1 V c 1 t
abbrev vblk (c : Dev nD) (t : Fin cfg1.N) : Vec F S1x1024x1024 .bf16 := iblk1 V c 2 t

/-! ## One online-softmax update

From the previous running maximum `mp`, denominator `lp` and numerator `ap`, and the blocks `q`, `k`, `v`:
the scores are `s = q · kᵀ`; the new maximum is `max mp (rowmax s)`; with `a = exp (mp - m')` and
`p = exp (s - m')`, the new denominator is `a · lp + rowsum p` and the new numerator `a · ap + p · v`. -/

/-- The running maximum after one update. -/
def stepM (q k : Vec F S1x1024x1024 .bf16) (mp : Vec F S1024x1 .f32) : Vec F S1024x1 .f32 :=
  k1_pay2 (k1_pay9 q k mp)
/-- The running denominator after one update. -/
def stepL (q k : Vec F S1x1024x1024 .bf16) (mp lp : Vec F S1024x1 .f32) : Vec F S1024x1 .f32 :=
  k1_pay12 q k mp mp lp
/-- The running numerator after one update. -/
def stepA (q k v : Vec F S1x1024x1024 .bf16) (mp : Vec F S1024x1 .f32) (ap : Vec F S1024x1024 .f32) : Vec F S1024x1024 .f32 :=
  k1_pay1 (k1_pay7 v) (k1_pay11 q k mp) ap (k1_pay13 q k mp mp)

/-- The point before `t` (point 0 at `t = 0`, where it is never consulted). -/
def prevPt (t : Fin cfg1.N) : Fin cfg1.N := ⟨t.val - 1, Nat.lt_of_le_of_lt (Nat.sub_le _ _) t.isLt⟩

/-- The scratch contents after a point at key tile 0: one update from the reset values (-∞, 0, 0). -/
def mA (c : Dev nD) (t : Fin cfg1.N) : Vec F S1024x1 .f32 := stepM (qblk V c t) (kblk V c t) (k1_pay4 (F := F))
def lA (c : Dev nD) (t : Fin cfg1.N) : Vec F S1024x1 .f32 := stepL (qblk V c t) (kblk V c t) (k1_pay4 (F := F)) (k1_pay5 (F := F))
def aA (c : Dev nD) (t : Fin cfg1.N) : Vec F S1024x1024 .f32 := stepA (qblk V c t) (kblk V c t) (vblk V c t) (k1_pay4 (F := F)) (k1_pay6 (F := F))
/-- The scratch contents after a point at key tile 1: one more update from what the point before left. -/
def mB (c : Dev nD) (t : Fin cfg1.N) : Vec F S1024x1 .f32 := stepM (qblk V c t) (kblk V c t) (mA V c (prevPt t))
def lB (c : Dev nD) (t : Fin cfg1.N) : Vec F S1024x1 .f32 := stepL (qblk V c t) (kblk V c t) (mA V c (prevPt t)) (lA V c (prevPt t))
def aB (c : Dev nD) (t : Fin cfg1.N) : Vec F S1024x1024 .f32 := stepA (qblk V c t) (kblk V c t) (vblk V c t) (mA V c (prevPt t)) (aA V c (prevPt t))
/-- What a point at key tile 1 stores into the output window: numerator / denominator. -/
def outB (c : Dev nD) (t : Fin cfg1.N) : Vec F S1x1024x1024 .f32 := k1_pay3 (aB V c t) (lB V c t)

/-- The three scratch buffers after point `t`, by the parity of the point. -/
def mAt (c : Dev nD) (t : Fin cfg1.N) : Vec F S1024x1 .f32 := if t.val % 2 = 0 then mA V c t else mB V c t
def lAt (c : Dev nD) (t : Fin cfg1.N) : Vec F S1024x1 .f32 := if t.val % 2 = 0 then lA V c t else lB V c t
def aAt (c : Dev nD) (t : Fin cfg1.N) : Vec F S1024x1024 .f32 := if t.val % 2 = 0 then aA V c t else aB V c t

/-- The scratch memrefs. -/
abbrev scM0 : Memref sig .tc .vmem S1024x1 .f32 := Memref.whole cc1_scratch0
abbrev scM1 : Memref sig .tc .vmem S1024x1 .f32 := Memref.whole cc1_scratch1
abbrev scM2 : Memref sig .tc .vmem S1024x1024 .f32 := Memref.whole cc1_scratch2

/-- The projection call's six staging buffers, each whole at some contents: the scoped buffers the attention call never touches. -/
def otherStaging (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The call's invariant before position `n`: before the first point every scoped buffer that is no staging buffer
    of this call at anything, and the generator register at some state; afterwards the three scratch buffers at what
    the point before left, the other scoped buffers at anything, the generator register at some state. -/
def Phi1 (c : Dev nD) : (n : ℕ) → n ≤ cfg1.N → sProp 𝕄
  | 0, _ => Pipeline.ΦA spec1 c
  | n + 1, hn => iprop(owns (c : Thread nD τ) scM0 fullShare (mAt V c ⟨n, hn⟩) ∗ owns (c : Thread nD τ) scM1 fullShare (lAt V c ⟨n, hn⟩)
      ∗ owns (c : Thread nD τ) scM2 fullShare (aAt V c ⟨n, hn⟩) ∗ otherStaging c ∗ (∃ r, prngReg c r))

/-- The proof data of the attention pipeline on core `c`: the arrays as the call finds them (the three input windows
    read ONE array, each holding its own share of it); after the body each input window's buffer at its block and the
    output window's at numerator / denominator (consulted at the odd points only: at the even ones the window is idle);
    the invariant `Phi1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outB V c t
  Φ t := Phi1 V c t.val (Nat.le_of_lt_succ t.isLt)
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outB V c t := by dsimp only [dat1]

end Cert.Kernel.Hand

end
-- ==== Proof.KAttnRunA.lean ====
/-
  The attention body at a point of key tile 0, on whole memrefs: it resets the three scratch buffers to (-∞, 0, 0),
  performs one online-softmax update from the query, key and value blocks, and stores nothing into the output buffer.
-/
import proofs.«415141_j87746181857559_3_alg».proof.Proof.KAttnDefs
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

namespace RunA

/-! ## The two tests at key tile 0 -/

/-- At key tile 0 the first test (is the key tile 0?) holds: the scratch buffers are reset. -/
theorem cond1_of_zero (i : grid1.Coords) (hi : (i 2).val = 0) :
    Scalar.cmpi .ne (Scalar.extui (Scalar.cmpi .eq (BitVec.ofNat 32 (i 2).val) 0#32)) 0#32 = 1#1 := by
  rw [hi]; decide

/-- At key tile 0 the second test (is the key tile the last one?) fails: nothing is stored into the output. -/
theorem cond2_of_zero (i : grid1.Coords) (hi : (i 2).val = 0) : ¬ k1_cond2 i = 1#1 := by
  unfold k1_cond2; rw [hi]; decide

/-! ## Accesses through the whole rectangle

Each load and store of the body goes through the rectangle of its buffer's own sizes at offset zero. Such a load
reads what the view reads; such a store, made last, leaves its payload at every index whatever was stored before. -/

theorem zeros2 : (![0, 0] : Fin 2 → ℕ) = fun _ => 0 := funext fun a => by fin_cases a <;> rfl
theorem zeros3 : (![0, 0, 0] : Fin 3 → ℕ) = fun _ => 0 := funext fun a => by fin_cases a <;> rfl

/-- A load through the whole rectangle is the view's reading of the raw contents. -/
theorem readAt_full {κ : Kind} {sp : Space} {S : Shape} {e : EltTy} (v : View sig κ sp S e) (f : v.ty.Contents (Elt F))
    {off : Fin S.rank → ℕ} (h : off = fun _ => 0) (inb : ∀ a, off a + S.size a ≤ S.size a) :
    View.readAt (Elt F) v (Rect.unit off S.size inb).toLoadRect f = v.read (Elt F) f := by
  rw [View.readAt_eq_ld, View.ld_unit_zero h]

/-- A store through the whole rectangle made after the stores `L` reads back as its payload. -/
theorem read_writes_full {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

end RunA

open RunA

/-! ## The body at key tile 0 -/

set_option maxHeartbeats 4000000 in
/-- At key tile 0 the body, run on whole memrefs holding the blocks `q`, `k`, `v`, the output buffer at `d6` and the
    scratch buffers at anything, leaves the blocks and the output buffer as they were and the scratch buffers at one
    update from the reset values. -/
theorem runA (c : Dev nD) (E : Set ℕ) (i : grid1.Coords) (hi : (i 2).val = 0)
    (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole)
    (q k v : Vec F S1x1024x1024 .bf16) (d6 : Vec F S1x1024x1024 .f32) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare d6
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare q ∗ owns (c : Thread nD τ) arg4 fullShare k ∗ owns (c : Thread nD τ) arg5 fullShare v
            ∗ owns (c : Thread nD τ) arg6 fullShare d6
            ∗ owns (c : Thread nD τ) arg7 fullShare (stepM q k (k1_pay4 (F := F)))
            ∗ owns (c : Thread nD τ) arg8 fullShare (stepL q k (k1_pay4 (F := F)) (k1_pay5 (F := F)))
            ∗ owns (c : Thread nD τ) arg9 fullShare (stepA q k v (k1_pay4 (F := F)) (k1_pay6 (F := F)))) -∗ K ⟨⟩))
      ⊢ wp frame (wpE (defs₀ (F := F)) Variants.none c none) E (cc1__attn_kernel i arg3 harg3 arg4 harg4 arg5 harg5 arg6 harg6 arg7 harg7 arg8 harg8 arg9 harg9) K := by
  -- the printed body through its skeleton: memory operations and the two tests over the named payloads
  sl_unfold [cc1__attn_kernel]
  sl_unfold [cc1__attn_kernel_skel]
  sl_unfold [k1_part1]
  sl_unfold [k1_part1_skel]
  unfold owns
  iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  -- the blocks and the output contents are what the memrefs read of their raw contents
  subst hf3; subst hf4; subst hf5; subst hf6
  -- the run: the reset taken (three whole stores), one update (loads of the blocks, read-backs of the reset values,
  -- three whole stores), the output store skipped
  sl_exec (disch := first | exact cond1_of_zero i hi | exact cond2_of_zero i hi)
  sl_step
  iapply Hk
  -- the three blocks and the output buffer: never stored into
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  -- the running maximum: the last store's payload, its previous maximum the reset value read back
  isplitl [H7]
  · iexists _; isplitr
    swap; · iexact H7
    ipureintro
    rw [read_writes_full arg7.view f7 zeros2]
    sl_unfold_run_names
    unfold stepM
    rw [View.readCov_unit_zero (S := S1024x1) _ zeros2, readAt_full arg3.view f3 zeros3, readAt_full arg4.view f4 zeros3]
  -- the running denominator: previous maximum and denominator the reset values read back
  isplitl [H8]
  · iexists _; isplitr
    swap; · iexact H8
    ipureintro
    rw [read_writes_full arg8.view f8 zeros2]
    sl_unfold_run_names
    unfold stepL
    rw [View.readCov_unit_zero (S := S1024x1) _ zeros2, View.readCov_unit_zero (S := S1024x1) _ zeros2,
      readAt_full arg3.view f3 zeros3, readAt_full arg4.view f4 zeros3]
  -- the running numerator: previous maximum and numerator the reset values read back
  iexists _; isplitr
  swap; · iexact H9
  ipureintro
  rw [read_writes_full arg9.view f9 zeros2]
  sl_unfold_run_names
  unfold stepA
  rw [View.readCov_unit_zero (S := S1024x1) _ zeros2, View.readCov_unit_zero (S := S1024x1024) _ zeros2,
    readAt_full arg3.view f3 zeros3, readAt_full arg4.view f4 zeros3, readAt_full arg5.view f5 zeros3]

end Cert.Kernel.Hand

end
-- ==== Proof.KAttnRunB.lean ====
/-
  The attention body at a point of key tile 1, on whole memrefs: it performs one online-softmax update from the
  query, key and value blocks and from what the scratch buffers hold, and stores numerator / denominator into the
  output buffer.
-/
import proofs.«415141_j87746181857559_3_alg».proof.Proof.KAttnDefs
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

namespace RunB

/-! ## The two tests at key tile 1 -/

/-- At key tile 1 the first test (is the key tile 0?) fails, so the scratch buffers are not reset. -/
theorem cond1_of_one (i : grid1.Coords) (hi : (i 2).val = 1) :
    ¬ (Scalar.cmpi .ne (Scalar.extui (Scalar.cmpi .eq (BitVec.ofNat 32 (i 2).val) 0#32)) 0#32 = 1#1) := by
  rw [hi]; decide

/-- At key tile 1 the second test (is the key tile the last one?) holds, so the output is stored. -/
theorem cond2_of_one (i : grid1.Coords) (hi : (i 2).val = 1) : k1_cond2 i = 1#1 := by
  unfold k1_cond2; rw [hi]; decide

/-! ## Whole-buffer loads and stores

Every access of the body is through the rectangle of the buffer's own sizes at zero offsets: such a load reads the
contents, and such a store leaves its payload whatever was there before. -/

theorem hz2 : (![0, 0] : Fin 2 → Nat) = fun _ => 0 := funext fun a => by fin_cases a <;> rfl
theorem hz3 : (![0, 0, 0] : Fin 3 → Nat) = fun _ => 0 := funext fun a => by fin_cases a <;> rfl

/-- A whole-rectangle load from a whole memref whose raw contents read `X` is `X`. -/
theorem readAt_whole {κ : Kind} {sp : Space} {S : Shape} {e : EltTy} (m : Memref sig κ sp S e) (hm : m.IsWhole)
    {off : Fin S.rank → Nat} (h : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread, View.ld_unit_zero h]

/-- One whole-rectangle store, read back through the view, is its payload, whatever the buffer held before. -/
theorem read_writes_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩),
    View.canon_unit_zero h]

end RunB

open RunB

/-! ## The body at key tile 1 -/

set_option maxHeartbeats 4000000 in
/-- At key tile 1 the body, run on whole memrefs holding the blocks `q`, `k`, `v`, the scratch buffers at `mp`, `lp`,
    `ap` and the output buffer at anything, leaves the blocks as they were, the scratch buffers at one update from
    `mp`, `lp`, `ap`, and the output buffer at the new numerator divided by the new denominator. -/
theorem runB (c : Dev nD) (E : Set ℕ) (i : grid1.Coords) (hi : (i 2).val = 1)
    (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole)
    (q k v : Vec F S1x1024x1024 .bf16) (mp lp : Vec F S1024x1 .f32) (ap : Vec F S1024x1024 .f32) (K : PUnit → sProp 𝕄) :
    iprop(owns (c : Thread nD τ) arg3 fullShare q ∗ owns (c : Thread nD τ) arg4 fullShare k ∗ owns (c : Thread nD τ) arg5 fullShare v
        ∗ (∃ d, owns (c : Thread nD τ) arg6 fullShare d)
        ∗ owns (c : Thread nD τ) arg7 fullShare mp ∗ owns (c : Thread nD τ) arg8 fullShare lp ∗ owns (c : Thread nD τ) arg9 fullShare ap
        ∗ (iprop(owns (c : Thread nD τ) arg3 fullShare q ∗ owns (c : Thread nD τ) arg4 fullShare k ∗ owns (c : Thread nD τ) arg5 fullShare v
            ∗ owns (c : Thread nD τ) arg6 fullShare (k1_pay3 (stepA q k v mp ap) (stepL q k mp lp))
            ∗ owns (c : Thread nD τ) arg7 fullShare (stepM q k mp)
            ∗ owns (c : Thread nD τ) arg8 fullShare (stepL q k mp lp)
            ∗ owns (c : Thread nD τ) arg9 fullShare (stepA q k v mp ap)) -∗ K ⟨⟩))
      ⊢ wp frame (wpE (defs₀ (F := F)) Variants.none c none) E (cc1__attn_kernel i arg3 harg3 arg4 harg4 arg5 harg5 arg6 harg6 arg7 harg7 arg8 harg8 arg9 harg9) K := by
  sl_unfold [cc1__attn_kernel, k1_part1]
  unfold owns
  iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  -- the raw contents of each whole memref are determined by what it reads
  obtain rfl := harg3.eq_unread hf3; obtain rfl := harg4.eq_unread hf4; obtain rfl := harg5.eq_unread hf5
  obtain rfl := harg7.eq_unread hf7; obtain rfl := harg8.eq_unread hf8; obtain rfl := harg9.eq_unread hf9
  -- the body: reset skipped, one update stored into the three scratch buffers, the quotient stored into the output
  sl_exec (disch := first | exact cond1_of_one i hi | exact cond2_of_one i hi)
  sl_step
  iapply Hk
  -- the three blocks are as they were
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  -- the output: new numerator / new denominator, both read back from the scratch buffers just stored
  isplitl [H6]
  · iexists _; isplitr
    swap; · iexact H6
    ipureintro
    sl_unfold_run_names
    unfold stepA stepL
    rw [read_writes_whole _ _ hz3, View.readCov_unit_zero _ hz2, View.readCov_unit_zero _ hz2,
      readAt_whole arg3 harg3 hz3, readAt_whole arg4 harg4 hz3, readAt_whole arg5 harg5 hz3,
      readAt_whole arg7 harg7 hz2, readAt_whole arg8 harg8 hz2, readAt_whole arg9 harg9 hz2]
  -- the running maximum
  isplitl [H7]
  · iexists _; isplitr
    swap; · iexact H7
    ipureintro
    sl_unfold_run_names
    unfold stepM
    rw [read_writes_whole _ _ hz2, readAt_whole arg3 harg3 hz3, readAt_whole arg4 harg4 hz3, readAt_whole arg7 harg7 hz2]
  -- the running denominator
  isplitl [H8]
  · iexists _; isplitr
    swap; · iexact H8
    ipureintro
    sl_unfold_run_names
    unfold stepL
    rw [read_writes_whole _ _ hz2, readAt_whole arg3 harg3 hz3, readAt_whole arg4 harg4 hz3,
      readAt_whole arg7 harg7 hz2, readAt_whole arg8 harg8 hz2]
  -- the running numerator
  iexists _; isplitr
  swap; · iexact H9
  ipureintro
  sl_unfold_run_names
  unfold stepA
  rw [read_writes_whole _ _ hz2, readAt_whole arg3 harg3 hz3, readAt_whole arg4 harg4 hz3, readAt_whole arg5 harg5 hz3,
    readAt_whole arg7 harg7 hz2, readAt_whole arg9 harg9 hz2]

end Cert.Kernel.Hand

end
-- ==== Proof.KAttn.lean ====
/-
  The attention call's body obligation at every grid point, from the body's two runs (key tile 0 and key tile 1),
  and the two ends of its invariant.
-/
import proofs.«415141_j87746181857559_3_alg».proof.Proof.KAttnRunA
import proofs.«415141_j87746181857559_3_alg».proof.Proof.KAttnRunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The grid: the key tile is the parity of the point -/

/-- The key-tile coordinate of a point is the point's parity (the key tile is the innermost grid axis, of extent 2). -/
theorem keyTile_eq : ∀ t : Fin cfg1.N, ((grid1.coords t) 2).val = t.val % 2 :=
  (by decide +kernel : ∀ t : Fin grid1.N, ((grid1.coords t) 2).val = t.val % 2)

/-- The output window is idle exactly at the points of key tile 0, -/
theorem idle3_even : ∀ t : Fin cfg1.N, t.val % 2 = 0 → cfg1.idle 3 (grid1.coords t) = true :=
  (by decide +kernel : ∀ t : Fin grid1.N, t.val % 2 = 0 → idle1 3 (grid1.coords t) = true)
/-- live at the points of key tile 1, -/
theorem live3_odd : ∀ t : Fin cfg1.N, ¬t.val % 2 = 0 → cfg1.idle 3 (grid1.coords t) = false :=
  (by decide +kernel : ∀ t : Fin grid1.N, ¬t.val % 2 = 0 → idle1 3 (grid1.coords t) = false)
/-- and not written back at the points of key tile 0. -/
theorem noFlush3_even (t : Fin cfg1.N) (h : t.val % 2 = 0) : (cfg1.win 3).flush t = false := by
  cases hf : (cfg1.win 3).flush t with
  | false => rfl
  | true => exact absurd ((flush1_3 t).mp hf) (by omega)

/-! ## The input windows hold their blocks -/

/-- An input window's current staging buffer holds the window's block at every point, fetched there or not: where it
    is not fetched its block index has not moved since the point before, and the body leaves the block in place. -/
theorem before1_0 (c : Dev nD) (t : Fin cfg1.N) (d) : (dat1 V c).before 0 t d = iblk1 V c 0 t := by
  have hkeep : ∀ t, (cfg1.win 0).cut (cfg1.grid.coords t) ((dat1 V c).after 0 t) = (dat1 V c).blockOf 0 t := fun t => by
    rw [after1_0]; unfold Dat.blockOf iblk1; rw [A_eq1]; try rfl
  rw [(dat1 V c).before_in_eq_fetched 0 rfl (fun _ => rfl) (fun _ _ _ => rfl) hkeep t d]
  unfold Dat.fetched Dat.blockOf iblk1; rw [A_eq1]; try rfl
theorem before1_1 (c : Dev nD) (t : Fin cfg1.N) (d) : (dat1 V c).before 1 t d = iblk1 V c 1 t := by
  have hkeep : ∀ t, (cfg1.win 1).cut (cfg1.grid.coords t) ((dat1 V c).after 1 t) = (dat1 V c).blockOf 1 t := fun t => by
    rw [after1_1]; unfold Dat.blockOf iblk1; rw [A_eq1]; try rfl
  rw [(dat1 V c).before_in_eq_fetched 1 rfl (fun _ => rfl) (fun _ _ _ => rfl) hkeep t d]
  unfold Dat.fetched Dat.blockOf iblk1; rw [A_eq1]; try rfl
theorem before1_2 (c : Dev nD) (t : Fin cfg1.N) (d) : (dat1 V c).before 2 t d = iblk1 V c 2 t := by
  have hkeep : ∀ t, (cfg1.win 2).cut (cfg1.grid.coords t) ((dat1 V c).after 2 t) = (dat1 V c).blockOf 2 t := fun t => by
    rw [after1_2]; unfold Dat.blockOf iblk1; rw [A_eq1]; try rfl
  rw [(dat1 V c).before_in_eq_fetched 2 rfl (fun _ => rfl) (fun _ _ _ => rfl) hkeep t d]
  unfold Dat.fetched Dat.blockOf iblk1; rw [A_eq1]; try rfl

/-! ## The invariant's forms -/

/-- The class's invariant, the three scratch buffers as memrefs owned at some contents. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)
          ∗ (∃ d, owns (c : Thread nD τ) scM0 fullShare d) ∗ (∃ d, owns (c : Thread nD τ) scM1 fullShare d) ∗ (∃ d, owns (c : Thread nD τ) scM2 fullShare d))
        ∗ (∃ r, prngReg c r)) := by
  unfold Pipeline.ΦA; rw [scopedRest1_eq]; simp only [scM0, scM1, scM2, owns_whole]; try rfl

theorem Phi1_zero (c : Dev nD) (n : ℕ) (h : n ≤ cfg1.N) (hz : n = 0) : Phi1 V c n h = Pipeline.ΦA spec1 c := by
  subst hz; rfl

/-- After point `n`: the scratch buffers at that point's contents. -/
theorem Phi1_succ (c : Dev nD) (n : ℕ) (hn : n < cfg1.N) :
    Phi1 V c (n + 1) hn = iprop(owns (c : Thread nD τ) scM0 fullShare (mAt V c ⟨n, hn⟩) ∗ owns (c : Thread nD τ) scM1 fullShare (lAt V c ⟨n, hn⟩)
      ∗ owns (c : Thread nD τ) scM2 fullShare (aAt V c ⟨n, hn⟩) ∗ otherStaging c ∗ (∃ r, prngReg c r)) := rfl

/-- Before a point that is not the first: the scratch buffers at what the point before left. -/
theorem Phi1_pos (c : Dev nD) (n : ℕ) (h : n ≤ cfg1.N) (hz : n ≠ 0) :
    Phi1 V c n h = iprop(owns (c : Thread nD τ) scM0 fullShare (mAt V c ⟨n - 1, by omega⟩) ∗ owns (c : Thread nD τ) scM1 fullShare (lAt V c ⟨n - 1, by omega⟩)
      ∗ owns (c : Thread nD τ) scM2 fullShare (aAt V c ⟨n - 1, by omega⟩) ∗ otherStaging c ∗ (∃ r, prngReg c r)) := by
  cases n with
  | zero => exact absurd rfl hz
  | succ n => rfl

theorem Phi1_castSucc (c : Dev nD) (t : Fin cfg1.N) :
    (dat1 V c).Φ t.castSucc = Phi1 V c t.val (Nat.le_of_lt t.isLt) := by
  dsimp only [dat1]; simp only [Fin.coe_castSucc]

theorem mAt_even (c : Dev nD) (t : Fin cfg1.N) (h : t.val % 2 = 0) : mAt V c t = mA V c t := if_pos h
theorem lAt_even (c : Dev nD) (t : Fin cfg1.N) (h : t.val % 2 = 0) : lAt V c t = lA V c t := if_pos h
theorem aAt_even (c : Dev nD) (t : Fin cfg1.N) (h : t.val % 2 = 0) : aAt V c t = aA V c t := if_pos h
theorem mAt_odd (c : Dev nD) (t : Fin cfg1.N) (h : ¬t.val % 2 = 0) : mAt V c t = mB V c t := if_neg h
theorem lAt_odd (c : Dev nD) (t : Fin cfg1.N) (h : ¬t.val % 2 = 0) : lAt V c t = lB V c t := if_neg h
theorem aAt_odd (c : Dev nD) (t : Fin cfg1.N) (h : ¬t.val % 2 = 0) : aAt V c t = aB V c t := if_neg h

/-- The invariant after point `t`: the scratch buffers at that point's contents. -/
theorem Phi1_after (c : Dev nD) (t : Fin cfg1.N) :
    (dat1 V c).Φ t.succ = iprop(owns (c : Thread nD τ) scM0 fullShare (mAt V c t) ∗ owns (c : Thread nD τ) scM1 fullShare (lAt V c t)
      ∗ owns (c : Thread nD τ) scM2 fullShare (aAt V c t) ∗ otherStaging c ∗ (∃ r, prngReg c r)) := rfl

/-- The invariant before a point that is not the first: the scratch buffers at what the point before left. -/
theorem Phi1_before (c : Dev nD) (t : Fin cfg1.N) (hz : t.val ≠ 0) :
    (dat1 V c).Φ t.castSucc = iprop(owns (c : Thread nD τ) scM0 fullShare (mAt V c (prevPt t)) ∗ owns (c : Thread nD τ) scM1 fullShare (lAt V c (prevPt t))
      ∗ owns (c : Thread nD τ) scM2 fullShare (aAt V c (prevPt t)) ∗ otherStaging c ∗ (∃ r, prngReg c r)) := by
  rw [Phi1_castSucc, Phi1_pos V c _ _ hz]; rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point. The input windows' buffers hold their blocks. At a point of key tile 0 the run of key
    tile 0 applies: the invariant hands it the scratch buffers at anything (the class's invariant at the first point,
    what the point before left afterwards), takes them back at one update from the reset values, and the output
    buffer, idle there, goes back as it was found. At a point of key tile 1 the run of key tile 1 applies: the
    invariant hands it the scratch buffers at what the point of key tile 0 before it left, takes them back at one more
    update, and the output buffer holds numerator / denominator. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [Phi1_after V c t]
  rw [show (dat1 V c).leavesExact 0 t = owns (c : Thread nD τ) (st1_0 t) fullShare ((dat1 V c).after 0 t) from rfl, after1_0]
  rw [show (dat1 V c).leavesExact 1 t = owns (c : Thread nD τ) (st1_1 t) fullShare ((dat1 V c).after 1 t) from rfl, after1_1]
  rw [show (dat1 V c).leavesExact 2 t = owns (c : Thread nD τ) (st1_2 t) fullShare ((dat1 V c).after 2 t) from rfl, after1_2]
  by_cases h0 : t.val % 2 = 0
  · -- key tile 0
    rw [Dat.leavesExact_idle (dat1 V c) 3 t (idle3_even t h0) (noFlush3_even t h0)]
    rw [mAt_even V c t h0, lAt_even V c t h0, aAt_even V c t h0]
    unfold mA lA aA otherStaging
    by_cases hz : t.val = 0
    · rw [Phi1_castSucc V c t, Phi1_zero V c _ _ hz, PhiA1_eq]
      iintro ⟨⟨⟨S0, S1, S2, S3, S4, S5, HM, HL, HA⟩, Hg⟩, Ho, ⟨%d0, H0⟩, ⟨%d1, H1⟩, ⟨%d2, H2⟩, ⟨%d3, H3⟩⟩
      iapply (runA c Set.univ (grid1.coords t) ((keyTile_eq t).trans h0) _ _ _ _ _ _ _ _ _ _ _ _ _ _
        (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [HM]; · iexact HM
      isplitl [HL]; · iexact HL
      isplitl [HA]; · iexact HA
      iintro ⟨H0, H1, H2, H3, HM, HL, HA⟩
      isplitr [Ho H0 H1 H2 H3]
      · isplitl [HM]; · iexact HM
        isplitl [HL]; · iexact HL
        isplitl [HA]; · iexact HA
        isplitr [Hg]
        · isplitl [S0]; · iexact S0
          isplitl [S1]; · iexact S1
          isplitl [S2]; · iexact S2
          isplitl [S3]; · iexact S3
          isplitl [S4]; · iexact S4
          iexact S5
        · iexact Hg
      isplitl [Ho]; · iexact Ho
      isplitl [H0]; · iexact H0
      isplitl [H1]; · iexact H1
      isplitl [H2]; · iexact H2
      iexists d3; iexact H3
    · rw [Phi1_before V c t hz]
      unfold otherStaging
      iintro ⟨⟨HM, HL, HA, Hs, Hg⟩, Ho, ⟨%d0, H0⟩, ⟨%d1, H1⟩, ⟨%d2, H2⟩, ⟨%d3, H3⟩⟩
      iapply (runA c Set.univ (grid1.coords t) ((keyTile_eq t).trans h0) _ _ _ _ _ _ _ _ _ _ _ _ _ _
        (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [HM]; · iexists _; iexact HM
      isplitl [HL]; · iexists _; iexact HL
      isplitl [HA]; · iexists _; iexact HA
      iintro ⟨H0, H1, H2, H3, HM, HL, HA⟩
      isplitr [Ho H0 H1 H2 H3]
      · isplitl [HM]; · iexact HM
        isplitl [HL]; · iexact HL
        isplitl [HA]; · iexact HA
        isplitl [Hs]; · iexact Hs
        iexact Hg
      isplitl [Ho]; · iexact Ho
      isplitl [H0]; · iexact H0
      isplitl [H1]; · iexact H1
      isplitl [H2]; · iexact H2
      iexists d3; iexact H3
  · -- key tile 1
    have hz : t.val ≠ 0 := fun e => h0 (by rw [e])
    have hp : (prevPt t).val % 2 = 0 := by
      have : (prevPt t).val = t.val - 1 := rfl
      omega
    rw [show (dat1 V c).leavesExact 3 t = owns (c : Thread nD τ) (st1_3 t) fullShare ((dat1 V c).after 3 t) from by
      unfold Dat.leavesExact; rw [live3_odd t h0], after1_3]
    rw [mAt_odd V c t h0, lAt_odd V c t h0, aAt_odd V c t h0]
    rw [Phi1_before V c t hz, mAt_even V c (prevPt t) hp, lAt_even V c (prevPt t) hp, aAt_even V c (prevPt t) hp]
    unfold outB aB lB mB
    iintro ⟨⟨HM, HL, HA, Hs, Hg⟩, Ho, ⟨%d0, H0⟩, ⟨%d1, H1⟩, ⟨%d2, H2⟩, ⟨%d3, H3⟩⟩
    iapply (runB c Set.univ (grid1.coords t) ((keyTile_eq t).trans (by omega)) _ _ _ _ _ _ _ _ _ _ _ _ _ _
      (iblk1 V c 0 t) (iblk1 V c 1 t) (iblk1 V c 2 t) (mA V c (prevPt t)) (lA V c (prevPt t)) (aA V c (prevPt t)) _)
    isplitl [H0]; · iexact H0
    isplitl [H1]; · iexact H1
    isplitl [H2]; · iexact H2
    isplitl [H3]; · iexists _; iexact H3
    isplitl [HM]; · iexact HM
    isplitl [HL]; · iexact HL
    isplitl [HA]; · iexact HA
    iintro ⟨H0, H1, H2, H3, HM, HL, HA⟩
    isplitr [Ho H0 H1 H2 H3]
    · isplitl [HM]; · iexact HM
      isplitl [HL]; · iexact HL
      isplitl [HA]; · iexact HA
      isplitl [Hs]; · iexact Hs
      iexact Hg
    isplitl [Ho]; · iexact Ho
    isplitl [H0]; · iexact H0
    isplitl [H1]; · iexact H1
    isplitl [H2]; · iexact H2
    iexact H3

/-- The body obligation of the attention pipeline, at every point. -/
theorem body_obligation1 (c : Dev nD) : BodyObligation (dat1 (F := F) V c) (defs₀ (F := F)) Variants.none () Set.univ := by
  intro t
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]

/-- After the last point the invariant gives the class's invariant back: the scratch contents are forgotten. -/
theorem hout1 (c : Dev nD) : (dat1 V c).Φ (Fin.last cfg1.N) ⊢ Pipeline.ΦA (U := UR sig nD τ) (Val := Elt F) spec1 c := by
  have hne : (Fin.last cfg1.N).val ≠ 0 := by rw [Fin.val_last]; have : cfg1.N = 16 := N_1; omega
  rw [show (dat1 V c).Φ (Fin.last cfg1.N) = Phi1 V c (Fin.last cfg1.N).val (Nat.le_of_lt_succ (Fin.last cfg1.N).isLt) from rfl,
    Phi1_pos V c _ _ hne, PhiA1_eq]
  unfold otherStaging
  iintro ⟨HM, HL, HA, ⟨S0, S1, S2, S3, S4, S5⟩, Hg⟩
  isplitr [Hg]
  · isplitl [S0]; · iexact S0
    isplitl [S1]; · iexact S1
    isplitl [S2]; · iexact S2
    isplitl [S3]; · iexact S3
    isplitl [S4]; · iexact S4
    isplitl [S5]; · iexact S5
    isplitl [HM]; · iexists _; iexact HM
    isplitl [HL]; · iexists _; iexact HL
    iexists _; iexact HA
  · iexact Hg

end Cert.Kernel.Hand

end
-- ==== Proof.KShared.lean ====
/-
  The attention call reads ONE array through three input windows. At its entry the buffer behind that array, held
  whole, is split into three shares, one per window; at its exit the three shares, each still at the entry contents,
  are joined again, and the result array is put back beside the buffers the call never touched.
-/
import proofs.«415141_j87746181857559_3_alg».proof.Proof.Gen.Kernel.Launch
import Idealize.ShloMosaic.Lib.Pipeline.Frame
import Idealize.ShloMosaic.Lib.Pipeline.Regions
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The buffers behind the attention call's windowed arrays: the shared input array and the result array. -/
theorem arrRefs_eq : (Finset.univ.image (Pipeline.arrRef spec1) : Finset (Ref sig .tc)) = {main_v13, main_v14} := by decide

/-- Propositions that entail each other are equal. -/
theorem eq_of_equiv {M : Type} [URA M] {P Q : sProp M} (h : P ⊣⊢ Q) : P = Q :=
  Idealize.SL.BI.Entails.antisymm h.1 h.2

/-- Three conjuncts beside a fourth, bracketed to the right. -/
theorem sep_assoc4 {M : Type} [URA M] {A B C D : sProp M} : iprop((A ∗ B ∗ C) ∗ D) = iprop(A ∗ B ∗ C ∗ D) :=
  eq_of_equiv (sep_assoc.trans (sep_congr_right sep_assoc))

/-- A location held whole at the full share is the same location held three times at the same contents: at the left
    half of the full share, and at the two halves of its right half. The full share is the sum of its halves, and
    the right half is the sum of its own. -/
theorem three_shares {ℓ : Loc nD τ sig} (f : Buf (Elt F) ℓ) :
    (ℓ ↦{fullShare} f : sProp 𝕄)
      = iprop((ℓ ↦{fullShare.left} f) ∗ (ℓ ↦{fullShare.right.left} f) ∗ ℓ ↦{fullShare.right.right} f) := by
  rw [eq_of_equiv (pointsTo_share (PosShare.mem_left_op_right fullShare)),
    eq_of_equiv (pointsTo_share (PosShare.mem_left_op_right fullShare.right))]

section Windows

variable (c : Dev nD) (dat : Dat τ (Elt F) Unit ℕ (UR sig nD τ) ℕ cfg1 c)
  (G : (w : Fin cfg1.W) → Buf (Elt F) ((cfg1.win w).arr.view.loc (c : Thread nD τ)))

/-- Each input window's array is the whole buffer `main_v13`, held at the window's own share. -/
theorem win0_eq (q : PosShare TreeShare) (hq : dat.q 0 = q) (f : Buf (Elt F) ((c : Thread nD τ).loc main_v13)) (hG : G 0 = f) :
    ((cfg1.win 0).arr.view.loc (c : Thread nD τ) ↦[(cfg1.win 0).arr.view.set]{dat.share 0} G 0 : sProp 𝕄)
      = ((c : Thread nD τ).loc main_v13 ↦{q} f) := by
  rw [(arr_whole1 0).set_eq_univ, hG, show dat.share 0 = q from hq]

theorem win1_eq (q : PosShare TreeShare) (hq : dat.q 1 = q) (f : Buf (Elt F) ((c : Thread nD τ).loc main_v13)) (hG : G 1 = f) :
    ((cfg1.win 1).arr.view.loc (c : Thread nD τ) ↦[(cfg1.win 1).arr.view.set]{dat.share 1} G 1 : sProp 𝕄)
      = ((c : Thread nD τ).loc main_v13 ↦{q} f) := by
  rw [(arr_whole1 1).set_eq_univ, hG, show dat.share 1 = q from hq]

theorem win2_eq (q : PosShare TreeShare) (hq : dat.q 2 = q) (f : Buf (Elt F) ((c : Thread nD τ).loc main_v13)) (hG : G 2 = f) :
    ((cfg1.win 2).arr.view.loc (c : Thread nD τ) ↦[(cfg1.win 2).arr.view.set]{dat.share 2} G 2 : sProp 𝕄)
      = ((c : Thread nD τ).loc main_v13 ↦{q} f) := by
  rw [(arr_whole1 2).set_eq_univ, hG, show dat.share 2 = q from hq]

/-- The output window's array is the whole buffer `main_v14`, held outright. -/
theorem win3_eq (f : Buf (Elt F) ((c : Thread nD τ).loc main_v14)) (hG : G 3 = f) :
    ((cfg1.win 3).arr.view.loc (c : Thread nD τ) ↦[(cfg1.win 3).arr.view.set]{dat.share 3} G 3 : sProp 𝕄)
      = ((c : Thread nD τ).loc main_v14 ↦{fullShare} f) := by
  rw [(arr_whole1 3).set_eq_univ, hG, show dat.share 3 = fullShare from rfl]

end Windows

/-- The TensorCore's unscoped buffers at contents `V` ARE the pipeline's arrays — the three input windows at the
    three shares of `main_v13`, the output window at `main_v14` whole — beside the unscoped buffers that are no
    array of the pipeline: the two distinct array buffers are taken out of the unscoped ones, and the shared one is
    dealt into its three shares. An equation, so it reads in both directions. -/
theorem shared_eq (c : Dev nD) (V : (b : Ref sig .tc) → Buf (Elt F) ((c : Thread nD τ).loc b))
    (dat : Dat τ (Elt F) Unit ℕ (UR sig nD τ) ℕ cfg1 c)
    (hq0 : dat.q 0 = fullShare.left) (hq1 : dat.q 1 = fullShare.right.left) (hq2 : dat.q 2 = fullShare.right.right)
    (G : (w : Fin cfg1.W) → Buf (Elt F) ((cfg1.win w).arr.view.loc (c : Thread nD τ)))
    (hG0 : G 0 = V main_v13) (hG1 : G 1 = V main_v13) (hG2 : G 2 = V main_v13) (hG3 : G 3 = V main_v14) :
    (unscopedBufs c V : sProp 𝕄)
      = iprop(dat.arrays G ∗ Pipeline.unscopedRest (Ix := Unit) (Name := ℕ) (U := UR sig nD τ) (Lvl := ℕ) spec1 c V) := by
  rw [Pipeline.unscopedBufs_split₀ (fun _ : Unit => cfg1) () winFacts₀1.arr_unscoped c V]
  refine congrArg₂ _ ?_ rfl
  unfold Pipeline.arrBufs Dat.arrays
  rw [bigSep_W1, show Finset.univ.image (Pipeline.arrRef cfg1.spec) = {main_v13, main_v14} from arrRefs_eq,
    bigSep_insert (by decide), bigSep_singleton, three_shares,
    win0_eq c dat G _ hq0 _ hG0, win1_eq c dat G _ hq1 _ hG1, win2_eq c dat G _ hq2 _ hG2, win3_eq c dat G _ hG3]
  exact sep_assoc4

/-- ENTRY. The TensorCore's unscoped buffers at contents `V` are the attention pipeline's arrays at its entry contents
    — the array the three input windows share split into their three shares, the result array whole — and the
    unscoped buffers that are no array of the pipeline. -/
theorem shared_entry (c : Dev nD) (V : (b : Ref sig .tc) → Buf (Elt F) ((c : Thread nD τ).loc b))
    (dat : Dat τ (Elt F) Unit ℕ (UR sig nD τ) ℕ cfg1 c)
    (hq0 : dat.q 0 = fullShare.left) (hq1 : dat.q 1 = fullShare.right.left) (hq2 : dat.q 2 = fullShare.right.right)
    (G : (w : Fin cfg1.W) → Buf (Elt F) ((cfg1.win w).arr.view.loc (c : Thread nD τ)))
    (hG : ∀ w, G w = V (Pipeline.arrRef spec1 w)) :
    (unscopedBufs c V : sProp 𝕄) ⊢ iprop(dat.arrays G ∗ Pipeline.unscopedRest (Ix := Unit) (Name := ℕ) (U := UR sig nD τ) (Lvl := ℕ) spec1 c V) :=
  Entails.of_eq (shared_eq c V dat hq0 hq1 hq2 G (hG 0) (hG 1) (hG 2) (hG 3))

/-- The unscoped buffers that are no array of the pipeline do not see a change of contents at the result array:
    the result array is one of the pipeline's arrays, so it is none of them. -/
theorem unscopedRest_congr (c : Dev nD) (V V' : (b : Ref sig .tc) → Buf (Elt F) ((c : Thread nD τ).loc b))
    (hV' : ∀ b : Ref sig .tc, b ≠ main_v14 → V' b = V b) :
    (Pipeline.unscopedRest (Ix := Unit) (Name := ℕ) (U := UR sig nD τ) (Lvl := ℕ) spec1 c V : sProp 𝕄)
      = Pipeline.unscopedRest (Ix := Unit) (Name := ℕ) (U := UR sig nD τ) (Lvl := ℕ) spec1 c V' := by
  unfold Pipeline.unscopedRest
  refine bigSep_congr fun b hb => ?_
  have hne : b ≠ main_v14 := fun e =>
    (Finset.mem_sdiff.mp hb).2 (e ▸ Finset.mem_image_of_mem (Pipeline.arrRef spec1) (Finset.mem_univ (3 : Fin 4)))
  rw [hV' b hne]

/-- EXIT. The pipeline's arrays — the shared array's three shares all at the contents `V main_v13`, the result array
    at `V' main_v14` — beside the untouched unscoped buffers at `V` are the TensorCore's unscoped buffers at `V'`, when
    `V'` differs from `V` at the result array only. -/
theorem shared_exit (c : Dev nD) (V V' : (b : Ref sig .tc) → Buf (Elt F) ((c : Thread nD τ).loc b))
    (dat : Dat τ (Elt F) Unit ℕ (UR sig nD τ) ℕ cfg1 c)
    (hq0 : dat.q 0 = fullShare.left) (hq1 : dat.q 1 = fullShare.right.left) (hq2 : dat.q 2 = fullShare.right.right)
    (G : (w : Fin cfg1.W) → Buf (Elt F) ((cfg1.win w).arr.view.loc (c : Thread nD τ)))
    (hG0 : G 0 = V main_v13) (hG1 : G 1 = V main_v13) (hG2 : G 2 = V main_v13) (hG3 : G 3 = V' main_v14)
    (hV' : ∀ b : Ref sig .tc, b ≠ main_v14 → V' b = V b) :
    iprop(dat.arrays G ∗ Pipeline.unscopedRest (Ix := Unit) (Name := ℕ) (U := UR sig nD τ) (Lvl := ℕ) spec1 c V) ⊢ (unscopedBufs c V' : sProp 𝕄) := by
  have h13 : V' main_v13 = V main_v13 := hV' main_v13 (by decide)
  rw [unscopedRest_congr c V V' hV']
  exact Entails.of_eq (shared_eq c V' dat hq0 hq1 hq2 G (hG0.trans h13.symm) (hG1.trans h13.symm) (hG2.trans h13.symm) hG3).symm

end Cert.Kernel.Hand

end
-- ==== Proof.KRunData.lean ====
/-
  The program's two calls as records over the thread state — the host lines that build the concatenated weights and
  bias, the projection call, the reshape of its result, the attention call — and the frame: every weakly fair execution
  terminates without a fault and every argument array ends as launched. (Stated at any float instance.)
-/
import proofs.«415141_j87746181857559_3_alg».proof.Proof.KProj
import proofs.«415141_j87746181857559_3_alg».proof.Proof.KAttn
import proofs.«415141_j87746181857559_3_alg».proof.Proof.KShared
import proofs.«415141_j87746181857559_3_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents at the two calls' entries, and what the calls leave -/

/-- The TensorCore's buffers when the projection call is entered: the launch contents after the first host lines. -/
abbrev E1 : (c : Dev nD) → (b : Ref sig .tc) → Buf (Elt F) ((c : Thread nD τ).loc b) := fun c b => Gen.V1 m c b

/-- What the projection call leaves in its result array. -/
def arr0 (c : Dev nD) : Buf (Elt F) ((c : Thread nD τ).loc main_v12) := (dat0 (E1 m) c).arrAt 3 cfg0.N

/-- The regions' results so far: the projection's. -/
def outs1 : Gen.Outs (F := F) := fun _ => Function.update (fun r c => m ((c : Thread nD τ).loc r)) main_v12 (fun c => arr0 m c)

/-- The TensorCore's buffers when the attention call is entered. -/
abbrev E3 : (c : Dev nD) → (b : Ref sig .tc) → Buf (Elt F) ((c : Thread nD τ).loc b) := fun c b => Gen.V3 m (outs1 m) c b

/-- What the attention call leaves in its result array: the kernel's result. -/
def arr1 (c : Dev nD) : Buf (Elt F) ((c : Thread nD τ).loc main_v14) := (dat1 (E3 m) c).arrAt 3 cfg1.N

/-- Both regions' results. -/
def outs2 : Gen.Outs (F := F) := fun _ => Function.update (outs1 m 0) main_v14 (fun c => arr1 m c)

theorem outs2_v12 (J : ℕ) (c : Dev nD) : outs2 m J main_v12 c = arr0 m c := by
  unfold outs2 outs1
  rw [Function.update_of_ne (by decide : (main_v12 : Ref sig .tc) ≠ main_v14), Function.update_self]

theorem outs2_v14 (J : ℕ) (c : Dev nD) : outs2 m J main_v14 c = arr1 m c := by
  unfold outs2
  rw [Function.update_self]

theorem outs1_v12 (J : ℕ) (c : Dev nD) : outs1 m J main_v12 c = arr0 m c := by
  unfold outs1
  rw [Function.update_self]

/-- Both records of the regions' results give the attention call the same entry contents. -/
theorem V2_outs (c : Dev nD) : Gen.V2 m (outs2 m) c = Gen.V2 m (outs1 m) c := by
  show Function.update (Gen.V1 m c) main_v12 (outs2 m 2 main_v12 c) = Function.update (Gen.V1 m c) main_v12 (outs1 m 2 main_v12 c)
  rw [outs2_v12, outs1_v12]

theorem V3_outs (c : Dev nD) : Gen.V3 m (outs2 m) c = Gen.V3 m (outs1 m) c :=
  congrArg (StableHlo.after hostOps1) (V2_outs m c)

/-! ## The proof data family and the thread state -/

/-- Each pipeline's proof data at its call's entry contents. -/
def pdats : (p : Fin 2) → (c : Dev nD) → Dat τ (Elt F) Unit ℕ (UR sig nD τ) ℕ (cfgs p) c
  | ⟨0, _⟩ => fun c => dat0 (E1 m) c
  | ⟨1, _⟩ => fun c => dat1 (E3 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)

/-- What the projection call leaves, array by array, is the next boundary's contents. -/
theorem hF0 (c : Dev nD) (w : Fin cfg0.W) :
    (pdats m 0 c).arrAt w cfg0.N = (fun b : Ref sig .tc => Gen.V2 m (outs2 m) c b) (Pipeline.arrRef spec0 w) := by
  match w with
  | ⟨0, _⟩ => exact ((dat0 (E1 m) c).arrAt_in 0 rfl _).trans ((A_eq0 (E1 m) c 0).trans (Gen.V2_of m (outs2 m) c main_v0 (by decide)).symm)
  | ⟨1, _⟩ => exact ((dat0 (E1 m) c).arrAt_in 1 rfl _).trans ((A_eq0 (E1 m) c 1).trans (Gen.V2_of m (outs2 m) c main_v9 (by decide)).symm)
  | ⟨2, _⟩ => exact ((dat0 (E1 m) c).arrAt_in 2 rfl _).trans ((A_eq0 (E1 m) c 2).trans (Gen.V2_of m (outs2 m) c main_v11 (by decide)).symm)
  | ⟨3, _⟩ =>
    show (dat0 (E1 m) c).arrAt 3 cfg0.N = Function.update (Gen.V1 m c) main_v12 (outs2 m 2 main_v12 c) main_v12
    rw [Function.update_self, outs2_v12]; rfl

theorem hrest0 (c : Dev nD) : ∀ b : Ref sig .tc, b ∉ Finset.univ.image (Pipeline.arrRef spec0) →
    (fun b : Ref sig .tc => Gen.V2 m (outs2 m) c b) b = E1 m c b := fun b hb =>
  Gen.V2_of m (outs2 m) c b (fun h => hb (by
    rw [List.mem_singleton] at h; subst h
    exact Finset.mem_image.mpr ⟨3, Finset.mem_univ _, rfl⟩))

set_option backward.isDefEq.respectTransparency.types false in
/-- The projection call over the thread state: entered from every unscoped buffer at the contents after the first host
    lines, left with its result array at what its write-backs leave. -/
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs2 m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (fun b : Ref sig .tc => Gen.V2 m (outs2 m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call over the thread state: entered from every unscoped buffer at the contents after the reshape of
    the projection's result — the array its three input windows share split into their shares —, left with its result
    array at what its write-backs leave. -/
def reg1 : RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (Gen.V3 m (outs2 m) c) ∗ R c)
  post c := iprop(StableHlo.held (c : Thread nD τ) (Pipeline.ucRefs τ sig) (Gen.V4 m (outs2 m) c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none, V3_outs m c]
    have hsplit := shared_entry c (E3 m c) (pdats m 1 c) rfl rfl rfl ((pdats m 1 c).arrAt · 0) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E3 m) c)
    unfold Pipeline.ΦA
    iintro ⟨Hp, -, Hr⟩
    isplitl [Hr]; · iexact Hr
    iexact Hp
  hout c := by
    rw [Pipeline.ownSems0_none]
    refine BIBase.Entails.trans (hout1 (E3 m) c) ?_
    unfold Pipeline.ΦA
    iintro ⟨Hr, Hp⟩
    isplitl [Hp]; · iexact Hp
    isplitr; · iempintro
    iexact Hr
  hexit c := by
    have hjoin := shared_exit c (E3 m c) (fun b : Ref sig .tc => Gen.V4 m (outs2 m) c b) (pdats m 1 c) rfl rfl rfl ((pdats m 1 c).arrAt · cfg1.N)
      (((dat1 (E3 m) c).arrAt_in 0 rfl _).trans (A_eq1 (E3 m) c 0))
      (((dat1 (E3 m) c).arrAt_in 1 rfl _).trans (A_eq1 (E3 m) c 1))
      (((dat1 (E3 m) c).arrAt_in 2 rfl _).trans (A_eq1 (E3 m) c 2))
      (by show (dat1 (E3 m) c).arrAt 3 cfg1.N = Function.update (Gen.V3 m (outs2 m) c) main_v14 (outs2 m 4 main_v14 c) main_v14
          rw [Function.update_self, outs2_v14]; rfl)
      (fun b hb => (Gen.V4_of m (outs2 m) c b (by rw [List.mem_singleton]; exact hb)).trans (congrFun (V3_outs m c) _))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

set_option backward.isDefEq.respectTransparency.types false in
/-- THE FRAME (at any `F`): every weakly fair execution terminates and every argument array ends as launched. -/
theorem frame_main (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  exact (Gen.frame_cond m (emb₁ (A := UR sig nD τ)) () 𝒱₀ L lv (fun _ _ => rfl) ρ (outs2 m) (pdats m) (O₀ := 0) (G := fun _ => iprop(emp))
      (u₀ := initOf (Pipeline.cells cfgs cellOf_inj) (Pipeline.launchToks cfgs cellOf_inj))
      (hu₀ := by
        iintro Hu; imodintro
        isplitl [Hu]
        · iapply (show (ownU (initOf (Pipeline.cells cfgs cellOf_inj) (Pipeline.launchToks cfgs cellOf_inj)) : sProp 𝕄)
              ⊢ BI.own (emb₁ (initOf (Pipeline.cells cfgs cellOf_inj) (Pipeline.launchToks cfgs cellOf_inj))) from .rfl)
          iexact Hu
        iapply (show (BI.emp : sProp 𝕄) ⊢ bigSep Finset.univ (fun _ : Dev nD => (BI.emp : sProp 𝕄)) from by rw [BI.bigSep_emp_const])
        iempintro)
      (E := fun _ c => R c)
      (hE0 := by
        refine Pipeline.initEach L lv fun c => ?_
        iintro ⟨⟨-, HO, -, Hp, -⟩, -⟩
        imodintro
        isplitl [Hp]; · iexists _; iexact Hp
        iexists ∅; iexact HO)
      (hE2 := fun c => by iintro ⟨-, HO⟩; iexact HO)
      (reg0 m) (fun _ => .rfl) (fun _ => .rfl) (reg1 m) (fun _ => .rfl) (fun _ => .rfl))

end Cert.Kernel.Hand

end
-- ==== Proof.Proj.lean ====
/-
  The projection call of the idealized kernel (the first of its two pallas_calls): one grid point per block of 512 rows.
  A point loads its block of the flattened input, the whole concatenated weight matrix and the bias row, and stores
  the block  x · W + b  into its output window. Stated here: the proof data of that pipeline at any contents `V` of
  the TensorCore's buffers at the call's entry, and the body obligation at every point.
-/
import proofs.«415141_j87746181857559_3_alg».proof.Proof.Gen.KernelIdeal.Launch
import proofs.«415141_j87746181857559_3_alg».proof.Proof.Gen.KernelIdeal.Skeleton
import proofs.«415141_j87746181857559_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the projection call, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of input rows, the weight matrix and the bias row a point reads, at their literal types. -/
abbrev xblk0 (c : Dev nD) (t : Fin cfg0.N) : Vec F S512x1024 .f32 := iblk0 V c 0 t
abbrev wblk0 (c : Dev nD) (t : Fin cfg0.N) : Vec F S1024x3072 .bf16 := iblk0 V c 1 t
abbrev bblk0 (c : Dev nD) (t : Fin cfg0.N) : Vec F S1x3072 .f32 := iblk0 V c 2 t

/-- The proof data of the projection pipeline on core `c`: the arrays as the call finds them; after the body each input
    window's buffer at its block and the output window's at the block product plus bias; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (xblk0 V c t) (wblk0 V c t) (bblk0 V c t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay1 (xblk0 V c t) (wblk0 V c t) (bblk0 V c t) := by dsimp only [dat0]

/-! ## The input windows' buffers at a point -/

/-- The block of input rows is fetched at every point, so its buffer holds this point's block. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The weight matrix is fetched at the first point only; its block index never moves, so at a later point the
    buffer still holds the first point's block, which is every point's. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- The bias row likewise. -/
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## The body's accesses: each is its buffer's whole rectangle at offset zero -/

theorem hz0 : (![0, 0] : Fin 2 → Nat) = fun _ => 0 := funext fun a => by fin_cases a <;> rfl

abbrev rx0 : Rect S512x1024 := Rect.unit (s := S512x1024) ![0, 0] S512x1024.size inb_S512x1024_S512x1024_0_0
abbrev rw0 : Rect S1024x3072 := Rect.unit (s := S1024x3072) ![0, 0] S1024x3072.size inb_S1024x3072_S1024x3072_0_0
abbrev rb0 : Rect S1x3072 := Rect.unit (s := S1x3072) ![0, 0] S1x3072.size inb_S1x3072_S1x3072_0_0
abbrev ro0 : Rect S512x3072 := Rect.unit (s := S512x3072) ![0, 0] S512x3072.size inb_S512x3072_S512x3072_0_0

/-- What the body's one store leaves in the output buffer, from the three input buffers' contents: the store as a piece
    over what the three loads read. -/
def out0_3 (x : Vec F S512x1024 .f32) (w : Vec F S1024x3072 .bf16) (b : Vec F S1x3072 .f32) : Vec F S512x3072 .bf16 :=
  View.canon [⟨ro0, k0_pay1 (View.ld x rx0) (View.ld w rw0) (View.ld b rb0)⟩]

/-- The store's rectangle is the whole buffer, so it covers it. -/
theorem cover0_3 (p : Vec F S512x3072 .bf16) (y : S512x3072.Idx) :
    ∃ pc ∈ ([⟨ro0, p⟩] : List (View.Piece (Elt F) S512x3072 .bf16)), y ∈ pc.1.set :=
  ⟨_, List.mem_singleton_self _, View.mem_set_unit_zero hz0 inb_S512x3072_S512x3072_0_0 y⟩

/-- A whole-buffer load reads the contents and a whole-buffer store leaves its payload: what the store leaves is the
    block product plus bias of the three buffers' contents. -/
theorem out0_3_eq (x : Vec F S512x1024 .f32) (w : Vec F S1024x3072 .bf16) (b : Vec F S1x3072 .f32) :
    out0_3 x w b = k0_pay1 x w b := by
  unfold out0_3
  rw [View.canon_unit_zero hz0, View.ld_unit_zero (S := S512x1024) hz0, View.ld_unit_zero (S := S1024x3072) hz0,
    View.ld_unit_zero (S := S1x3072) hz0]

/-! ## The body's triple -/

set_option maxHeartbeats 1000000 in
/-- The kernel body on whole staging memrefs, the three inputs' at read contents `x`, `w`, `b` and the output's at
    anything, runs to the continuation holding the inputs' as they were and the output's at `x · w + b` (the payload). -/
theorem sound_kernel0 (c : Dev nD) (E : Set ℕ) (i : grid0.Coords)
    (arg1 : Memref sig .tc .vmem S512x1024 .f32) (harg1 : arg1.IsWhole)
    (arg2 : Memref sig .tc .vmem S1024x3072 .bf16) (harg2 : arg2.IsWhole)
    (arg3 : Memref sig .tc .vmem S1x3072 .f32) (harg3 : arg3.IsWhole)
    (arg4 : Memref sig .tc .vmem S512x3072 .bf16) (harg4 : arg4.IsWhole)
    (x : Vec F S512x1024 .f32) (w : Vec F S1024x3072 .bf16) (b : Vec F S1x3072 .f32) (K : PUnit → sProp 𝕄) :
    iprop(owns (c : Thread nD τ) arg1 fullShare x ∗ owns (c : Thread nD τ) arg2 fullShare w
        ∗ owns (c : Thread nD τ) arg3 fullShare b ∗ (∃ d, owns (c : Thread nD τ) arg4 fullShare d)
        ∗ (iprop(owns (c : Thread nD τ) arg1 fullShare x ∗ owns (c : Thread nD τ) arg2 fullShare w
            ∗ owns (c : Thread nD τ) arg3 fullShare b ∗ owns (c : Thread nD τ) arg4 fullShare (k0_pay1 x w b)) -∗ K ⟨⟩))
      ⊢ wp frame (wpE (defs₀ (F := F)) Variants.none c none) E
          (cc0__proj_kernel i arg1 harg1 arg2 harg2 arg3 harg3 arg4 harg4) K := by
  simp only [cc0__proj_kernel_eq_skeleton]; unfold cc0__proj_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact (View.read_writes_eq_canon _ _ _ (cover0_3 _)).trans
    (out0_3_eq (arg1.view.read (Elt F) f1) (arg2.view.read (Elt F) f2) (arg3.view.read (Elt F) f3))

/-! ## The body obligation, at a generic point -/

/-- What the body is called with at point `t`: the invariant, the core's debts, and each window's current buffer at what
    the pipeline has put there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns: each window's buffer at what the proof data say the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the three input buffers hold their blocks, so the body's triple applies at those blocks; the
    invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the projection pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.AttnDefs.lean ====
/-
  The attention call of the idealized kernel (the second of its two pallas_calls): sixteen grid points (batch, query
  tile, key tile), the key tile innermost. A point at key tile 0 resets the three scratch buffers (running maximum,
  running denominator, running numerator) and performs one online-softmax update from its query, key and value blocks;
  the point after it, at key tile 1, performs the second update from what the first left and stores numerator /
  denominator into the output window, which is written back there and idle at the even points.
  Stated here: one update as a function of the blocks and of the previous scratch contents, what the scratch buffers
  hold after each point, the proof data of the pipeline at any entry contents `V`, the body obligation, and the
  invariant's two ends.
-/
import proofs.«415141_j87746181857559_3_alg».proof.Proof.Gen.KernelIdeal.Launch
import proofs.«415141_j87746181857559_3_alg».proof.Proof.Gen.KernelIdeal.Skeleton
import proofs.«415141_j87746181857559_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the attention call, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query, key and value blocks a point reads, at their literal types. -/
abbrev qblk (c : Dev nD) (t : Fin cfg1.N) : Vec F S1x1024x1024 .bf16 := iblk1 V c 0 t
abbrev kblk (c : Dev nD) (t : Fin cfg1.N) : Vec F S1x1024x1024 .bf16 := iblk1 V c 1 t
abbrev vblk (c : Dev nD) (t : Fin cfg1.N) : Vec F S1x1024x1024 .bf16 := iblk1 V c 2 t

/-! ## One online-softmax update

From the previous running maximum `mp`, denominator `lp` and numerator `ap`, and the blocks `q`, `k`, `v`:
the scores are `s = q · kᵀ`; the new maximum is `max mp (rowmax s)`; with `a = exp (mp - m')` and
`p = exp (s - m')`, the new denominator is `a · lp + rowsum p` and the new numerator `a · ap + p · v`. -/

/-- The running maximum after one update. -/
def stepM (q k : Vec F S1x1024x1024 .bf16) (mp : Vec F S1024x1 .f32) : Vec F S1024x1 .f32 :=
  k1_pay2 (k1_pay9 q k mp)
/-- The running denominator after one update. -/
def stepL (q k : Vec F S1x1024x1024 .bf16) (mp lp : Vec F S1024x1 .f32) : Vec F S1024x1 .f32 :=
  k1_pay12 q k mp mp lp
/-- The running numerator after one update. -/
def stepA (q k v : Vec F S1x1024x1024 .bf16) (mp : Vec F S1024x1 .f32) (ap : Vec F S1024x1024 .f32) : Vec F S1024x1024 .f32 :=
  k1_pay1 (k1_pay7 v) (k1_pay11 q k mp) ap (k1_pay13 q k mp mp)

/-- The point before `t` (point 0 at `t = 0`, where it is never consulted). -/
def prevPt (t : Fin cfg1.N) : Fin cfg1.N := ⟨t.val - 1, Nat.lt_of_le_of_lt (Nat.sub_le _ _) t.isLt⟩

/-- The scratch contents after a point at key tile 0: one update from the reset values (-∞, 0, 0). -/
def mA (c : Dev nD) (t : Fin cfg1.N) : Vec F S1024x1 .f32 := stepM (qblk V c t) (kblk V c t) (k1_pay4 (F := F))
def lA (c : Dev nD) (t : Fin cfg1.N) : Vec F S1024x1 .f32 := stepL (qblk V c t) (kblk V c t) (k1_pay4 (F := F)) (k1_pay5 (F := F))
def aA (c : Dev nD) (t : Fin cfg1.N) : Vec F S1024x1024 .f32 := stepA (qblk V c t) (kblk V c t) (vblk V c t) (k1_pay4 (F := F)) (k1_pay6 (F := F))
/-- The scratch contents after a point at key tile 1: one more update from what the point before left. -/
def mB (c : Dev nD) (t : Fin cfg1.N) : Vec F S1024x1 .f32 := stepM (qblk V c t) (kblk V c t) (mA V c (prevPt t))
def lB (c : Dev nD) (t : Fin cfg1.N) : Vec F S1024x1 .f32 := stepL (qblk V c t) (kblk V c t) (mA V c (prevPt t)) (lA V c (prevPt t))
def aB (c : Dev nD) (t : Fin cfg1.N) : Vec F S1024x1024 .f32 := stepA (qblk V c t) (kblk V c t) (vblk V c t) (mA V c (prevPt t)) (aA V c (prevPt t))
/-- What a point at key tile 1 stores into the output window: numerator / denominator. -/
def outB (c : Dev nD) (t : Fin cfg1.N) : Vec F S1x1024x1024 .f32 := k1_pay3 (aB V c t) (lB V c t)

/-- The three scratch buffers after point `t`, by the parity of the point. -/
def mAt (c : Dev nD) (t : Fin cfg1.N) : Vec F S1024x1 .f32 := if t.val % 2 = 0 then mA V c t else mB V c t
def lAt (c : Dev nD) (t : Fin cfg1.N) : Vec F S1024x1 .f32 := if t.val % 2 = 0 then lA V c t else lB V c t
def aAt (c : Dev nD) (t : Fin cfg1.N) : Vec F S1024x1024 .f32 := if t.val % 2 = 0 then aA V c t else aB V c t

/-- The scratch memrefs. -/
abbrev scM0 : Memref sig .tc .vmem S1024x1 .f32 := Memref.whole cc1_scratch0
abbrev scM1 : Memref sig .tc .vmem S1024x1 .f32 := Memref.whole cc1_scratch1
abbrev scM2 : Memref sig .tc .vmem S1024x1024 .f32 := Memref.whole cc1_scratch2

/-- The projection call's six staging buffers, each whole at some contents: the scoped buffers the attention call never touches. -/
def otherStaging (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The call's invariant before position `n`: before the first point every scoped buffer that is no staging buffer
    of this call at anything, and the generator register at some state; afterwards the three scratch buffers at what
    the point before left, the other scoped buffers at anything, the generator register at some state. -/
def Phi1 (c : Dev nD) : (n : ℕ) → n ≤ cfg1.N → sProp 𝕄
  | 0, _ => Pipeline.ΦA spec1 c
  | n + 1, hn => iprop(owns (c : Thread nD τ) scM0 fullShare (mAt V c ⟨n, hn⟩) ∗ owns (c : Thread nD τ) scM1 fullShare (lAt V c ⟨n, hn⟩)
      ∗ owns (c : Thread nD τ) scM2 fullShare (aAt V c ⟨n, hn⟩) ∗ otherStaging c ∗ (∃ r, prngReg c r))

/-- The proof data of the attention pipeline on core `c`: the arrays as the call finds them (the three input windows
    read ONE array, each holding its own share of it); after the body each input window's buffer at its block and the
    output window's at numerator / denominator (consulted at the odd points only: at the even ones the window is idle);
    the invariant `Phi1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outB V c t
  Φ t := Phi1 V c t.val (Nat.le_of_lt_succ t.isLt)
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outB V c t := by dsimp only [dat1]

end Cert.KernelIdeal.Hand

end
-- ==== Proof.AttnRunA.lean ====
/-
  The attention body at a point of key tile 0, on whole memrefs: it resets the three scratch buffers to (-∞, 0, 0),
  performs one online-softmax update from the query, key and value blocks, and stores nothing into the output buffer.
-/
import proofs.«415141_j87746181857559_3_alg».proof.Proof.AttnDefs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

namespace RunA

/-! ## The two tests at key tile 0 -/

/-- At key tile 0 the first test (is the key tile 0?) holds: the scratch buffers are reset. -/
theorem cond1_of_zero (i : grid1.Coords) (hi : (i 2).val = 0) :
    Scalar.cmpi .ne (Scalar.extui (Scalar.cmpi .eq (BitVec.ofNat 32 (i 2).val) 0#32)) 0#32 = 1#1 := by
  rw [hi]; decide

/-- At key tile 0 the second test (is the key tile the last one?) fails: nothing is stored into the output. -/
theorem cond2_of_zero (i : grid1.Coords) (hi : (i 2).val = 0) : ¬ k1_cond2 i = 1#1 := by
  unfold k1_cond2; rw [hi]; decide

/-! ## Accesses through the whole rectangle

Each load and store of the body goes through the rectangle of its buffer's own sizes at offset zero. Such a load
reads what the view reads; such a store, made last, leaves its payload at every index whatever was stored before. -/

theorem zeros2 : (![0, 0] : Fin 2 → ℕ) = fun _ => 0 := funext fun a => by fin_cases a <;> rfl
theorem zeros3 : (![0, 0, 0] : Fin 3 → ℕ) = fun _ => 0 := funext fun a => by fin_cases a <;> rfl

/-- A load through the whole rectangle is the view's reading of the raw contents. -/
theorem readAt_full {κ : Kind} {sp : Space} {S : Shape} {e : EltTy} (v : View sig κ sp S e) (f : v.ty.Contents (Elt F))
    {off : Fin S.rank → ℕ} (h : off = fun _ => 0) (inb : ∀ a, off a + S.size a ≤ S.size a) :
    View.readAt (Elt F) v (Rect.unit off S.size inb).toLoadRect f = v.read (Elt F) f := by
  rw [View.readAt_eq_ld, View.ld_unit_zero h]

/-- A store through the whole rectangle made after the stores `L` reads back as its payload. -/
theorem read_writes_full {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

end RunA

open RunA

/-! ## The body at key tile 0 -/

set_option maxHeartbeats 4000000 in
/-- At key tile 0 the body, run on whole memrefs holding the blocks `q`, `k`, `v`, the output buffer at `d6` and the
    scratch buffers at anything, leaves the blocks and the output buffer as they were and the scratch buffers at one
    update from the reset values. -/
theorem runA (c : Dev nD) (E : Set ℕ) (i : grid1.Coords) (hi : (i 2).val = 0)
    (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole)
    (q k v : Vec F S1x1024x1024 .bf16) (d6 : Vec F S1x1024x1024 .f32) (K : PUnit → sProp 𝕄) :
    iprop(owns (c : Thread nD τ) arg3 fullShare q ∗ owns (c : Thread nD τ) arg4 fullShare k ∗ owns (c : Thread nD τ) arg5 fullShare v
        ∗ owns (c : Thread nD τ) arg6 fullShare d6
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare q ∗ owns (c : Thread nD τ) arg4 fullShare k ∗ owns (c : Thread nD τ) arg5 fullShare v
            ∗ owns (c : Thread nD τ) arg6 fullShare d6
            ∗ owns (c : Thread nD τ) arg7 fullShare (stepM q k (k1_pay4 (F := F)))
            ∗ owns (c : Thread nD τ) arg8 fullShare (stepL q k (k1_pay4 (F := F)) (k1_pay5 (F := F)))
            ∗ owns (c : Thread nD τ) arg9 fullShare (stepA q k v (k1_pay4 (F := F)) (k1_pay6 (F := F)))) -∗ K ⟨⟩))
      ⊢ wp frame (wpE (defs₀ (F := F)) Variants.none c none) E (cc1__attn_kernel i arg3 harg3 arg4 harg4 arg5 harg5 arg6 harg6 arg7 harg7 arg8 harg8 arg9 harg9) K := by
  -- the printed body through its skeleton: memory operations and the two tests over the named payloads
  sl_unfold [cc1__attn_kernel]
  sl_unfold [cc1__attn_kernel_skel]
  sl_unfold [k1_part1]
  sl_unfold [k1_part1_skel]
  unfold owns
  iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  -- the blocks and the output contents are what the memrefs read of their raw contents
  subst hf3; subst hf4; subst hf5; subst hf6
  -- the run: the reset taken (three whole stores), one update (loads of the blocks, read-backs of the reset values,
  -- three whole stores), the output store skipped
  sl_exec (disch := first | exact cond1_of_zero i hi | exact cond2_of_zero i hi)
  sl_step
  iapply Hk
  -- the three blocks and the output buffer: never stored into
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  -- the running maximum: the last store's payload, its previous maximum the reset value read back
  isplitl [H7]
  · iexists _; isplitr
    swap; · iexact H7
    ipureintro
    rw [read_writes_full arg7.view f7 zeros2]
    sl_unfold_run_names
    unfold stepM
    rw [View.readCov_unit_zero (S := S1024x1) _ zeros2, readAt_full arg3.view f3 zeros3, readAt_full arg4.view f4 zeros3]
  -- the running denominator: previous maximum and denominator the reset values read back
  isplitl [H8]
  · iexists _; isplitr
    swap; · iexact H8
    ipureintro
    rw [read_writes_full arg8.view f8 zeros2]
    sl_unfold_run_names
    unfold stepL
    rw [View.readCov_unit_zero (S := S1024x1) _ zeros2, View.readCov_unit_zero (S := S1024x1) _ zeros2,
      readAt_full arg3.view f3 zeros3, readAt_full arg4.view f4 zeros3]
  -- the running numerator: previous maximum and numerator the reset values read back
  iexists _; isplitr
  swap; · iexact H9
  ipureintro
  rw [read_writes_full arg9.view f9 zeros2]
  sl_unfold_run_names
  unfold stepA
  rw [View.readCov_unit_zero (S := S1024x1) _ zeros2, View.readCov_unit_zero (S := S1024x1024) _ zeros2,
    readAt_full arg3.view f3 zeros3, readAt_full arg4.view f4 zeros3, readAt_full arg5.view f5 zeros3]

end Cert.KernelIdeal.Hand

end
-- ==== Proof.AttnRunB.lean ====
/-
  The attention body at a point of key tile 1, on whole memrefs: it performs one online-softmax update from the
  query, key and value blocks and from what the scratch buffers hold, and stores numerator / denominator into the
  output buffer.
-/
import proofs.«415141_j87746181857559_3_alg».proof.Proof.AttnDefs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

namespace RunB

/-! ## The two tests at key tile 1 -/

/-- At key tile 1 the first test (is the key tile 0?) fails, so the scratch buffers are not reset. -/
theorem cond1_of_one (i : grid1.Coords) (hi : (i 2).val = 1) :
    ¬ (Scalar.cmpi .ne (Scalar.extui (Scalar.cmpi .eq (BitVec.ofNat 32 (i 2).val) 0#32)) 0#32 = 1#1) := by
  rw [hi]; decide

/-- At key tile 1 the second test (is the key tile the last one?) holds, so the output is stored. -/
theorem cond2_of_one (i : grid1.Coords) (hi : (i 2).val = 1) : k1_cond2 i = 1#1 := by
  unfold k1_cond2; rw [hi]; decide

/-! ## Whole-buffer loads and stores

Every access of the body is through the rectangle of the buffer's own sizes at zero offsets: such a load reads the
contents, and such a store leaves its payload whatever was there before. -/

theorem hz2 : (![0, 0] : Fin 2 → Nat) = fun _ => 0 := funext fun a => by fin_cases a <;> rfl
theorem hz3 : (![0, 0, 0] : Fin 3 → Nat) = fun _ => 0 := funext fun a => by fin_cases a <;> rfl

/-- A whole-rectangle load from a whole memref whose raw contents read `X` is `X`. -/
theorem readAt_whole {κ : Kind} {sp : Space} {S : Shape} {e : EltTy} (m : Memref sig κ sp S e) (hm : m.IsWhole)
    {off : Fin S.rank → Nat} (h : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread, View.ld_unit_zero h]

/-- One whole-rectangle store, read back through the view, is its payload, whatever the buffer held before. -/
theorem read_writes_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩),
    View.canon_unit_zero h]

end RunB

open RunB

/-! ## The body at key tile 1 -/

set_option maxHeartbeats 4000000 in
/-- At key tile 1 the body, run on whole memrefs holding the blocks `q`, `k`, `v`, the scratch buffers at `mp`, `lp`,
    `ap` and the output buffer at anything, leaves the blocks as they were, the scratch buffers at one update from
    `mp`, `lp`, `ap`, and the output buffer at the new numerator divided by the new denominator. -/
theorem runB (c : Dev nD) (E : Set ℕ) (i : grid1.Coords) (hi : (i 2).val = 1)
    (arg3 : Memref sig .tc .vmem S1x1024x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole)
    (q k v : Vec F S1x1024x1024 .bf16) (mp lp : Vec F S1024x1 .f32) (ap : Vec F S1024x1024 .f32) (K : PUnit → sProp 𝕄) :
    iprop(owns (c : Thread nD τ) arg3 fullShare q ∗ owns (c : Thread nD τ) arg4 fullShare k ∗ owns (c : Thread nD τ) arg5 fullShare v
        ∗ (∃ d, owns (c : Thread nD τ) arg6 fullShare d)
        ∗ owns (c : Thread nD τ) arg7 fullShare mp ∗ owns (c : Thread nD τ) arg8 fullShare lp ∗ owns (c : Thread nD τ) arg9 fullShare ap
        ∗ (iprop(owns (c : Thread nD τ) arg3 fullShare q ∗ owns (c : Thread nD τ) arg4 fullShare k ∗ owns (c : Thread nD τ) arg5 fullShare v
            ∗ owns (c : Thread nD τ) arg6 fullShare (k1_pay3 (stepA q k v mp ap) (stepL q k mp lp))
            ∗ owns (c : Thread nD τ) arg7 fullShare (stepM q k mp)
            ∗ owns (c : Thread nD τ) arg8 fullShare (stepL q k mp lp)
            ∗ owns (c : Thread nD τ) arg9 fullShare (stepA q k v mp ap)) -∗ K ⟨⟩))
      ⊢ wp frame (wpE (defs₀ (F := F)) Variants.none c none) E (cc1__attn_kernel i arg3 harg3 arg4 harg4 arg5 harg5 arg6 harg6 arg7 harg7 arg8 harg8 arg9 harg9) K := by
  sl_unfold [cc1__attn_kernel, k1_part1]
  unfold owns
  iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  -- the raw contents of each whole memref are determined by what it reads
  obtain rfl := harg3.eq_unread hf3; obtain rfl := harg4.eq_unread hf4; obtain rfl := harg5.eq_unread hf5
  obtain rfl := harg7.eq_unread hf7; obtain rfl := harg8.eq_unread hf8; obtain rfl := harg9.eq_unread hf9
  -- the body: reset skipped, one update stored into the three scratch buffers, the quotient stored into the output
  sl_exec (disch := first | exact cond1_of_one i hi | exact cond2_of_one i hi)
  sl_step
  iapply Hk
  -- the three blocks are as they were
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  -- the output: new numerator / new denominator, both read back from the scratch buffers just stored
  isplitl [H6]
  · iexists _; isplitr
    swap; · iexact H6
    ipureintro
    sl_unfold_run_names
    unfold stepA stepL
    rw [read_writes_whole _ _ hz3, View.readCov_unit_zero _ hz2, View.readCov_unit_zero _ hz2,
      readAt_whole arg3 harg3 hz3, readAt_whole arg4 harg4 hz3, readAt_whole arg5 harg5 hz3,
      readAt_whole arg7 harg7 hz2, readAt_whole arg8 harg8 hz2, readAt_whole arg9 harg9 hz2]
  -- the running maximum
  isplitl [H7]
  · iexists _; isplitr
    swap; · iexact H7
    ipureintro
    sl_unfold_run_names
    unfold stepM
    rw [read_writes_whole _ _ hz2, readAt_whole arg3 harg3 hz3, readAt_whole arg4 harg4 hz3, readAt_whole arg7 harg7 hz2]
  -- the running denominator
  isplitl [H8]
  · iexists _; isplitr
    swap; · iexact H8
    ipureintro
    sl_unfold_run_names
    unfold stepL
    rw [read_writes_whole _ _ hz2, readAt_whole arg3 harg3 hz3, readAt_whole arg4 harg4 hz3,
      readAt_whole arg7 harg7 hz2, readAt_whole arg8 harg8 hz2]
  -- the running numerator
  iexists _; isplitr
  swap; · iexact H9
  ipureintro
  sl_unfold_run_names
  unfold stepA
  rw [read_writes_whole _ _ hz2, readAt_whole arg3 harg3 hz3, readAt_whole arg4 harg4 hz3, readAt_whole arg5 harg5 hz3,
    readAt_whole arg7 harg7 hz2, readAt_whole arg9 harg9 hz2]

end Cert.KernelIdeal.Hand

end
-- ==== Proof.Attn.lean ====
/-
  The attention call's body obligation at every grid point, from the body's two runs (key tile 0 and key tile 1),
  and the two ends of its invariant.
-/
import proofs.«415141_j87746181857559_3_alg».proof.Proof.AttnRunA
import proofs.«415141_j87746181857559_3_alg».proof.Proof.AttnRunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The grid: the key tile is the parity of the point -/

/-- The key-tile coordinate of a point is the point's parity (the key tile is the innermost grid axis, of extent 2). -/
theorem keyTile_eq : ∀ t : Fin cfg1.N, ((grid1.coords t) 2).val = t.val % 2 :=
  (by decide +kernel : ∀ t : Fin grid1.N, ((grid1.coords t) 2).val = t.val % 2)

/-- The output window is idle exactly at the points of key tile 0, -/
theorem idle3_even : ∀ t : Fin cfg1.N, t.val % 2 = 0 → cfg1.idle 3 (grid1.coords t) = true :=
  (by decide +kernel : ∀ t : Fin grid1.N, t.val % 2 = 0 → idle1 3 (grid1.coords t) = true)
/-- live at the points of key tile 1, -/
theorem live3_odd : ∀ t : Fin cfg1.N, ¬t.val % 2 = 0 → cfg1.idle 3 (grid1.coords t) = false :=
  (by decide +kernel : ∀ t : Fin grid1.N, ¬t.val % 2 = 0 → idle1 3 (grid1.coords t) = false)
/-- and not written back at the points of key tile 0. -/
theorem noFlush3_even (t : Fin cfg1.N) (h : t.val % 2 = 0) : (cfg1.win 3).flush t = false := by
  cases hf : (cfg1.win 3).flush t with
  | false => rfl
  | true => exact absurd ((flush1_3 t).mp hf) (by omega)

/-! ## The input windows hold their blocks -/

/-- An input window's current staging buffer holds the window's block at every point, fetched there or not: where it
    is not fetched its block index has not moved since the point before, and the body leaves the block in place. -/
theorem before1_0 (c : Dev nD) (t : Fin cfg1.N) (d) : (dat1 V c).before 0 t d = iblk1 V c 0 t := by
  have hkeep : ∀ t, (cfg1.win 0).cut (cfg1.grid.coords t) ((dat1 V c).after 0 t) = (dat1 V c).blockOf 0 t := fun t => by
    rw [after1_0]; unfold Dat.blockOf iblk1; rw [A_eq1]; try rfl
  rw [(dat1 V c).before_in_eq_fetched 0 rfl (fun _ => rfl) (fun _ _ _ => rfl) hkeep t d]
  unfold Dat.fetched Dat.blockOf iblk1; rw [A_eq1]; try rfl
theorem before1_1 (c : Dev nD) (t : Fin cfg1.N) (d) : (dat1 V c).before 1 t d = iblk1 V c 1 t := by
  have hkeep : ∀ t, (cfg1.win 1).cut (cfg1.grid.coords t) ((dat1 V c).after 1 t) = (dat1 V c).blockOf 1 t := fun t => by
    rw [after1_1]; unfold Dat.blockOf iblk1; rw [A_eq1]; try rfl
  rw [(dat1 V c).before_in_eq_fetched 1 rfl (fun _ => rfl) (fun _ _ _ => rfl) hkeep t d]
  unfold Dat.fetched Dat.blockOf iblk1; rw [A_eq1]; try rfl
theorem before1_2 (c : Dev nD) (t : Fin cfg1.N) (d) : (dat1 V c).before 2 t d = iblk1 V c 2 t := by
  have hkeep : ∀ t, (cfg1.win 2).cut (cfg1.grid.coords t) ((dat1 V c).after 2 t) = (dat1 V c).blockOf 2 t := fun t => by
    rw [after1_2]; unfold Dat.blockOf iblk1; rw [A_eq1]; try rfl
  rw [(dat1 V c).before_in_eq_fetched 2 rfl (fun _ => rfl) (fun _ _ _ => rfl) hkeep t d]
  unfold Dat.fetched Dat.blockOf iblk1; rw [A_eq1]; try rfl

/-! ## The invariant's forms -/

/-- The class's invariant, the three scratch buffers as memrefs owned at some contents. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)
          ∗ (∃ d, owns (c : Thread nD τ) scM0 fullShare d) ∗ (∃ d, owns (c : Thread nD τ) scM1 fullShare d) ∗ (∃ d, owns (c : Thread nD τ) scM2 fullShare d))
        ∗ (∃ r, prngReg c r)) := by
  unfold Pipeline.ΦA; rw [scopedRest1_eq]; simp only [scM0, scM1, scM2, owns_whole]; try rfl

theorem Phi1_zero (c : Dev nD) (n : ℕ) (h : n ≤ cfg1.N) (hz : n = 0) : Phi1 V c n h = Pipeline.ΦA spec1 c := by
  subst hz; rfl

/-- After point `n`: the scratch buffers at that point's contents. -/
theorem Phi1_succ (c : Dev nD) (n : ℕ) (hn : n < cfg1.N) :
    Phi1 V c (n + 1) hn = iprop(owns (c : Thread nD τ) scM0 fullShare (mAt V c ⟨n, hn⟩) ∗ owns (c : Thread nD τ) scM1 fullShare (lAt V c ⟨n, hn⟩)
      ∗ owns (c : Thread nD τ) scM2 fullShare (aAt V c ⟨n, hn⟩) ∗ otherStaging c ∗ (∃ r, prngReg c r)) := rfl

/-- Before a point that is not the first: the scratch buffers at what the point before left. -/
theorem Phi1_pos (c : Dev nD) (n : ℕ) (h : n ≤ cfg1.N) (hz : n ≠ 0) :
    Phi1 V c n h = iprop(owns (c : Thread nD τ) scM0 fullShare (mAt V c ⟨n - 1, by omega⟩) ∗ owns (c : Thread nD τ) scM1 fullShare (lAt V c ⟨n - 1, by omega⟩)
      ∗ owns (c : Thread nD τ) scM2 fullShare (aAt V c ⟨n - 1, by omega⟩) ∗ otherStaging c ∗ (∃ r, prngReg c r)) := by
  cases n with
  | zero => exact absurd rfl hz
  | succ n => rfl

theorem Phi1_castSucc (c : Dev nD) (t : Fin cfg1.N) :
    (dat1 V c).Φ t.castSucc = Phi1 V c t.val (Nat.le_of_lt t.isLt) := by
  dsimp only [dat1]; simp only [Fin.coe_castSucc]

theorem mAt_even (c : Dev nD) (t : Fin cfg1.N) (h : t.val % 2 = 0) : mAt V c t = mA V c t := if_pos h
theorem lAt_even (c : Dev nD) (t : Fin cfg1.N) (h : t.val % 2 = 0) : lAt V c t = lA V c t := if_pos h
theorem aAt_even (c : Dev nD) (t : Fin cfg1.N) (h : t.val % 2 = 0) : aAt V c t = aA V c t := if_pos h
theorem mAt_odd (c : Dev nD) (t : Fin cfg1.N) (h : ¬t.val % 2 = 0) : mAt V c t = mB V c t := if_neg h
theorem lAt_odd (c : Dev nD) (t : Fin cfg1.N) (h : ¬t.val % 2 = 0) : lAt V c t = lB V c t := if_neg h
theorem aAt_odd (c : Dev nD) (t : Fin cfg1.N) (h : ¬t.val % 2 = 0) : aAt V c t = aB V c t := if_neg h

/-- The invariant after point `t`: the scratch buffers at that point's contents. -/
theorem Phi1_after (c : Dev nD) (t : Fin cfg1.N) :
    (dat1 V c).Φ t.succ = iprop(owns (c : Thread nD τ) scM0 fullShare (mAt V c t) ∗ owns (c : Thread nD τ) scM1 fullShare (lAt V c t)
      ∗ owns (c : Thread nD τ) scM2 fullShare (aAt V c t) ∗ otherStaging c ∗ (∃ r, prngReg c r)) := rfl

/-- The invariant before a point that is not the first: the scratch buffers at what the point before left. -/
theorem Phi1_before (c : Dev nD) (t : Fin cfg1.N) (hz : t.val ≠ 0) :
    (dat1 V c).Φ t.castSucc = iprop(owns (c : Thread nD τ) scM0 fullShare (mAt V c (prevPt t)) ∗ owns (c : Thread nD τ) scM1 fullShare (lAt V c (prevPt t))
      ∗ owns (c : Thread nD τ) scM2 fullShare (aAt V c (prevPt t)) ∗ otherStaging c ∗ (∃ r, prngReg c r)) := by
  rw [Phi1_castSucc, Phi1_pos V c _ _ hz]; rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point. The input windows' buffers hold their blocks. At a point of key tile 0 the run of key
    tile 0 applies: the invariant hands it the scratch buffers at anything (the class's invariant at the first point,
    what the point before left afterwards), takes them back at one update from the reset values, and the output
    buffer, idle there, goes back as it was found. At a point of key tile 1 the run of key tile 1 applies: the
    invariant hands it the scratch buffers at what the point of key tile 0 before it left, takes them back at one more
    update, and the output buffer holds numerator / denominator. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [Phi1_after V c t]
  rw [show (dat1 V c).leavesExact 0 t = owns (c : Thread nD τ) (st1_0 t) fullShare ((dat1 V c).after 0 t) from rfl, after1_0]
  rw [show (dat1 V c).leavesExact 1 t = owns (c : Thread nD τ) (st1_1 t) fullShare ((dat1 V c).after 1 t) from rfl, after1_1]
  rw [show (dat1 V c).leavesExact 2 t = owns (c : Thread nD τ) (st1_2 t) fullShare ((dat1 V c).after 2 t) from rfl, after1_2]
  by_cases h0 : t.val % 2 = 0
  · -- key tile 0
    rw [Dat.leavesExact_idle (dat1 V c) 3 t (idle3_even t h0) (noFlush3_even t h0)]
    rw [mAt_even V c t h0, lAt_even V c t h0, aAt_even V c t h0]
    unfold mA lA aA otherStaging
    by_cases hz : t.val = 0
    · rw [Phi1_castSucc V c t, Phi1_zero V c _ _ hz, PhiA1_eq]
      iintro ⟨⟨⟨S0, S1, S2, S3, S4, S5, HM, HL, HA⟩, Hg⟩, Ho, ⟨%d0, H0⟩, ⟨%d1, H1⟩, ⟨%d2, H2⟩, ⟨%d3, H3⟩⟩
      iapply (runA c Set.univ (grid1.coords t) ((keyTile_eq t).trans h0) _ _ _ _ _ _ _ _ _ _ _ _ _ _
        (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [HM]; · iexact HM
      isplitl [HL]; · iexact HL
      isplitl [HA]; · iexact HA
      iintro ⟨H0, H1, H2, H3, HM, HL, HA⟩
      isplitr [Ho H0 H1 H2 H3]
      · isplitl [HM]; · iexact HM
        isplitl [HL]; · iexact HL
        isplitl [HA]; · iexact HA
        isplitr [Hg]
        · isplitl [S0]; · iexact S0
          isplitl [S1]; · iexact S1
          isplitl [S2]; · iexact S2
          isplitl [S3]; · iexact S3
          isplitl [S4]; · iexact S4
          iexact S5
        · iexact Hg
      isplitl [Ho]; · iexact Ho
      isplitl [H0]; · iexact H0
      isplitl [H1]; · iexact H1
      isplitl [H2]; · iexact H2
      iexists d3; iexact H3
    · rw [Phi1_before V c t hz]
      unfold otherStaging
      iintro ⟨⟨HM, HL, HA, Hs, Hg⟩, Ho, ⟨%d0, H0⟩, ⟨%d1, H1⟩, ⟨%d2, H2⟩, ⟨%d3, H3⟩⟩
      iapply (runA c Set.univ (grid1.coords t) ((keyTile_eq t).trans h0) _ _ _ _ _ _ _ _ _ _ _ _ _ _
        (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [HM]; · iexists _; iexact HM
      isplitl [HL]; · iexists _; iexact HL
      isplitl [HA]; · iexists _; iexact HA
      iintro ⟨H0, H1, H2, H3, HM, HL, HA⟩
      isplitr [Ho H0 H1 H2 H3]
      · isplitl [HM]; · iexact HM
        isplitl [HL]; · iexact HL
        isplitl [HA]; · iexact HA
        isplitl [Hs]; · iexact Hs
        iexact Hg
      isplitl [Ho]; · iexact Ho
      isplitl [H0]; · iexact H0
      isplitl [H1]; · iexact H1
      isplitl [H2]; · iexact H2
      iexists d3; iexact H3
  · -- key tile 1
    have hz : t.val ≠ 0 := fun e => h0 (by rw [e])
    have hp : (prevPt t).val % 2 = 0 := by
      have : (prevPt t).val = t.val - 1 := rfl
      omega
    rw [show (dat1 V c).leavesExact 3 t = owns (c : Thread nD τ) (st1_3 t) fullShare ((dat1 V c).after 3 t) from by
      unfold Dat.leavesExact; rw [live3_odd t h0], after1_3]
    rw [mAt_odd V c t h0, lAt_odd V c t h0, aAt_odd V c t h0]
    rw [Phi1_before V c t hz, mAt_even V c (prevPt t) hp, lAt_even V c (prevPt t) hp, aAt_even V c (prevPt t) hp]
    unfold outB aB lB mB
    iintro ⟨⟨HM, HL, HA, Hs, Hg⟩, Ho, ⟨%d0, H0⟩, ⟨%d1, H1⟩, ⟨%d2, H2⟩, ⟨%d3, H3⟩⟩
    iapply (runB c Set.univ (grid1.coords t) ((keyTile_eq t).trans (by omega)) _ _ _ _ _ _ _ _ _ _ _ _ _ _
      (iblk1 V c 0 t) (iblk1 V c 1 t) (iblk1 V c 2 t) (mA V c (prevPt t)) (lA V c (prevPt t)) (aA V c (prevPt t)) _)
    isplitl [H0]; · iexact H0
    isplitl [H1]; · iexact H1
    isplitl [H2]; · iexact H2
    isplitl [H3]; · iexists _; iexact H3
    isplitl [HM]; · iexact HM
    isplitl [HL]; · iexact HL
    isplitl [HA]; · iexact HA
    iintro ⟨H0, H1, H2, H3, HM, HL, HA⟩
    isplitr [Ho H0 H1 H2 H3]
    · isplitl [HM]; · iexact HM
      isplitl [HL]; · iexact HL
      isplitl [HA]; · iexact HA
      isplitl [Hs]; · iexact Hs
      iexact Hg
    isplitl [Ho]; · iexact Ho
    isplitl [H0]; · iexact H0
    isplitl [H1]; · iexact H1
    isplitl [H2]; · iexact H2
    iexact H3

/-- The body obligation of the attention pipeline, at every point. -/
theorem body_obligation1 (c : Dev nD) : BodyObligation (dat1 (F := F) V c) (defs₀ (F := F)) Variants.none () Set.univ := by
  intro t
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]

/-- After the last point the invariant gives the class's invariant back: the scratch contents are forgotten. -/
theorem hout1 (c : Dev nD) : (dat1 V c).Φ (Fin.last cfg1.N) ⊢ Pipeline.ΦA (U := UR sig nD τ) (Val := Elt F) spec1 c := by
  have hne : (Fin.last cfg1.N).val ≠ 0 := by rw [Fin.val_last]; have : cfg1.N = 16 := N_1; omega
  rw [show (dat1 V c).Φ (Fin.last cfg1.N) = Phi1 V c (Fin.last cfg1.N).val (Nat.le_of_lt_succ (Fin.last cfg1.N).isLt) from rfl,
    Phi1_pos V c _ _ hne, PhiA1_eq]
  unfold otherStaging
  iintro ⟨HM, HL, HA, ⟨S0, S1, S2, S3, S4, S5⟩, Hg⟩
  isplitr [Hg]
  · isplitl [S0]; · iexact S0
    isplitl [S1]; · iexact S1
    isplitl [S2]; · iexact S2
    isplitl [S3]; · iexact S3
    isplitl [S4]; · iexact S4
    isplitl [S5]; · iexact S5
    isplitl [HM]; · iexists _; iexact HM
    isplitl [HL]; · iexists _; iexact HL
    iexists _; iexact HA
  · iexact Hg

end Cert.KernelIdeal.Hand

end
-- ==== Proof.Shared.lean ====
/-
  The attention call reads ONE array through three input windows. At its entry the buffer behind that array, held
  whole, is split into three shares, one per window; at its exit the three shares, each still at the entry contents,
  are joined again, and the result array is put back beside the buffers the call never touched.
-/
import proofs.«415141_j87746181857559_3_alg».proof.Proof.Gen.KernelIdeal.Launch
import Idealize.ShloMosaic.Lib.Pipeline.Frame
import Idealize.ShloMosaic.Lib.Pipeline.Regions
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The buffers behind the attention call's windowed arrays: the shared input array and the result array. -/
theorem arrRefs_eq : (Finset.univ.image (Pipeline.arrRef spec1) : Finset (Ref sig .tc)) = {main_v13, main_v14} := by decide

/-- Propositions that entail each other are equal. -/
theorem eq_of_equiv {M : Type} [URA M] {P Q : sProp M} (h : P ⊣⊢ Q) : P = Q :=
  Idealize.SL.BI.Entails.antisymm h.1 h.2

/-- Three conjuncts beside a fourth, bracketed to the right. -/
theorem sep_assoc4 {M : Type} [URA M] {A B C D : sProp M} : iprop((A ∗ B ∗ C) ∗ D) = iprop(A ∗ B ∗ C ∗ D) :=
  eq_of_equiv (sep_assoc.trans (sep_congr_right sep_assoc))

/-- A location held whole at the full share is the same location held three times at the same contents: at the left
    half of the full share, and at the two halves of its right half. The full share is the sum of its halves, and
    the right half is the sum of its own. -/
theorem three_shares {ℓ : Loc nD τ sig} (f : Buf (Elt F) ℓ) :
    (ℓ ↦{fullShare} f : sProp 𝕄)
      = iprop((ℓ ↦{fullShare.left} f) ∗ (ℓ ↦{fullShare.right.left} f) ∗ ℓ ↦{fullShare.right.right} f) := by
  rw [eq_of_equiv (pointsTo_share (PosShare.mem_left_op_right fullShare)),
    eq_of_equiv (pointsTo_share (PosShare.mem_left_op_right fullShare.right))]

section Windows

variable (c : Dev nD) (dat : Dat τ (Elt F) Unit ℕ (UR sig nD τ) ℕ cfg1 c)
  (G : (w : Fin cfg1.W) → Buf (Elt F) ((cfg1.win w).arr.view.loc (c : Thread nD τ)))

/-- Each input window's array is the whole buffer `main_v13`, held at the window's own share. -/
theorem win0_eq (q : PosShare TreeShare) (hq : dat.q 0 = q) (f : Buf (Elt F) ((c : Thread nD τ).loc main_v13)) (hG : G 0 = f) :
    ((cfg1.win 0).arr.view.loc (c : Thread nD τ) ↦[(cfg1.win 0).arr.view.set]{dat.share 0} G 0 : sProp 𝕄)
      = ((c : Thread nD τ).loc main_v13 ↦{q} f) := by
  rw [(arr_whole1 0).set_eq_univ, hG, show dat.share 0 = q from hq]

theorem win1_eq (q : PosShare TreeShare) (hq : dat.q 1 = q) (f : Buf (Elt F) ((c : Thread nD τ).loc main_v13)) (hG : G 1 = f) :
    ((cfg1.win 1).arr.view.loc (c : Thread nD τ) ↦[(cfg1.win 1).arr.view.set]{dat.share 1} G 1 : sProp 𝕄)
      = ((c : Thread nD τ).loc main_v13 ↦{q} f) := by
  rw [(arr_whole1 1).set_eq_univ, hG, show dat.share 1 = q from hq]

theorem win2_eq (q : PosShare TreeShare) (hq : dat.q 2 = q) (f : Buf (Elt F) ((c : Thread nD τ).loc main_v13)) (hG : G 2 = f) :
    ((cfg1.win 2).arr.view.loc (c : Thread nD τ) ↦[(cfg1.win 2).arr.view.set]{dat.share 2} G 2 : sProp 𝕄)
      = ((c : Thread nD τ).loc main_v13 ↦{q} f) := by
  rw [(arr_whole1 2).set_eq_univ, hG, show dat.share 2 = q from hq]

/-- The output window's array is the whole buffer `main_v14`, held outright. -/
theorem win3_eq (f : Buf (Elt F) ((c : Thread nD τ).loc main_v14)) (hG : G 3 = f) :
    ((cfg1.win 3).arr.view.loc (c : Thread nD τ) ↦[(cfg1.win 3).arr.view.set]{dat.share 3} G 3 : sProp 𝕄)
      = ((c : Thread nD τ).loc main_v14 ↦{fullShare} f) := by
  rw [(arr_whole1 3).set_eq_univ, hG, show dat.share 3 = fullShare from rfl]

end Windows

/-- The TensorCore's unscoped buffers at contents `V` ARE the pipeline's arrays — the three input windows at the
    three shares of `main_v13`, the output window at `main_v14` whole — beside the unscoped buffers that are no
    array of the pipeline: the two distinct array buffers are taken out of the unscoped ones, and the shared one is
    dealt into its three shares. An equation, so it reads in both directions. -/
theorem shared_eq (c : Dev nD) (V : (b : Ref sig .tc) → Buf (Elt F) ((c : Thread nD τ).loc b))
    (dat : Dat τ (Elt F) Unit ℕ (UR sig nD τ) ℕ cfg1 c)
    (hq0 : dat.q 0 = fullShare.left) (hq1 : dat.q 1 = fullShare.right.left) (hq2 : dat.q 2 = fullShare.right.right)
    (G : (w : Fin cfg1.W) → Buf (Elt F) ((cfg1.win w).arr.view.loc (c : Thread nD τ)))
    (hG0 : G 0 = V main_v13) (hG1 : G 1 = V main_v13) (hG2 : G 2 = V main_v13) (hG3 : G 3 = V main_v14) :
    (unscopedBufs c V : sProp 𝕄)
      = iprop(dat.arrays G ∗ Pipeline.unscopedRest (Ix := Unit) (Name := ℕ) (U := UR sig nD τ) (Lvl := ℕ) spec1 c V) := by
  rw [Pipeline.unscopedBufs_split₀ (fun _ : Unit => cfg1) () winFacts₀1.arr_unscoped c V]
  refine congrArg₂ _ ?_ rfl
  unfold Pipeline.arrBufs Dat.arrays
  rw [bigSep_W1, show Finset.univ.image (Pipeline.arrRef cfg1.spec) = {main_v13, main_v14} from arrRefs_eq,
    bigSep_insert (by decide), bigSep_singleton, three_shares,
    win0_eq c dat G _ hq0 _ hG0, win1_eq c dat G _ hq1 _ hG1, win2_eq c dat G _ hq2 _ hG2, win3_eq c dat G _ hG3]
  exact sep_assoc4

/-- ENTRY. The TensorCore's unscoped buffers at contents `V` are the attention pipeline's arrays at its entry contents
    — the array the three input windows share split into their three shares, the result array whole — and the
    unscoped buffers that are no array of the pipeline. -/
theorem shared_entry (c : Dev nD) (V : (b : Ref sig .tc) → Buf (Elt F) ((c : Thread nD τ).loc b))
    (dat : Dat τ (Elt F) Unit ℕ (UR sig nD τ) ℕ cfg1 c)
    (hq0 : dat.q 0 = fullShare.left) (hq1 : dat.q 1 = fullShare.right.left) (hq2 : dat.q 2 = fullShare.right.right)
    (G : (w : Fin cfg1.W) → Buf (Elt F) ((cfg1.win w).arr.view.loc (c : Thread nD τ)))
    (hG : ∀ w, G w = V (Pipeline.arrRef spec1 w)) :
    (unscopedBufs c V : sProp 𝕄) ⊢ iprop(dat.arrays G ∗ Pipeline.unscopedRest (Ix := Unit) (Name := ℕ) (U := UR sig nD τ) (Lvl := ℕ) spec1 c V) :=
  Entails.of_eq (shared_eq c V dat hq0 hq1 hq2 G (hG 0) (hG 1) (hG 2) (hG 3))

/-- The unscoped buffers that are no array of the pipeline do not see a change of contents at the result array:
    the result array is one of the pipeline's arrays, so it is none of them. -/
theorem unscopedRest_congr (c : Dev nD) (V V' : (b : Ref sig .tc) → Buf (Elt F) ((c : Thread nD τ).loc b))
    (hV' : ∀ b : Ref sig .tc, b ≠ main_v14 → V' b = V b) :
    (Pipeline.unscopedRest (Ix := Unit) (Name := ℕ) (U := UR sig nD τ) (Lvl := ℕ) spec1 c V : sProp 𝕄)
      = Pipeline.unscopedRest (Ix := Unit) (Name := ℕ) (U := UR sig nD τ) (Lvl := ℕ) spec1 c V' := by
  unfold Pipeline.unscopedRest
  refine bigSep_congr fun b hb => ?_
  have hne : b ≠ main_v14 := fun e =>
    (Finset.mem_sdiff.mp hb).2 (e ▸ Finset.mem_image_of_mem (Pipeline.arrRef spec1) (Finset.mem_univ (3 : Fin 4)))
  rw [hV' b hne]

/-- EXIT. The pipeline's arrays — the shared array's three shares all at the contents `V main_v13`, the result array
    at `V' main_v14` — beside the untouched unscoped buffers at `V` are the TensorCore's unscoped buffers at `V'`, when
    `V'` differs from `V` at the result array only. -/
theorem shared_exit (c : Dev nD) (V V' : (b : Ref sig .tc) → Buf (Elt F) ((c : Thread nD τ).loc b))
    (dat : Dat τ (Elt F) Unit ℕ (UR sig nD τ) ℕ cfg1 c)
    (hq0 : dat.q 0 = fullShare.left) (hq1 : dat.q 1 = fullShare.right.left) (hq2 : dat.q 2 = fullShare.right.right)
    (G : (w : Fin cfg1.W) → Buf (Elt F) ((cfg1.win w).arr.view.loc (c : Thread nD τ)))
    (hG0 : G 0 = V main_v13) (hG1 : G 1 = V main_v13) (hG2 : G 2 = V main_v13) (hG3 : G 3 = V' main_v14)
    (hV' : ∀ b : Ref sig .tc, b ≠ main_v14 → V' b = V b) :
    iprop(dat.arrays G ∗ Pipeline.unscopedRest (Ix := Unit) (Name := ℕ) (U := UR sig nD τ) (Lvl := ℕ) spec1 c V) ⊢ (unscopedBufs c V' : sProp 𝕄) := by
  have h13 : V' main_v13 = V main_v13 := hV' main_v13 (by decide)
  rw [unscopedRest_congr c V V' hV']
  exact Entails.of_eq (shared_eq c V' dat hq0 hq1 hq2 G (hG0.trans h13.symm) (hG1.trans h13.symm) (hG2.trans h13.symm) hG3).symm

end Cert.KernelIdeal.Hand

end
-- ==== Proof.RunData.lean ====
/-
  The program's two calls as records over the thread state — the host lines that build the concatenated weights and
  bias, the projection call, the reshape of its result, the attention call — and the frame: every weakly fair execution
  terminates without a fault and every argument array ends as launched. (Stated at any float instance.)
-/
import proofs.«415141_j87746181857559_3_alg».proof.Proof.Proj
import proofs.«415141_j87746181857559_3_alg».proof.Proof.Attn
import proofs.«415141_j87746181857559_3_alg».proof.Proof.Shared
import proofs.«415141_j87746181857559_3_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents at the two calls' entries, and what the calls leave -/

/-- The TensorCore's buffers when the projection call is entered: the launch contents after the first host lines. -/
abbrev E1 : (c : Dev nD) → (b : Ref sig .tc) → Buf (Elt F) ((c : Thread nD τ).loc b) := fun c b => Gen.V1 m c b

/-- What the projection call leaves in its result array. -/
def arr0 (c : Dev nD) : Buf (Elt F) ((c : Thread nD τ).loc main_v12) := (dat0 (E1 m) c).arrAt 3 cfg0.N

/-- The regions' results so far: the projection's. -/
def outs1 : Gen.Outs (F := F) := fun _ => Function.update (fun r c => m ((c : Thread nD τ).loc r)) main_v12 (fun c => arr0 m c)

/-- The TensorCore's buffers when the attention call is entered. -/
abbrev E3 : (c : Dev nD) → (b : Ref sig .tc) → Buf (Elt F) ((c : Thread nD τ).loc b) := fun c b => Gen.V3 m (outs1 m) c b

/-- What the attention call leaves in its result array: the kernel's result. -/
def arr1 (c : Dev nD) : Buf (Elt F) ((c : Thread nD τ).loc main_v14) := (dat1 (E3 m) c).arrAt 3 cfg1.N

/-- Both regions' results. -/
def outs2 : Gen.Outs (F := F) := fun _ => Function.update (outs1 m 0) main_v14 (fun c => arr1 m c)

theorem outs2_v12 (J : ℕ) (c : Dev nD) : outs2 m J main_v12 c = arr0 m c := by
  unfold outs2 outs1
  rw [Function.update_of_ne (by decide : (main_v12 : Ref sig .tc) ≠ main_v14), Function.update_self]

theorem outs2_v14 (J : ℕ) (c : Dev nD) : outs2 m J main_v14 c = arr1 m c := by
  unfold outs2
  rw [Function.update_self]

theorem outs1_v12 (J : ℕ) (c : Dev nD) : outs1 m J main_v12 c = arr0 m c := by
  unfold outs1
  rw [Function.update_self]

/-- Both records of the regions' results give the attention call the same entry contents. -/
theorem V2_outs (c : Dev nD) : Gen.V2 m (outs2 m) c = Gen.V2 m (outs1 m) c := by
  show Function.update (Gen.V1 m c) main_v12 (outs2 m 2 main_v12 c) = Function.update (Gen.V1 m c) main_v12 (outs1 m 2 main_v12 c)
  rw [outs2_v12, outs1_v12]

theorem V3_outs (c : Dev nD) : Gen.V3 m (outs2 m) c = Gen.V3 m (outs1 m) c :=
  congrArg (StableHlo.after hostOps1) (V2_outs m c)

/-! ## The proof data family and the thread state -/

/-- Each pipeline's proof data at its call's entry contents. -/
def pdats : (p : Fin 2) → (c : Dev nD) → Dat τ (Elt F) Unit ℕ (UR sig nD τ) ℕ (cfgs p) c
  | ⟨0, _⟩ => fun c => dat0 (E1 m) c
  | ⟨1, _⟩ => fun c => dat1 (E3 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)

/-- What the projection call leaves, array by array, is the next boundary's contents. -/
theorem hF0 (c : Dev nD) (w : Fin cfg0.W) :
    (pdats m 0 c).arrAt w cfg0.N = (fun b : Ref sig .tc => Gen.V2 m (outs2 m) c b) (Pipeline.arrRef spec0 w) := by
  match w with
  | ⟨0, _⟩ => exact ((dat0 (E1 m) c).arrAt_in 0 rfl _).trans ((A_eq0 (E1 m) c 0).trans (Gen.V2_of m (outs2 m) c main_v0 (by decide)).symm)
  | ⟨1, _⟩ => exact ((dat0 (E1 m) c).arrAt_in 1 rfl _).trans ((A_eq0 (E1 m) c 1).trans (Gen.V2_of m (outs2 m) c main_v9 (by decide)).symm)
  | ⟨2, _⟩ => exact ((dat0 (E1 m) c).arrAt_in 2 rfl _).trans ((A_eq0 (E1 m) c 2).trans (Gen.V2_of m (outs2 m) c main_v11 (by decide)).symm)
  | ⟨3, _⟩ =>
    show (dat0 (E1 m) c).arrAt 3 cfg0.N = Function.update (Gen.V1 m c) main_v12 (outs2 m 2 main_v12 c) main_v12
    rw [Function.update_self, outs2_v12]; rfl

theorem hrest0 (c : Dev nD) : ∀ b : Ref sig .tc, b ∉ Finset.univ.image (Pipeline.arrRef spec0) →
    (fun b : Ref sig .tc => Gen.V2 m (outs2 m) c b) b = E1 m c b := fun b hb =>
  Gen.V2_of m (outs2 m) c b (fun h => hb (by
    rw [List.mem_singleton] at h; subst h
    exact Finset.mem_image.mpr ⟨3, Finset.mem_univ _, rfl⟩))

set_option backward.isDefEq.respectTransparency.types false in
/-- The projection call over the thread state: entered from every unscoped buffer at the contents after the first host
    lines, left with its result array at what its write-backs leave. -/
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs2 m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (fun b : Ref sig .tc => Gen.V2 m (outs2 m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call over the thread state: entered from every unscoped buffer at the contents after the reshape of
    the projection's result — the array its three input windows share split into their shares —, left with its result
    array at what its write-backs leave. -/
def reg1 : RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (Gen.V3 m (outs2 m) c) ∗ R c)
  post c := iprop(StableHlo.held (c : Thread nD τ) (Pipeline.ucRefs τ sig) (Gen.V4 m (outs2 m) c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none, V3_outs m c]
    have hsplit := shared_entry c (E3 m c) (pdats m 1 c) rfl rfl rfl ((pdats m 1 c).arrAt · 0) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E3 m) c)
    unfold Pipeline.ΦA
    iintro ⟨Hp, -, Hr⟩
    isplitl [Hr]; · iexact Hr
    iexact Hp
  hout c := by
    rw [Pipeline.ownSems0_none]
    refine BIBase.Entails.trans (hout1 (E3 m) c) ?_
    unfold Pipeline.ΦA
    iintro ⟨Hr, Hp⟩
    isplitl [Hp]; · iexact Hp
    isplitr; · iempintro
    iexact Hr
  hexit c := by
    have hjoin := shared_exit c (E3 m c) (fun b : Ref sig .tc => Gen.V4 m (outs2 m) c b) (pdats m 1 c) rfl rfl rfl ((pdats m 1 c).arrAt · cfg1.N)
      (((dat1 (E3 m) c).arrAt_in 0 rfl _).trans (A_eq1 (E3 m) c 0))
      (((dat1 (E3 m) c).arrAt_in 1 rfl _).trans (A_eq1 (E3 m) c 1))
      (((dat1 (E3 m) c).arrAt_in 2 rfl _).trans (A_eq1 (E3 m) c 2))
      (by show (dat1 (E3 m) c).arrAt 3 cfg1.N = Function.update (Gen.V3 m (outs2 m) c) main_v14 (outs2 m 4 main_v14 c) main_v14
          rw [Function.update_self, outs2_v14]; rfl)
      (fun b hb => (Gen.V4_of m (outs2 m) c b (by rw [List.mem_singleton]; exact hb)).trans (congrFun (V3_outs m c) _))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

set_option backward.isDefEq.respectTransparency.types false in
/-- THE FRAME (at any `F`): every weakly fair execution terminates and every argument array ends as launched. -/
theorem frame_main (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  exact (Gen.frame_cond m (emb₁ (A := UR sig nD τ)) () 𝒱₀ L lv (fun _ _ => rfl) ρ (outs2 m) (pdats m) (O₀ := 0) (G := fun _ => iprop(emp))
      (u₀ := initOf (Pipeline.cells cfgs cellOf_inj) (Pipeline.launchToks cfgs cellOf_inj))
      (hu₀ := by
        iintro Hu; imodintro
        isplitl [Hu]
        · iapply (show (ownU (initOf (Pipeline.cells cfgs cellOf_inj) (Pipeline.launchToks cfgs cellOf_inj)) : sProp 𝕄)
              ⊢ BI.own (emb₁ (initOf (Pipeline.cells cfgs cellOf_inj) (Pipeline.launchToks cfgs cellOf_inj))) from .rfl)
          iexact Hu
        iapply (show (BI.emp : sProp 𝕄) ⊢ bigSep Finset.univ (fun _ : Dev nD => (BI.emp : sProp 𝕄)) from by rw [BI.bigSep_emp_const])
        iempintro)
      (E := fun _ c => R c)
      (hE0 := by
        refine Pipeline.initEach L lv fun c => ?_
        iintro ⟨⟨-, HO, -, Hp, -⟩, -⟩
        imodintro
        isplitl [Hp]; · iexists _; iexact Hp
        iexists ∅; iexact HO)
      (hE2 := fun c => by iintro ⟨-, HO⟩; iexact HO)
      (reg0 m) (fun _ => .rfl) (fun _ => .rfl) (reg1 m) (fun _ => .rfl) (fun _ => .rfl))

end Cert.KernelIdeal.Hand

end
-- ==== Proof.Run.lean ====
/-
  The idealized kernel's whole run with its result named: every weakly fair execution terminates without a fault, every
  argument array ends as launched, and the result array ends at what the attention pipeline's write-backs leave in it.
-/
import proofs.«415141_j87746181857559_3_alg».proof.Proof.RunData
import proofs.«415141_j87746181857559_3_alg».proof.Proof.RunCond

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- THE RUN of the idealized kernel (at any `F`): every weakly fair execution terminates, the result array ends at
    `arr1` — what the attention pipeline's write-backs leave —, and every argument array ends as launched. -/
theorem run_main (ρ : Dev nD → PrngReg) :
    θ_run defs (onTc (τ := τ) (main (F := F))) ⟨m, fun _ => 0, ρ⟩ (fun r => ∀ c : Dev nD,
      r.2.mem ((c.tc : Thread nD τ).loc main_v14) = arr1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ⟨(h c).1.trans (outs2_v14 m 4 c), (h c).2⟩)
    (Gen.run_cond m (emb₁ (A := UR sig nD τ)) () 𝒱₀ L lv (fun _ _ => rfl) ρ (outs2 m) (pdats m) (O₀ := 0) (G := fun _ => iprop(emp))
      (u₀ := initOf (Pipeline.cells cfgs cellOf_inj) (Pipeline.launchToks cfgs cellOf_inj))
      (hu₀ := by
        iintro Hu; imodintro
        isplitl [Hu]
        · iapply (show (ownU (initOf (Pipeline.cells cfgs cellOf_inj) (Pipeline.launchToks cfgs cellOf_inj)) : sProp 𝕄)
              ⊢ BI.own (emb₁ (initOf (Pipeline.cells cfgs cellOf_inj) (Pipeline.launchToks cfgs cellOf_inj))) from .rfl)
          iexact Hu
        iapply (show (BI.emp : sProp 𝕄) ⊢ bigSep Finset.univ (fun _ : Dev nD => (BI.emp : sProp 𝕄)) from by rw [BI.bigSep_emp_const])
        iempintro)
      (E := fun _ c => R c)
      (hE0 := by
        refine Pipeline.initEach L lv fun c => ?_
        iintro ⟨⟨-, HO, -, Hp, -⟩, -⟩
        imodintro
        isplitl [Hp]; · iexists _; iexact Hp
        iexists ∅; iexact HO)
      (hE2 := fun c => by iintro ⟨-, HO⟩; iexact HO)
      (reg0 m) (fun _ => .rfl) (fun _ => .rfl) (reg1 m) (fun _ => .rfl) (fun _ => .rfl))

end Cert.KernelIdeal.Hand

end
-- ==== Proof.Spec.lean ====
/-
  The two programs as functions of real inputs, and the law that joins them.

  Inputs: the activations `x[b, s, d]`, three weight matrices `w[e, d]` and three bias vectors `b[e]`.
  Both programs project  q, k, v = x · wᵀ + b,  take scores  q · kᵀ / 32  (32 = √1024), a softmax over the 2048 keys,
  and the weighted sum of the values.

  The reference divides the scores by 32 and normalises the exponentials (shifted by the row's maximum) before the
  weighted sum. The kernel folds the factor 1/32 into the query projection's weights and bias, visits the keys in two
  blocks of 1024 with a running maximum, rescaling the running denominator and numerator by  exp (m₁ - m₂)  when the
  maximum moves, and divides numerator by denominator at the end. Over the reals the two agree: the factor 1/32
  distributes over the projection's sum;  exp (m₁ - m₂) · exp (s - m₁) = exp (s - m₂);  and a ratio of two sums
  weighted by  exp (s - M)  does not depend on the shift  M.
-/
import Mathlib.Analysis.SpecialFunctions.Exp
import Mathlib.Analysis.Complex.Exponential
import Mathlib.Algebra.BigOperators.Fin
import Mathlib.Algebra.BigOperators.Field
import Mathlib.Order.Fin.Basic

noncomputable section

namespace Cert.Spec

open Finset

/-- The real inputs: activations, the three weight matrices `w[e, d]`, the three bias vectors. -/
structure Inp where
  x : Fin 4 → Fin 2048 → Fin 1024 → ℝ
  wq : Fin 1024 → Fin 1024 → ℝ
  bq : Fin 1024 → ℝ
  wk : Fin 1024 → Fin 1024 → ℝ
  bk : Fin 1024 → ℝ
  wv : Fin 1024 → Fin 1024 → ℝ
  bv : Fin 1024 → ℝ

variable (I : Inp)

/-- A projection  x · wᵀ + b  at batch `bt`, position `s`, feature `e`. -/
def proj (w : Fin 1024 → Fin 1024 → ℝ) (b : Fin 1024 → ℝ) (bt : Fin 4) (s : Fin 2048) (e : Fin 1024) : ℝ :=
  (∑ d, I.x bt s d * w e d) + b e

/-- The kernel's query projection: weights and bias scaled by 1/32 before the product. -/
def qK (bt : Fin 4) (s : Fin 2048) (e : Fin 1024) : ℝ :=
  (∑ d, I.x bt s d * (I.wq e d * (1 / 32))) + I.bq e * (1 / 32)

/-- The kernel's score of query `q` against key `j` (already scaled). -/
def sK (bt : Fin 4) (q j : Fin 2048) : ℝ := ∑ e, qK I bt q e * proj I I.wk I.bk bt j e

/-- The reference's score: the plain projections' product, divided by 32. -/
def sR (bt : Fin 4) (q j : Fin 2048) : ℝ := (∑ e, proj I I.wq I.bq bt q e * proj I I.wk I.bk bt j e) / 32

/-- Key `j'` of the first block, of the second block. -/
abbrev key0 (j' : Fin 1024) : Fin 2048 := Fin.castAdd 1024 j'
abbrev key1 (j' : Fin 1024) : Fin 2048 := Fin.natAdd 1024 j'

/-- The kernel's running maximum after the first key block, after the second. -/
def m1 (bt : Fin 4) (q : Fin 2048) : ℝ := univ.sup' ⟨0, mem_univ _⟩ fun j' => sK I bt q (key0 j')
def m2 (bt : Fin 4) (q : Fin 2048) : ℝ :=
  max (m1 I bt q) (univ.sup' ⟨0, mem_univ _⟩ fun j' => sK I bt q (key1 j'))

/-- The kernel's running denominator and numerator after the first key block. -/
def l1 (bt : Fin 4) (q : Fin 2048) : ℝ := ∑ j', Real.exp (sK I bt q (key0 j') - m1 I bt q)
def a1 (bt : Fin 4) (q : Fin 2048) (e : Fin 1024) : ℝ :=
  ∑ j', Real.exp (sK I bt q (key0 j') - m1 I bt q) * proj I I.wv I.bv bt (key0 j') e

/-- After the second key block: the old values rescaled by  exp (m₁ - m₂)  plus the block's own sums. -/
def l2 (bt : Fin 4) (q : Fin 2048) : ℝ :=
  Real.exp (m1 I bt q - m2 I bt q) * l1 I bt q
    + ∑ j', Real.exp (sK I bt q (key1 j') - m2 I bt q)
def a2 (bt : Fin 4) (q : Fin 2048) (e : Fin 1024) : ℝ :=
  Real.exp (m1 I bt q - m2 I bt q) * a1 I bt q e
    + ∑ j', Real.exp (sK I bt q (key1 j') - m2 I bt q) * proj I I.wv I.bv bt (key1 j') e

/-- The kernel's result: numerator over denominator. -/
def outK (bt : Fin 4) (q : Fin 2048) (e : Fin 1024) : ℝ :=
  a2 I bt q e / l2 I bt q

/-- The reference's row maximum, shifted exponentials, their sum, and its result. -/
def mR (bt : Fin 4) (q : Fin 2048) : ℝ := univ.sup' ⟨0, mem_univ _⟩ fun j => sR I bt q j
def eR (bt : Fin 4) (q j : Fin 2048) : ℝ := Real.exp (sR I bt q j - mR I bt q)
def lR (bt : Fin 4) (q : Fin 2048) : ℝ := ∑ j, eR I bt q j
def outR (bt : Fin 4) (q : Fin 2048) (e : Fin 1024) : ℝ :=
  ∑ j, (eR I bt q j / lR I bt q) * proj I I.wv I.bv bt j e

/-- The scaled query projection against a key is the plain one divided by 32. -/
theorem sK_eq_sR (bt : Fin 4) (q j : Fin 2048) : sK I bt q j = sR I bt q j := by
  -- the scaled query projection is the plain one divided by 32: 1/32 comes out of the sum over d
  have hq : ∀ e, qK I bt q e = proj I I.wq I.bq bt q e / 32 := by
    intro e
    unfold qK proj
    rw [add_div, Finset.sum_div]
    congr 1
    · exact Finset.sum_congr rfl fun d _ => by ring
    · ring
  -- and then out of the sum over e
  unfold sK sR
  rw [Finset.sum_div]
  refine Finset.sum_congr rfl fun e _ => ?_
  rw [hq e]
  ring

/-- Moving a shifted exponential from shift `M₁` to shift `M₂`. -/
theorem exp_reshift (s M₁ M₂ : ℝ) :
    Real.exp (M₁ - M₂) * Real.exp (s - M₁) = Real.exp (s - M₂) := by
  rw [← Real.exp_add]
  congr 1
  ring

/-- The running denominator after two blocks is the full sum of exponentials shifted by `M₂`. -/
theorem den_two_block (S : Fin (1024 + 1024) → ℝ) (M₁ M₂ : ℝ) :
    Real.exp (M₁ - M₂) * (∑ j' : Fin 1024, Real.exp (S (Fin.castAdd 1024 j') - M₁))
        + ∑ j' : Fin 1024, Real.exp (S (Fin.natAdd 1024 j') - M₂)
      = ∑ j, Real.exp (S j - M₂) := by
  rw [Fin.sum_univ_add, Finset.mul_sum]
  congr 1
  exact Finset.sum_congr rfl fun j' _ => exp_reshift _ _ _

/-- The running numerator after two blocks is the full weighted sum of exponentials shifted by `M₂`. -/
theorem num_two_block (S w : Fin (1024 + 1024) → ℝ) (M₁ M₂ : ℝ) :
    Real.exp (M₁ - M₂)
          * (∑ j' : Fin 1024, Real.exp (S (Fin.castAdd 1024 j') - M₁) * w (Fin.castAdd 1024 j'))
        + ∑ j' : Fin 1024, Real.exp (S (Fin.natAdd 1024 j') - M₂) * w (Fin.natAdd 1024 j')
      = ∑ j, Real.exp (S j - M₂) * w j := by
  rw [Fin.sum_univ_add, Finset.mul_sum]
  congr 1
  refine Finset.sum_congr rfl fun j' _ => ?_
  rw [← mul_assoc, exp_reshift]

/-- A ratio of two sums weighted by  exp (s - M)  does not depend on the shift: changing `M₂` to `M`
multiplies numerator and denominator by the same nonzero factor  exp (M₂ - M). -/
theorem softmax_shift {ι : Type*} [Fintype ι] (S w : ι → ℝ) (M₂ M : ℝ) :
    (∑ j, Real.exp (S j - M₂) * w j) / (∑ j, Real.exp (S j - M₂))
      = ∑ j, (Real.exp (S j - M) / ∑ j', Real.exp (S j' - M)) * w j := by
  have hc : ∀ s : ℝ, Real.exp (s - M) = Real.exp (s - M₂) * Real.exp (M₂ - M) := by
    intro s
    rw [← Real.exp_add]
    congr 1
    ring
  have hn : ∑ j, Real.exp (S j - M) * w j
      = (∑ j, Real.exp (S j - M₂) * w j) * Real.exp (M₂ - M) := by
    rw [Finset.sum_mul]
    refine Finset.sum_congr rfl fun j _ => ?_
    rw [hc]
    ring
  have hd : ∑ j, Real.exp (S j - M) = (∑ j, Real.exp (S j - M₂)) * Real.exp (M₂ - M) := by
    rw [Finset.sum_mul]
    exact Finset.sum_congr rfl fun j _ => hc _
  have hR : ∑ j, (Real.exp (S j - M) / ∑ j', Real.exp (S j' - M)) * w j
      = (∑ j, Real.exp (S j - M) * w j) / ∑ j', Real.exp (S j' - M) := by
    rw [Finset.sum_div]
    exact Finset.sum_congr rfl fun j _ => div_mul_eq_mul_div _ _ _
  rw [hR, hn, hd, mul_div_mul_right _ _ (Real.exp_ne_zero _)]

/-- The two-block running quotient, for any three shifts, is the normalised weighted sum. -/
theorem two_block (S w : Fin (1024 + 1024) → ℝ) (M₁ M₂ M : ℝ) :
    (Real.exp (M₁ - M₂)
          * (∑ j' : Fin 1024, Real.exp (S (Fin.castAdd 1024 j') - M₁) * w (Fin.castAdd 1024 j'))
        + ∑ j' : Fin 1024, Real.exp (S (Fin.natAdd 1024 j') - M₂) * w (Fin.natAdd 1024 j'))
      / (Real.exp (M₁ - M₂) * (∑ j' : Fin 1024, Real.exp (S (Fin.castAdd 1024 j') - M₁))
        + ∑ j' : Fin 1024, Real.exp (S (Fin.natAdd 1024 j') - M₂))
      = ∑ j, (Real.exp (S j - M) / ∑ j', Real.exp (S j' - M)) * w j := by
  rw [num_two_block, den_two_block]
  exact softmax_shift S w M₂ M

/-- THE LAW: the two-block online softmax with folded scale is the plain softmax attention. -/
theorem outK_eq_outR (bt : Fin 4) (q : Fin 2048) (e : Fin 1024) :
    outK I bt q e = outR I bt q e := by
  unfold outK a2 l2 a1 l1 outR lR eR
  simp only [sK_eq_sR]
  exact two_block (sR I bt q) (fun j => proj I I.wv I.bv bt j e) (m1 I bt q) (m2 I bt q) (mR I bt q)

end Cert.Spec

end
-- ==== Proof.Lift.lean ====
/-
  Real inputs read as arrays of extended reals, and a real result read as an array: the bridge between the
  programs' arrays at the ideal instance and the real functions of Spec.lean.
-/
import proofs.«415141_j87746181857559_3_alg».proof.Proof.Spec
import Idealize.ShloMosaic.PureOps.Ideal
import Idealize.ShloMosaic.Lib.ValueIdx

noncomputable section

namespace Cert.Lift

open Idealize.ShloMosaic

abbrev Sx : Shape := ⟨3, ![4, 2048, 1024]⟩
abbrev Sw : Shape := ⟨2, ![1024, 1024]⟩
abbrev Sb : Shape := ⟨1, ![1024]⟩

/-- A real rank-3 array of the activations' shape as an array of extended reals. -/
def lift3 (x : Fin 4 → Fin 2048 → Fin 1024 → ℝ) : Vec Ideal Sx .f32 := fun i => ((x (i 0) (i 1) (i 2) : ℝ) : EReal)
/-- A real weight matrix as an array of extended reals. -/
def lift2 (w : Fin 1024 → Fin 1024 → ℝ) : Vec Ideal Sw .f32 := fun i => ((w (i 0) (i 1) : ℝ) : EReal)
/-- A real bias vector as an array of extended reals. -/
def lift1 (b : Fin 1024 → ℝ) : Vec Ideal Sb .f32 := fun i => ((b (i 0) : ℝ) : EReal)

theorem lift3_apply (x : Fin 4 → Fin 2048 → Fin 1024 → ℝ) (i : Sx.Idx) : lift3 x i = ((x (i 0) (i 1) (i 2) : ℝ) : EReal) := rfl
theorem lift2_apply (w : Fin 1024 → Fin 1024 → ℝ) (i : Sw.Idx) : lift2 w i = ((w (i 0) (i 1) : ℝ) : EReal) := rfl
theorem lift1_apply (b : Fin 1024 → ℝ) (i : Sb.Idx) : lift1 b i = ((b (i 0) : ℝ) : EReal) := rfl

end Cert.Lift

end
-- ==== Proof.LibRealSums.lean ====
import Idealize.ShloMosaic.PureOps.Ideal

/-! # Finite sums of extended reals that are real numbers

On the extended reals a product does not distribute over a sum, and a factor does not move across a sum, once an
infinity is among the terms; among real numbers both hold. `IsReal x` says the extended real `x` is a real number; it is
kept by sums, products, maxima, inverses and by the quotient `Ideal.div` by a non-zero divisor. Two laws follow:

* `div_eq_mul_div_one`: dividing by a non-zero `c` is multiplying by the reciprocal `1 / c` (no finiteness needed);
* `sum_div_mul_eq`: for real terms `a e k` and real weights `w k`, summing over a finite set `E` first, dividing by
  `c ≠ 0` and contracting with `w` is the same as contracting each `a e ·` with `w`, summing over `E`, and multiplying by the
  reciprocal `1 / c` — the average of linear images is the linear image of the average. -/

open scoped BigOperators

namespace Idealize.ShloMosaic.RealSums

open Idealize.ShloMosaic

/-- The extended real `x` is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

theorem IsReal.sum {ι : Type*} (s : Finset ι) (f : ι → EReal) (h : ∀ i ∈ s, IsReal (f i)) :
    IsReal (∑ i ∈ s, f i) :=
  Finset.sum_induction f IsReal (fun _ _ => IsReal.add) IsReal.zero h

/-- The inverse of ANY extended real is a real number: the infinities invert to zero. -/
theorem IsReal.inv (c : EReal) : IsReal c⁻¹ := by
  induction c using EReal.rec with
  | bot => exact ⟨0, EReal.inv_bot⟩
  | top => exact ⟨0, EReal.inv_top⟩
  | coe r => exact ⟨r⁻¹, (EReal.coe_inv r).symm⟩

theorem IsReal.div {x c : EReal} (hx : IsReal x) (hc : c ≠ 0) : IsReal (Ideal.div x c) := by
  rw [Ideal.div, if_neg hc]; exact hx.mul (IsReal.inv c)

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Dividing by a non-zero `c` is multiplying by its reciprocal. -/
theorem div_eq_mul_div_one (x : EReal) {c : EReal} (hc : c ≠ 0) : Ideal.div x c = x * Ideal.div 1 c := by
  rw [Ideal.div, if_neg hc, Ideal.div, if_neg hc, one_mul]

/-- THE AVERAGE OF LINEAR IMAGES: real terms summed over `E`, divided by `c ≠ 0`, contracted with real weights, against
    each term contracted first, then summed over `E`, then scaled by the reciprocal of `c`. -/
theorem sum_div_mul_eq {ι κ : Type*} [Fintype κ] (E : Finset ι) (a : ι → κ → EReal) (w : κ → EReal) (c : EReal)
    (ha : ∀ e k, IsReal (a e k)) (hw : ∀ k, IsReal (w k)) (hc : c ≠ 0) :
    ∑ k, Ideal.div (∑ e ∈ E, a e k) c * w k = (∑ e ∈ E, ∑ k, a e k * w k) * Ideal.div 1 c := by
  obtain ⟨r, hr⟩ := IsReal.inv c
  choose a' ha' using ha
  choose w' hw' using hw
  have hd : ∀ x, Ideal.div x c = x * (r : EReal) := fun x => by rw [Ideal.div, if_neg hc, hr]
  simp only [hd, ha', hw', one_mul, ← coe_sum, ← EReal.coe_mul]
  rw [EReal.coe_eq_coe_iff]
  simp only [Finset.sum_mul]
  rw [Finset.sum_comm]
  refine Finset.sum_congr rfl fun e _ => Finset.sum_congr rfl fun k _ => ?_
  ring

end Idealize.ShloMosaic.RealSums
-- ==== Proof.HostRead.lean ====
/-
  The host lines of the idealized kernel read at an index over real inputs: the flattened activations, the concatenated
  transposed weight matrices (the query's scaled by 1/32), the concatenated bias row (the query's scaled likewise), and
  the projection's result viewed again per batch.
-/
import proofs.«415141_j87746181857559_3_alg».proof.Proof.Run
import proofs.«415141_j87746181857559_3_alg».proof.Proof.Lift
import proofs.«415141_j87746181857559_3_alg».proof.Proof.LibRealSums
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen Cert.Lift

/-- The flattened activations: row `r` of the 8192 is position `r % 2048` of batch `r / 2048`. -/
def xflat (I : Cert.Spec.Inp) (r : Fin 8192) (d : Fin 1024) : ℝ :=
  I.x ⟨r.val / 2048, by omega⟩ ⟨r.val % 2048, Nat.mod_lt _ (by norm_num)⟩ d

/-- The concatenated weight matrix, transposed: column `j` is the query's row `j` scaled by 1/32, the key's row
    `j - 1024`, or the value's row `j - 2048`. -/
def wcat (I : Cert.Spec.Inp) (d : Fin 1024) (j : Fin 3072) : ℝ :=
  if h0 : j.val < 1024 then I.wq ⟨j.val, h0⟩ d * (1 / 32)
  else if h1 : j.val < 2048 then I.wk ⟨j.val - 1024, by omega⟩ d
  else I.wv ⟨j.val - 2048, by omega⟩ d

/-- The concatenated bias row. -/
def bcat (I : Cert.Spec.Inp) (j : Fin 3072) : ℝ :=
  if h0 : j.val < 1024 then I.bq ⟨j.val, h0⟩ * (1 / 32)
  else if h1 : j.val < 2048 then I.bk ⟨j.val - 1024, by omega⟩
  else I.bv ⟨j.val - 2048, by omega⟩

/-! ## The host lines' results, buffer by buffer -/

/-- A three-operand host operation's result at its own buffer, each operand's contents read at its own reference. -/
theorem nary3_result {Val : EltTy → Type} {x a b y : Ref sig .tc}
    (f : ((k : Fin 3) → ((![x, a, b] : Fin 3 → Ref sig .tc) k).ty.Contents Val) → y.ty.Contents Val) (hxs hy)
    (G : Valuation τ sig Val) :
    (StableHlo.nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

/-- Each host operation's result rewritten at its own buffer, and passed over at any other, outermost first. -/
macro "host_results" : tactic =>
  `(tactic| (simp only [StableHlo.after_cons, StableHlo.after_nil]
             repeat (first
               | rw [StableHlo.nullary_result] | rw [StableHlo.unary_result] | rw [StableHlo.binary_result]
               | rw [StableHlo.reshape_result] | rw [nary3_result]
               | (rw [StableHlo.nullary_result_ne]; rotate_left; decide)
               | (rw [StableHlo.unary_result_ne]; rotate_left; decide)
               | (rw [StableHlo.binary_result_ne]; rotate_left; decide)
               | (rw [StableHlo.reshape_result_ne]; rotate_left; decide)
               | (rw [StableHlo.nary_result_ne]; rotate_left; decide))))

/-- The word `0x3D000000` is the real 2⁻⁵, one thirty-second. -/
theorem ofBits_thirtysecond : Ideal.ofBits .f32 0x3D000000#32 = (((1 : ℝ) / 32 : ℝ) : EReal) := by
  simp [Ideal.ofBits, Ideal.ieee, -EReal.coe_mul]; norm_num

/-- Three square matrices side by side: column `j` of the whole is column `j`, `j - 1024` or `j - 2048` of the
    piece it falls in. -/
theorem cat3_cols {α : Type} (A B C : S1024x1024.Idx → α)
    (h : Shape.Concatenates [S1024x1024, S1024x1024, S1024x1024] S1024x3072 1) (d : Fin 1024) (j : Fin 3072) :
    concatenate S1024x3072 1 [⟨S1024x1024, A⟩, ⟨S1024x1024, B⟩, ⟨S1024x1024, C⟩] h (ix2 d j)
      = if h0 : j.val < 1024 then A (ix2 d ⟨j.val, h0⟩)
        else if h1 : j.val < 2048 then B (ix2 d ⟨j.val - 1024, by omega⟩)
        else C (ix2 d ⟨j.val - 2048, by omega⟩) := by
  have hoff : ∀ (i : S1024x1024.Idx) (b : Fin S1024x1024.rank), i 0 = d → b.cast (rfl : S1024x1024.rank = S1024x3072.rank) ≠ 1 →
      (i b).val = ((ix2 d j : S1024x3072.Idx) (b.cast rfl)).val := fun i b hi hb =>
    match b, hb with
    | ⟨0, _⟩, _ => congrArg Fin.val hi
    | ⟨1, _⟩, hb => absurd rfl hb
  by_cases h0 : j.val < 1024
  · rw [dif_pos h0]
    exact concatenate_apply_piece 1 [⟨S1024x1024, A⟩, ⟨S1024x1024, B⟩, ⟨S1024x1024, C⟩] h (ix2 d j) 0 (by show (0 : ℕ) < 3; omega) S1024x1024 A rfl rfl 0 rfl (ix2 d ⟨j.val, h0⟩)
      (fun b hb => hoff _ b rfl hb) (by show 0 + j.val = j.val; omega)
  · rw [dif_neg h0]
    by_cases h1 : j.val < 2048
    · rw [dif_pos h1]
      exact concatenate_apply_piece 1 [⟨S1024x1024, A⟩, ⟨S1024x1024, B⟩, ⟨S1024x1024, C⟩] h (ix2 d j) 1 (by show (1 : ℕ) < 3; omega) S1024x1024 B rfl rfl 1024 rfl (ix2 d ⟨j.val - 1024, by omega⟩)
        (fun b hb => hoff _ b rfl hb) (by show 1024 + (j.val - 1024) = j.val; omega)
    · rw [dif_neg h1]
      exact concatenate_apply_piece 1 [⟨S1024x1024, A⟩, ⟨S1024x1024, B⟩, ⟨S1024x1024, C⟩] h (ix2 d j) 2 (by show (2 : ℕ) < 3; omega) S1024x1024 C rfl rfl 2048 rfl (ix2 d ⟨j.val - 2048, by omega⟩)
        (fun b hb => hoff _ b rfl hb) (by show 2048 + (j.val - 2048) = j.val; omega)

/-- Three vectors end to end. -/
theorem cat3_vec {α : Type} (A B C : S1024.Idx → α)
    (h : Shape.Concatenates [S1024, S1024, S1024] S3072 0) (j : Fin 3072) :
    concatenate S3072 0 [⟨S1024, A⟩, ⟨S1024, B⟩, ⟨S1024, C⟩] h (ix1 j)
      = if h0 : j.val < 1024 then A (ix1 ⟨j.val, h0⟩)
        else if h1 : j.val < 2048 then B (ix1 ⟨j.val - 1024, by omega⟩)
        else C (ix1 ⟨j.val - 2048, by omega⟩) := by
  have hoff : ∀ (i : S1024.Idx) (b : Fin S1024.rank), b.cast (rfl : S1024.rank = S3072.rank) ≠ 0 →
      (i b).val = ((ix1 j : S3072.Idx) (b.cast rfl)).val := fun i b hb =>
    match b, hb with
    | ⟨0, _⟩, hb => absurd rfl hb
  by_cases h0 : j.val < 1024
  · rw [dif_pos h0]
    exact concatenate_apply_piece 0 [⟨S1024, A⟩, ⟨S1024, B⟩, ⟨S1024, C⟩] h (ix1 j) 0 (by show (0 : ℕ) < 3; omega) S1024 A rfl rfl 0 rfl (ix1 ⟨j.val, h0⟩)
      (fun b hb => hoff _ b hb) (by show 0 + j.val = j.val; omega)
  · rw [dif_neg h0]
    by_cases h1 : j.val < 2048
    · rw [dif_pos h1]
      exact concatenate_apply_piece 0 [⟨S1024, A⟩, ⟨S1024, B⟩, ⟨S1024, C⟩] h (ix1 j) 1 (by show (1 : ℕ) < 3; omega) S1024 B rfl rfl 1024 rfl (ix1 ⟨j.val - 1024, by omega⟩)
        (fun b hb => hoff _ b hb) (by show 1024 + (j.val - 1024) = j.val; omega)
    · rw [dif_neg h1]
      exact concatenate_apply_piece 0 [⟨S1024, A⟩, ⟨S1024, B⟩, ⟨S1024, C⟩] h (ix1 j) 2 (by show (2 : ℕ) < 3; omega) S1024 C rfl rfl 2048 rfl (ix1 ⟨j.val - 2048, by omega⟩)
        (fun b hb => hoff _ b hb) (by show 2048 + (j.val - 2048) = j.val; omega)

/-- A scalar broadcast to any shape reads the scalar everywhere. -/
theorem bcast_scalar_apply {T : Shape} {α : Type} (h : S_.BroadcastsInDim T (![] : Fin 0 → Fin T.rank)) (x : S_.Idx → α) (i : T.Idx) :
    broadcastInDim T ![] h x i = x ix0 :=
  broadcastInDim_apply ![] h x i ix0 (fun a => a.elim0)

variable (m : (ℓ : Loc nD τ sig) → Buf (Elt Ideal) ℓ) (c : Dev nD) (I : Cert.Spec.Inp)

/-- The flattened activations' buffer: the launch activations, reshaped. -/
theorem V1_v0_eq : (Gen.V1 m c main_v0 : S8192x1024.Idx → EReal)
    = shapeCast S8192x1024 (m ((c.tc : Thread nD τ).loc main_arg0) : S4x2048x1024.Idx → EReal) shapeCasts_S4x2048x1024_S8192x1024 := by
  dsimp only [Gen.V1, Gen.V0, Gen.hostOps0]; host_results; rfl

/-- The concatenated weights' buffer: the three weight matrices transposed (the query's scaled first) side by side. -/
theorem V1_v9_eq : (Gen.V1 m c main_v9 : S1024x3072.Idx → EReal)
    = truncf .bf16 (concatenate S1024x3072 1
        [⟨S1024x1024, transpose S1024x1024 [1, 0] (mulf (m ((c.tc : Thread nD τ).loc main_arg1) : FVec Ideal S1024x1024 .f32)
            (broadcastInDim S1024x1024 ![] bcast_S_S1024x1024 (constant (F := Ideal) S_ .f32 0x3D000000#32))) transposes_S1024x1024_S1024x1024_1_0⟩,
         ⟨S1024x1024, transpose S1024x1024 [1, 0] (m ((c.tc : Thread nD τ).loc main_arg3) : FVec Ideal S1024x1024 .f32) transposes_S1024x1024_S1024x1024_1_0⟩,
         ⟨S1024x1024, transpose S1024x1024 [1, 0] (m ((c.tc : Thread nD τ).loc main_arg5) : FVec Ideal S1024x1024 .f32) transposes_S1024x1024_S1024x1024_1_0⟩]
        concatenates_S1024x1024_S1024x1024_S1024x1024_S1024x3072_d1 : FVec Ideal S1024x3072 .f32) bitsLt_bf16_f32 := by
  dsimp only [Gen.V1, Gen.V0, Gen.hostOps0]; host_results; rfl

/-- The concatenated bias row's buffer: the three bias vectors (the query's scaled first) end to end, as one row. -/
theorem V1_v11_eq : (Gen.V1 m c main_v11 : S1x3072.Idx → EReal)
    = shapeCast S1x3072 (concatenate S3072 0
        [⟨S1024, mulf (m ((c.tc : Thread nD τ).loc main_arg2) : FVec Ideal S1024 .f32)
            (broadcastInDim S1024 ![] bcast_S_S1024 (constant (F := Ideal) S_ .f32 0x3D000000#32))⟩,
         ⟨S1024, (m ((c.tc : Thread nD τ).loc main_arg4) : FVec Ideal S1024 .f32)⟩,
         ⟨S1024, (m ((c.tc : Thread nD τ).loc main_arg6) : FVec Ideal S1024 .f32)⟩]
        concatenates_S1024_S1024_S1024_S3072_d0 : FVec Ideal S3072 .f32) shapeCasts_S3072_S1x3072 := by
  dsimp only [Gen.V1, Gen.V0, Gen.hostOps0]; host_results; rfl

/-- The attention call's operand buffer: what the projection call left in its result array, reshaped per batch. -/
theorem V3_v13_eq : (Gen.V3 m (outs1 m) c main_v13 : S4x2048x3072.Idx → EReal)
    = shapeCast S4x2048x3072 (arr0 m c : S8192x3072.Idx → EReal) shapeCasts_S8192x3072_S4x2048x3072 := by
  have hv : Gen.V2 m (outs1 m) c (Proc.devRef .tc main_v12) = arr0 m c := by
    show Function.update (Gen.V1 m c) main_v12 (outs1 m 2 main_v12 c) main_v12 = _
    rw [Function.update_self, outs1_v12]
  dsimp only [Gen.V3, Gen.hostOps1]; host_results; rw [hv]; rfl

/-- The projection call's first operand: the activations, flattened. -/
theorem E1_v0 (h0 : m ((c.tc : Thread nD τ).loc main_arg0) = lift3 I.x) (r : Fin 8192) (d : Fin 1024) :
    E1 m c main_v0 (ix2 r d) = ((xflat I r d : ℝ) : EReal) := by
  show (Gen.V1 m c main_v0 : S8192x1024.Idx → EReal) (ix2 r d) = _
  rw [V1_v0_eq, h0]
  rw [shapeCast_apply (lift3 I.x) shapeCasts_S4x2048x1024_S8192x1024 (ix2 r d)
    (ix3 (⟨r.val / 2048, by omega⟩ : Fin 4) (⟨r.val % 2048, Nat.mod_lt _ (by norm_num)⟩ : Fin 2048) d)
    (by rw [Shape.rowMajor_val_two, Shape.rowMajor_val_three]
        show (r.val / 2048 * 2048 + r.val % 2048) * 1024 + d.val = r.val * 1024 + d.val
        omega)]
  rfl

/-- Its second operand: the concatenated, transposed weights. -/
theorem E1_v9 (h1 : m ((c.tc : Thread nD τ).loc main_arg1) = lift2 I.wq) (h3 : m ((c.tc : Thread nD τ).loc main_arg3) = lift2 I.wk)
    (h5 : m ((c.tc : Thread nD τ).loc main_arg5) = lift2 I.wv) (d : Fin 1024) (j : Fin 3072) :
    E1 m c main_v9 (ix2 d j) = ((wcat I d j : ℝ) : EReal) := by
  show (Gen.V1 m c main_v9 : S1024x3072.Idx → EReal) (ix2 d j) = _
  rw [V1_v9_eq, h1, h3, h5, truncf_apply, cat3_cols]
  unfold wcat
  by_cases hj0 : j.val < 1024
  · rw [dif_pos hj0, dif_pos hj0, transpose_ix2_apply, mulf_apply, bcast_scalar_apply, constant_apply,
      ofBits_thirtysecond, lift2_apply, ← EReal.coe_mul]
  · rw [dif_neg hj0, dif_neg hj0]
    by_cases hj1 : j.val < 2048
    · rw [dif_pos hj1, dif_pos hj1, transpose_ix2_apply, lift2_apply]
    · rw [dif_neg hj1, dif_neg hj1, transpose_ix2_apply, lift2_apply]

/-- Its third operand: the concatenated bias row. -/
theorem E1_v11 (h2 : m ((c.tc : Thread nD τ).loc main_arg2) = lift1 I.bq) (h4 : m ((c.tc : Thread nD τ).loc main_arg4) = lift1 I.bk)
    (h6 : m ((c.tc : Thread nD τ).loc main_arg6) = lift1 I.bv) (j : Fin 3072) :
    E1 m c main_v11 (ix2 (0 : Fin 1) j) = ((bcat I j : ℝ) : EReal) := by
  show (Gen.V1 m c main_v11 : S1x3072.Idx → EReal) (ix2 (0 : Fin 1) j) = _
  rw [V1_v11_eq, h2, h4, h6, shapeCast_a_1a_apply, cat3_vec]
  unfold bcat
  by_cases hj0 : j.val < 1024
  · rw [dif_pos hj0, dif_pos hj0, mulf_apply, bcast_scalar_apply, constant_apply,
      ofBits_thirtysecond, lift1_apply, ← EReal.coe_mul]
  · rw [dif_neg hj0, dif_neg hj0]
    by_cases hj1 : j.val < 2048
    · rw [dif_pos hj1, dif_pos hj1, lift1_apply]
    · rw [dif_neg hj1, dif_neg hj1, lift1_apply]

/-- The attention call's operand: the projection's result, row `bt * 2048 + s` viewed as position `s` of batch `bt`. -/
theorem E3_v13 (bt : Fin 4) (s : Fin 2048) (j : Fin 3072) :
    E3 m c main_v13 (ix3 bt s j) = arr0 m c (ix2 (⟨bt.val * 2048 + s.val, by omega⟩ : Fin 8192) j) := by
  show (Gen.V3 m (outs1 m) c main_v13 : S4x2048x3072.Idx → EReal) (ix3 bt s j) = _
  rw [V3_v13_eq]
  exact shapeCast_apply (s := S8192x3072) (t := S4x2048x3072) (arr0 m c : S8192x3072.Idx → EReal)
    shapeCasts_S8192x3072_S4x2048x3072 (ix3 bt s j) (ix2 (⟨bt.val * 2048 + s.val, by omega⟩ : Fin 8192) j) (by
      rw [Shape.rowMajor_val_two, Shape.rowMajor_val_three]
      show (bt.val * 2048 + s.val) * 3072 + j.val = (bt.val * 2048 + s.val) * 3072 + j.val
      rfl)

end Cert.KernelIdeal.Hand

end
-- ==== Proof.ProjValue.lean ====
/-
  What the projection call leaves in its result array, over real inputs: entry (r, j) is the r-th input row against the
  j-th weight column plus the j-th bias.
-/
import proofs.«415141_j87746181857559_3_alg».proof.Proof.Proj
import proofs.«415141_j87746181857559_3_alg».proof.Proof.LibRealSums
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

/-! ## The block product at an index

The call's matrix product contracts the left operand's axis 1 against the right operand's axis 0: at result index
`(p, j)` and contraction position `k` the left operand is read at `(p, k)` and the right at `(k, j)`. -/

theorem proj_lhs_0 (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
theorem proj_lhs_1 (i : S512x3072.Idx) (q : dot_S512x1024_S1024x3072_S512x3072_1_0_0_1_n_n.contr.Idx) :
    (dot_S512x1024_S1024x3072_S512x3072_1_0_0_1_n_n.lhsIdx i q 1).val = (q ⟨0, by decide⟩).val :=
  dot_S512x1024_S1024x3072_S512x3072_1_0_0_1_n_n.lhsIdx_val_of_single rfl i q
theorem proj_rhs_0 (i : S512x3072.Idx) (q : dot_S512x1024_S1024x3072_S512x3072_1_0_0_1_n_n.contr.Idx) :
    (dot_S512x1024_S1024x3072_S512x3072_1_0_0_1_n_n.rhsIdx i q 0).val = (q ⟨0, by decide⟩).val :=
  dot_S512x1024_S1024x3072_S512x3072_1_0_0_1_n_n.rhsIdx_val_of_single rfl i q
theorem proj_rhs_1 (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

/-- The product into the zero accumulator, at `(p, j)`: the sum over `d` of the left row `p` against the right column `j`. -/
theorem proj_matmul_apply (x : FVec Ideal S512x1024 .bf16) (w : FVec Ideal S1024x3072 .bf16) (p : Fin 512) (j : Fin 3072) :
    matmul dot_S512x1024_S1024x3072_S512x3072_1_0_0_1_n_n none x w (constant S512x3072 .f32 0x00000000#32) (ix2 p j)
      = ∑ d : Fin 1024, x (ix2 p d) * w (ix2 d j) := by
  simp only [matmul]
  rw [Ideal.matmul_constant_zero_apply, ← Equiv.sum_comp (contrEquiv1 dot_S512x1024_S1024x3072_S512x3072_1_0_0_1_n_n 1024 rfl rfl).symm]
  refine Finset.sum_congr rfl fun k _ => ?_
  have hk := contrEquiv1_symm_val dot_S512x1024_S1024x3072_S512x3072_1_0_0_1_n_n 1024 rfl rfl k
  have el : dot_S512x1024_S1024x3072_S512x3072_1_0_0_1_n_n.lhsIdx (ix2 p j) ((contrEquiv1 dot_S512x1024_S1024x3072_S512x3072_1_0_0_1_n_n 1024 rfl rfl).symm k) = ix2 p k := funext fun a => Fin.ext (by
    match a with
    | ⟨0, _⟩ => exact proj_lhs_0 _ _
    | ⟨1, _⟩ => exact (proj_lhs_1 _ _).trans hk)
  have er : dot_S512x1024_S1024x3072_S512x3072_1_0_0_1_n_n.rhsIdx (ix2 p j) ((contrEquiv1 dot_S512x1024_S1024x3072_S512x3072_1_0_0_1_n_n 1024 rfl rfl).symm k) = ix2 k j := funext fun a => Fin.ext (by
    match a with
    | ⟨0, _⟩ => exact (proj_rhs_0 _ _).trans hk
    | ⟨1, _⟩ => exact proj_rhs_1 _ _)
  rw [el, er]

/-- THE PAYLOAD AT AN INDEX. Exact arithmetic makes the narrowing casts identities, the casts between equal shapes
    change nothing, and the bias row is the same on every row: at `(p, j)` the block the body stores is the row `p`
    of `x` against the column `j` of `w`, plus the bias at `j`. -/
theorem proj_pay_apply (x : Vec Ideal S512x1024 .f32) (w : Vec Ideal S1024x3072 .bf16) (b : Vec Ideal S1x3072 .f32)
    (p : Fin 512) (j : Fin 3072) :
    k0_pay1 (F := Ideal) x w b (ix2 p j) = (∑ d : Fin 1024, x (ix2 p d) * w (ix2 d j)) + b (ix2 (0 : Fin 1) j) := by
  unfold k0_pay1
  simp only [shapeCast_self]
  rw [truncf_apply, addf_apply, proj_matmul_apply, broadcastTo_1b_ab_apply]
  simp only [truncf_apply]

variable (V : (c : Dev nD) → (b : Ref sig .tc) → Buf (Elt Ideal) ((c : Thread nD τ).loc b))

/-! ## From blocks to the array -/

/-- The projection of whole arrays: at `(r, j)`, row `r` of `X` against column `j` of `W`, plus the bias at `j`. -/
def projArr (X : S8192x1024.Idx → EReal) (W : S1024x3072.Idx → EReal) (B : S1x3072.Idx → EReal) : S8192x3072.Idx → EReal :=
  fun i => (∑ d : Fin 1024, X (ix2 (i 0 : Fin 8192) d) * W (ix2 d (i 1 : Fin 3072))) + B (ix2 (0 : Fin 1) (i 1 : Fin 3072))

theorem projArr_apply (X : S8192x1024.Idx → EReal) (W : S1024x3072.Idx → EReal) (B : S1x3072.Idx → EReal)
    (r : Fin 8192) (j : Fin 3072) :
    projArr X W B (ix2 r j) = (∑ d : Fin 1024, X (ix2 r d) * W (ix2 d j)) + B (ix2 (0 : Fin 1) j) := rfl

/-- The index maps over the grid: the rows' window and the result's window move together, one block of 512 rows per
    point, and never along the columns; the weights' and the bias' windows stay at block zero. -/
theorem proj_idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the block at point `t` is row `512 t + p` of the array. -/
def rowAt (t : Fin cfg0.N) (p : Fin 512) : Fin 8192 :=
  ⟨t.val * 512 + p.val, by have ht : t.val < grid0.N := t.isLt; rw [N_0] at ht; have := p.isLt; omega⟩

/-- The block of input rows at point `t`, read at `(p, d)`: the rows' array at `(512 t + p, d)`. -/
theorem xblk0_apply (c : Dev nD) (t : Fin cfg0.N) (p : Fin 512) (d : Fin 1024) :
    xblk0 V c t (ix2 p d) = V c main_v0 (ix2 (rowAt t p) d) := by
  obtain ⟨e0, e1, -, -, -, -, -, -⟩ := proj_idx_facts t
  show V c main_v0 (((cfg0.win 0).blk t).view.emb (ix2 p d)) = _
  refine congrArg (V c main_v0) (funext fun a => Fin.ext ?_)
  match a with
  | ⟨0, _⟩ => show win0_0.index t (0 : Fin 2) * 512 + 1 * p.val = t.val * 512 + p.val; omega
  | ⟨1, _⟩ => show win0_0.index t (1 : Fin 2) * 1024 + 1 * d.val = d.val; omega

/-- The weights' block is the whole weight matrix at every point. -/
theorem wblk0_apply (c : Dev nD) (t : Fin cfg0.N) (d : Fin 1024) (j : Fin 3072) :
    wblk0 V c t (ix2 d j) = V c main_v9 (ix2 d j) := by
  obtain ⟨-, -, e0, e1, -, -, -, -⟩ := proj_idx_facts t
  show V c main_v9 (((cfg0.win 1).blk t).view.emb (ix2 d j)) = _
  refine congrArg (V c main_v9) (funext fun a => Fin.ext ?_)
  match a with
  | ⟨0, _⟩ => show win0_1.index t (0 : Fin 2) * 1024 + 1 * d.val = d.val; omega
  | ⟨1, _⟩ => show win0_1.index t (1 : Fin 2) * 3072 + 1 * j.val = j.val; omega

/-- The bias' block is the whole bias row at every point. -/
theorem bblk0_apply (c : Dev nD) (t : Fin cfg0.N) (j : Fin 3072) :
    bblk0 V c t (ix2 (0 : Fin 1) j) = V c main_v11 (ix2 (0 : Fin 1) j) := by
  obtain ⟨-, -, -, -, e0, e1, -, -⟩ := proj_idx_facts t
  show V c main_v11 (((cfg0.win 2).blk t).view.emb (ix2 (0 : Fin 1) j)) = _
  refine congrArg (V c main_v11) (funext fun a => Fin.ext ?_)
  match a with
  | ⟨0, _⟩ => show win0_2.index t (0 : Fin 2) * 1 + 1 * 0 = 0; omega
  | ⟨1, _⟩ => show win0_2.index t (1 : Fin 2) * 3072 + 1 * j.val = j.val; omega

/-- Entry `(p, j)` of the result's block at point `t` sits in the result array at `(512 t + p, j)`. -/
theorem proj_out_emb (t : Fin cfg0.N) (p : Fin 512) (j : Fin 3072) :
    ((cfg0.win 3).blk t).view.emb (ix2 p j) = (ix2 (rowAt t p) j : S8192x3072.Idx) := by
  obtain ⟨-, -, -, -, -, -, e0, e1⟩ := proj_idx_facts t
  funext a; apply Fin.ext
  match a with
  | ⟨0, _⟩ => show win0_3.index t (0 : Fin 2) * 512 + 1 * p.val = t.val * 512 + p.val; omega
  | ⟨1, _⟩ => show win0_3.index t (1 : Fin 2) * 3072 + 1 * j.val = j.val; omega

/-- What the body stores at point `t`, at an index of the block, is the whole-array projection at the index's place
    in the array. -/
theorem proj_stored_apply (c : Dev nD) (t : Fin cfg0.N) (y : S512x3072.Idx) :
    k0_pay1 (F := Ideal) (xblk0 V c t) (wblk0 V c t) (bblk0 V c t) y
      = projArr (V c main_v0) (V c main_v9) (V c main_v11) (((cfg0.win 3).blk t).view.emb y) := by
  obtain ⟨p, j, rfl⟩ : ∃ (p : Fin 512) (j : Fin 3072), y = ix2 p j := ⟨y 0, y 1, eq_ix2 y⟩
  rw [proj_pay_apply, proj_out_emb, projArr_apply, bblk0_apply]
  simp only [xblk0_apply, wblk0_apply]

/-- WHAT POINT `t` WRITES BACK is block `t` of the whole-array projection of the arrays as the call finds them. -/
theorem proj_flushed_eq (c : Dev nD) (t : Fin cfg0.N) :
    (dat0 (F := Ideal) V c).flushed 3 t
      = ((cfg0.win 3).blk t).view.read (Elt Ideal) (projArr (V c main_v0) (V c main_v9) (V c main_v11)) := by
  show (cfg0.win 3).cut (grid0.coords t) ((dat0 (F := Ideal) V c).after 3 t) = _
  rw [after0_3]
  funext y
  exact proj_stored_apply V c t y

/-- If the call finds real numbers in its three operand arrays — rows `xr`, the weight matrix `wr`, the bias `br` —
    it leaves in its result array, at (r, j), the real number  Σ_d xr r d · wr d j + br j. -/
theorem proj_final_real (c : Dev nD) (xr : Fin 8192 → Fin 1024 → ℝ) (wr : Fin 1024 → Fin 3072 → ℝ) (br : Fin 3072 → ℝ)
    (hx : ∀ (r : Fin 8192) (d : Fin 1024), V c main_v0 (ix2 r d) = ((xr r d : ℝ) : EReal))
    (hw : ∀ (d : Fin 1024) (j : Fin 3072), V c main_v9 (ix2 d j) = ((wr d j : ℝ) : EReal))
    (hb : ∀ (j : Fin 3072), V c main_v11 (ix2 (0 : Fin 1) j) = ((br j : ℝ) : EReal))
    (r : Fin 8192) (j : Fin 3072) :
    (dat0 (F := Ideal) V c).arrAt 3 cfg0.N (ix2 r j) = (((∑ d, xr r d * wr d j) + br j : ℝ) : EReal) := by
  -- row r lies in the block of point r / 512, at row r % 512 of it
  have hr : r.val < 8192 := r.isLt
  have hN : cfg0.N = 16 := N_0
  let t : Fin cfg0.N := ⟨r.val / 512, by rw [hN]; omega⟩
  let p : Fin 512 := ⟨r.val % 512, Nat.mod_lt _ (by decide)⟩
  have hrow : rowAt t p = r := Fin.ext (by show r.val / 512 * 512 + r.val % 512 = r.val; omega)
  have hmem : (ix2 r j : S8192x3072.Idx) ∈ ((cfg0.win 3).blk t).view.set := by
    rw [← hrow, ← proj_out_emb]; exact View.emb_mem_set _ _
  rw [(dat0 (F := Ideal) V c).arrAt_apply_of_mem 3 (projArr (V c main_v0) (V c main_v9) (V c main_v11))
      (fun t _ => proj_flushed_eq V c t) cfg0.N t (ix2 r j) t.isLt (flush0_3 t) hmem, projArr_apply]
  simp only [hx, hw, hb]
  rw [EReal.coe_add, RealSums.coe_sum]
  simp only [EReal.coe_mul]

end Cert.KernelIdeal.Hand

end
-- ==== Proof.AttnValueBlocks.lean ====
/-
  From the attention call's blocks to its arrays: the result array's entry at (batch, query, feature) is what the odd
  grid point of that batch and query tile stored into the output window; and a query, key or value block read at an
  index is the array the call reads at the embedded index — the query tile's rows in the first column band, the key
  tile's rows in the second, the same rows in the third.
-/
import proofs.«415141_j87746181857559_3_alg».proof.Proof.AttnDefs
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

/-- Column `e` of the query band, of the key band, of the value band of the 3072-wide array. -/
abbrev band0 (e : Fin 1024) : Fin 3072 := ⟨e.val, by omega⟩
abbrev band1 (e : Fin 1024) : Fin 3072 := ⟨1024 + e.val, by omega⟩
abbrev band2 (e : Fin 1024) : Fin 3072 := ⟨2048 + e.val, by omega⟩

/-- The grid point that writes back the output block holding (batch `bt`, query `q`): the second key tile of that
    batch and query tile. -/
def ptOf (bt : Fin 4) (q : Fin 2048) : Fin cfg1.N :=
  ⟨4 * bt.val + 2 * (q.val / 1024) + 1, by have := bt.isLt; have := q.isLt; show _ < 16; omega⟩

/-! ## The index maps over the grid -/

/-- Point `t` has coordinates (batch `t / 4`, query tile `(t / 2) % 2`, key tile `t % 2`). The query window and the
    result window sit at (batch, query tile) — the query window in column band 0 —, the key and value windows at
    (batch, key tile) in column bands 1 and 2. -/
theorem attn_idx_facts : ∀ t : Fin cfg1.N,
    win1_0.index t (0 : Fin 3) = t.val / 4 ∧ win1_0.index t (1 : Fin 3) = (t.val / 2) % 2 ∧ win1_0.index t (2 : Fin 3) = 0
    ∧ win1_1.index t (0 : Fin 3) = t.val / 4 ∧ win1_1.index t (1 : Fin 3) = t.val % 2 ∧ win1_1.index t (2 : Fin 3) = 1
    ∧ win1_2.index t (0 : Fin 3) = t.val / 4 ∧ win1_2.index t (1 : Fin 3) = t.val % 2 ∧ win1_2.index t (2 : Fin 3) = 2
    ∧ win1_3.index t (0 : Fin 3) = t.val / 4 ∧ win1_3.index t (1 : Fin 3) = (t.val / 2) % 2 ∧ win1_3.index t (2 : Fin 3) = 0 :=
  (by decide +kernel : ∀ t : Fin grid1.N, _)

/-- The batch of point `t`, and the row of the array that row `p` of the point's query tile is. -/
abbrev batchOf (t : Fin cfg1.N) : Fin 4 := ⟨t.val / 4, by have := t.isLt; have : cfg1.N = 16 := N_1; omega⟩
abbrev qrowOf (t : Fin cfg1.N) (p : Fin 1024) : Fin 2048 := ⟨((t.val / 2) % 2) * 1024 + p.val, by have := p.isLt; omega⟩

/-! ## The input blocks read at an index

A block's element sits in the array, on each axis, at the block index times the block's size plus its own coordinate. -/

/-- The query block of point `t` at row `p`, feature `e`: the array read, batch `t / 4`, row `p` of query tile
    `(t / 2) % 2`, first column band. -/
theorem qblk_apply (c : Dev nD) (t : Fin cfg1.N) (p e : Fin 1024) :
    qblk V c t (ix3 (0 : Fin 1) p e)
      = V c main_v13 (ix3 (⟨t.val / 4, by have := t.isLt; have : cfg1.N = 16 := N_1; omega⟩ : Fin 4)
          (⟨((t.val / 2) % 2) * 1024 + p.val, by have := p.isLt; omega⟩ : Fin 2048) (band0 e)) := by
  obtain ⟨e0, e1, e2, -⟩ := attn_idx_facts t
  show V c main_v13 (((cfg1.win 0).blk t).view.emb (ix3 (0 : Fin 1) p e)) = _
  refine congrArg (V c main_v13) (funext fun a => Fin.ext ?_)
  match a with
  | ⟨0, _⟩ => show win1_0.index t (0 : Fin 3) * 1 + 1 * (0 : Fin 1).val = t.val / 4; omega
  | ⟨1, _⟩ => show win1_0.index t (1 : Fin 3) * 1024 + 1 * p.val = ((t.val / 2) % 2) * 1024 + p.val; omega
  | ⟨2, _⟩ => show win1_0.index t (2 : Fin 3) * 1024 + 1 * e.val = e.val; omega

/-- The key block of point `t` at row `j`: row `j` of key tile `t % 2`, second column band. -/
theorem kblk_apply (c : Dev nD) (t : Fin cfg1.N) (j e : Fin 1024) :
    kblk V c t (ix3 (0 : Fin 1) j e)
      = V c main_v13 (ix3 (⟨t.val / 4, by have := t.isLt; have : cfg1.N = 16 := N_1; omega⟩ : Fin 4)
          (⟨(t.val % 2) * 1024 + j.val, by have := j.isLt; omega⟩ : Fin 2048) (band1 e)) := by
  obtain ⟨-, -, -, e0, e1, e2, -⟩ := attn_idx_facts t
  show V c main_v13 (((cfg1.win 1).blk t).view.emb (ix3 (0 : Fin 1) j e)) = _
  refine congrArg (V c main_v13) (funext fun a => Fin.ext ?_)
  match a with
  | ⟨0, _⟩ => show win1_1.index t (0 : Fin 3) * 1 + 1 * (0 : Fin 1).val = t.val / 4; omega
  | ⟨1, _⟩ => show win1_1.index t (1 : Fin 3) * 1024 + 1 * j.val = (t.val % 2) * 1024 + j.val; omega
  | ⟨2, _⟩ => show win1_1.index t (2 : Fin 3) * 1024 + 1 * e.val = 1024 + e.val; omega

/-- The value block of point `t` at row `j`: the same rows, third column band. -/
theorem vblk_apply (c : Dev nD) (t : Fin cfg1.N) (j e : Fin 1024) :
    vblk V c t (ix3 (0 : Fin 1) j e)
      = V c main_v13 (ix3 (⟨t.val / 4, by have := t.isLt; have : cfg1.N = 16 := N_1; omega⟩ : Fin 4)
          (⟨(t.val % 2) * 1024 + j.val, by have := j.isLt; omega⟩ : Fin 2048) (band2 e)) := by
  obtain ⟨-, -, -, -, -, -, e0, e1, e2, -⟩ := attn_idx_facts t
  show V c main_v13 (((cfg1.win 2).blk t).view.emb (ix3 (0 : Fin 1) j e)) = _
  refine congrArg (V c main_v13) (funext fun a => Fin.ext ?_)
  match a with
  | ⟨0, _⟩ => show win1_2.index t (0 : Fin 3) * 1 + 1 * (0 : Fin 1).val = t.val / 4; omega
  | ⟨1, _⟩ => show win1_2.index t (1 : Fin 3) * 1024 + 1 * j.val = (t.val % 2) * 1024 + j.val; omega
  | ⟨2, _⟩ => show win1_2.index t (2 : Fin 3) * 1024 + 1 * e.val = 2048 + e.val; omega

/-! ## From the output blocks to the result array

Every odd point stores numerator / denominator into the output window and the window is written back there; the
odd points' output blocks tile the result array, one per (batch, query tile). So the stored blocks are the blocks of
ONE function of the array's index — at (batch, query, feature), what the odd point of that batch and of the query's
tile stored at the query's row inside the tile — and the array ends holding that function. -/

/-- The result array as one function of its index. -/
def attnArr (c : Dev nD) : S4x2048x1024.Idx → Elt F .f32 :=
  fun i => outB V c (ptOf (i 0 : Fin 4) (i 1 : Fin 2048))
    (ix3 (0 : Fin 1) (⟨(i 1 : Fin 2048).val % 1024, Nat.mod_lt _ (by norm_num)⟩ : Fin 1024) (i 2 : Fin 1024))

theorem attnArr_apply (c : Dev nD) (bt : Fin 4) (q : Fin 2048) (e : Fin 1024) :
    attnArr V c (ix3 bt q e)
      = outB V c (ptOf bt q) (ix3 (0 : Fin 1) (⟨q.val % 1024, Nat.mod_lt _ (by norm_num)⟩ : Fin 1024) e) := rfl

/-- Entry `(z, p, e)` of the output block at point `t` sits in the result array at (batch of `t`, row `p` of the
    query tile of `t`, `e`). -/
theorem attn_out_emb (t : Fin cfg1.N) (z : Fin 1) (p e : Fin 1024) :
    ((cfg1.win 3).blk t).view.emb (ix3 z p e) = (ix3 (batchOf t) (qrowOf t p) e : S4x2048x1024.Idx) := by
  obtain ⟨-, -, -, -, -, -, -, -, -, e0, e1, e2⟩ := attn_idx_facts t
  have hz := z.isLt
  funext a; apply Fin.ext
  match a with
  | ⟨0, _⟩ => show win1_3.index t (0 : Fin 3) * 1 + 1 * z.val = t.val / 4; omega
  | ⟨1, _⟩ => show win1_3.index t (1 : Fin 3) * 1024 + 1 * p.val = ((t.val / 2) % 2) * 1024 + p.val; omega
  | ⟨2, _⟩ => show win1_3.index t (2 : Fin 3) * 1024 + 1 * e.val = e.val; omega

/-- So that place is in the block of point `t`. -/
theorem attn_out_mem (t : Fin cfg1.N) (p e : Fin 1024) :
    (ix3 (batchOf t) (qrowOf t p) e : S4x2048x1024.Idx) ∈ ((cfg1.win 3).blk t).view.set := by
  rw [← attn_out_emb t 0 p e]; exact View.emb_mem_set _ _

/-- The odd point of the batch and query tile of an odd point `t` is `t` itself. -/
theorem ptOf_self (t : Fin cfg1.N) (ht : t.val % 2 = 1) (p : Fin 1024) : ptOf (batchOf t) (qrowOf t p) = t := by
  have hN : cfg1.N = 16 := N_1
  have := t.isLt; have := p.isLt
  exact Fin.ext (by show 4 * (t.val / 4) + 2 * ((((t.val / 2) % 2) * 1024 + p.val) / 1024) + 1 = t.val; omega)

/-- What an odd point `t` stores, at an index of the block, is the whole-array function at the index's place in the
    array. -/
theorem attn_stored_apply (c : Dev nD) (t : Fin cfg1.N) (ht : t.val % 2 = 1) (y : S1x1024x1024.Idx) :
    outB V c t y = attnArr V c (((cfg1.win 3).blk t).view.emb y) := by
  obtain ⟨z, p, e, rfl⟩ : ∃ (z : Fin 1) (p e : Fin 1024), y = ix3 z p e := ⟨y 0, y 1, y 2, eq_ix3 y⟩
  rw [attn_out_emb, attnArr_apply, ptOf_self t ht p]
  have hz : z = 0 := Fin.ext (by have := z.isLt; show z.val = 0; omega)
  have hp : (⟨(qrowOf t p).val % 1024, Nat.mod_lt _ (by norm_num)⟩ : Fin 1024) = p :=
    Fin.ext (by have := p.isLt; show (((t.val / 2) % 2) * 1024 + p.val) % 1024 = p.val; omega)
  rw [hz, hp]

/-- WHAT AN ODD POINT WRITES BACK is its block of the whole-array function. -/
theorem attn_flushed_eq (c : Dev nD) (t : Fin cfg1.N) (ht : t.val % 2 = 1) :
    (dat1 V c).flushed 3 t = ((cfg1.win 3).blk t).view.read (Elt F) (attnArr V c) := by
  show (cfg1.win 3).cut (grid1.coords t) ((dat1 V c).after 3 t) = _
  rw [after1_3]
  funext y
  exact attn_stored_apply V c t ht y

/-- The result array after the run, at the place of row `p` of an odd point `t`'s block, is what `t` stored there. -/
theorem attn_arr_at (c : Dev nD) (t : Fin cfg1.N) (ht : t.val % 2 = 1) (p e : Fin 1024) :
    (dat1 V c).arrAt 3 cfg1.N (ix3 (batchOf t) (qrowOf t p) e) = outB V c t (ix3 (0 : Fin 1) p e) := by
  rw [(dat1 V c).arrAt_apply_of_mem 3 (attnArr V c) (fun t hf => attn_flushed_eq V c t ((flush1_3 t).mp hf))
      cfg1.N t (ix3 (batchOf t) (qrowOf t p) e) t.isLt ((flush1_3 t).mpr ht) (attn_out_mem t p e),
    ← attn_out_emb t 0 p e]
  exact (attn_stored_apply V c t ht _).symm

/-- The result array at (bt, q, e) is what point `ptOf bt q` stored, at row `q % 1024`. -/
theorem attn_arr_eq (c : Dev nD) (bt : Fin 4) (q : Fin 2048) (e : Fin 1024) :
    (dat1 V c).arrAt 3 cfg1.N (ix3 bt q e)
      = outB V c (ptOf bt q) (ix3 (0 : Fin 1) (⟨q.val % 1024, Nat.mod_lt _ (by norm_num)⟩ : Fin 1024) e) := by
  have hb := bt.isLt; have hq := q.isLt
  have hodd : (ptOf bt q).val % 2 = 1 := by show (4 * bt.val + 2 * (q.val / 1024) + 1) % 2 = 1; omega
  have hbt : batchOf (ptOf bt q) = bt := Fin.ext (by show (4 * bt.val + 2 * (q.val / 1024) + 1) / 4 = bt.val; omega)
  have hrow : qrowOf (ptOf bt q) (⟨q.val % 1024, Nat.mod_lt _ (by norm_num)⟩ : Fin 1024) = q :=
    Fin.ext (by show (((4 * bt.val + 2 * (q.val / 1024) + 1) / 2) % 2) * 1024 + q.val % 1024 = q.val; omega)
  have h := attn_arr_at V c (ptOf bt q) hodd (⟨q.val % 1024, Nat.mod_lt _ (by norm_num)⟩ : Fin 1024) e
  rw [hbt, hrow] at h
  exact h

end Cert.KernelIdeal.Hand

end
-- ==== Proof.AttnValueLayout.lean ====
/-
  Column vectors and row maxima at an index: a vector laid out as a one-column matrix, a one-column matrix broadcast
  along the lanes, the pattern of minus infinity as an extended real, and a maximum over a nonempty finite family of
  real numbers, folded from minus infinity, as the coercion of the real supremum.
-/
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.ValueIdx

variable {α : Type}

/-- A vector `[a]` cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the lanes to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- The f32 pattern of minus infinity is the bottom extended real. -/
theorem ofBits_neg_inf_f32 : Ideal.ofBits .f32 0xFF800000#32 = ⊥ := by
  simp [Ideal.ofBits, Ideal.ieee]

/-- The maximum of a nonempty finite family of real numbers, folded from the bottom element in the extended reals, is the
    coercion of the family's real supremum. -/
theorem fold_max_bot_coe {n : ℕ} (hn : (Finset.univ : Finset (Fin n)).Nonempty) (f : Fin n → ℝ) :
    (Finset.univ : Finset (Fin n)).fold max (⊥ : EReal) (fun j => ((f j : ℝ) : EReal))
      = ((Finset.univ.sup' hn f : ℝ) : EReal) := by
  apply le_antisymm
  · refine (Finset.fold_max_le _).mpr ⟨bot_le, fun j hj => ?_⟩
    exact EReal.coe_le_coe_iff.mpr (Finset.le_sup' f hj)
  · obtain ⟨j, hj, hje⟩ := Finset.exists_mem_eq_sup' hn f
    rw [hje]
    exact (Finset.le_fold_max _).mpr (Or.inr ⟨j, hj, le_rfl⟩)

end Cert.KernelIdeal.Hand

end
-- ==== Proof.AttnValuePay.lean ====
/-
  The attention call's payloads read at an index, on the extended reals: the square block product, the scores block,
  the row maximum, and one online-softmax update's running maximum, denominator and numerator; last the stored quotient.
-/
import proofs.«415141_j87746181857559_3_alg».proof.Proof.AttnDefs
import proofs.«415141_j87746181857559_3_alg».proof.Proof.AttnValueLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Cert.KernelIdeal Cert.KernelIdeal.Gen

/-! ## The 1024 × 1024 block product at an index -/

theorem lhs_mm_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_mm_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_mm_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_mm_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The block product into the zero block: at (p, j) the sum over the inner coordinate of left (p, e) times right (e, j). -/
theorem mm_apply {φ₁ φ₂ : FTy} (lhs : FVec Ideal S1024x1024 φ₁) (rhs : FVec Ideal S1024x1024 φ₂) (p j : Fin 1024) :
    matmul dot_S1024x1024_S1024x1024_S1024x1024_1_0_0_1_n_n none lhs rhs (constant (F := Ideal) S1024x1024 .f32 0x00000000#32) (ix2 p j)
      = ∑ e : Fin 1024, lhs (ix2 p e) * rhs (ix2 e j) := by
  simp only [matmul]
  rw [Ideal.matmul_constant_zero_apply, ← Equiv.sum_comp (contrEquiv1 dot_S1024x1024_S1024x1024_S1024x1024_1_0_0_1_n_n 1024 rfl rfl).symm]
  refine Finset.sum_congr rfl fun e _ => ?_
  have hk := contrEquiv1_symm_val dot_S1024x1024_S1024x1024_S1024x1024_1_0_0_1_n_n 1024 rfl rfl e
  have el : dot_S1024x1024_S1024x1024_S1024x1024_1_0_0_1_n_n.lhsIdx (ix2 p j) ((contrEquiv1 dot_S1024x1024_S1024x1024_S1024x1024_1_0_0_1_n_n 1024 rfl rfl).symm e) = ix2 p e := funext fun a => Fin.ext (by
    match a with
    | ⟨0, _⟩ => exact lhs_mm_0 _ _
    | ⟨1, _⟩ => exact (lhs_mm_1 _ _).trans hk)
  have er : dot_S1024x1024_S1024x1024_S1024x1024_1_0_0_1_n_n.rhsIdx (ix2 p j) ((contrEquiv1 dot_S1024x1024_S1024x1024_S1024x1024_1_0_0_1_n_n 1024 rfl rfl).symm e) = ix2 e j := funext fun a => Fin.ext (by
    match a with
    | ⟨0, _⟩ => exact (rhs_mm_0 _ _).trans hk
    | ⟨1, _⟩ => exact rhs_mm_1 _ _)
  rw [el, er]

/-! ## The scores block -/

/-- The score of query row `p` of the block `q` against key row `j` of the block `k`. -/
def scoreE (q k : Vec Ideal S1x1024x1024 .bf16) (p j : Fin 1024) : EReal := ∑ e : Fin 1024, q (ix3 (0 : Fin 1) p e) * k (ix3 (0 : Fin 1) j e)

theorem pay8_apply (q k : Vec Ideal S1x1024x1024 .bf16) (p j : Fin 1024) :
    k1_pay8 q k (ix2 p j) = scoreE q k p j := by
  unfold k1_pay8 scoreE
  rw [mm_apply]
  refine Finset.sum_congr rfl fun e _ => ?_
  rw [shapeCast_1ab_ab_apply, transpose_ix2_apply, shapeCast_1ab_ab_apply]

/-! ## The row maximum and the row sum -/

/-- The maximum along the lanes, from minus infinity, at row `p`. -/
theorem rowmax_apply (s : FVec Ideal S1024x1024 .f32) (p : Fin 1024) :
    multiReduction .maximumf [1] S1024 s 0xFF800000#32 reduces_S1024x1024_S1024 (.inl rfl) rfl (ix1 p)
      = (Finset.univ : Finset (Fin 1024)).fold max (⊥ : EReal) (fun j => s (ix2 p j)) := by
  refine (Ideal.multiReduction_maximumf_single s 0xFF800000#32 reduces_S1024x1024_S1024 (.inl rfl) rfl (ix1 p)).trans ?_
  show (Finset.univ : Finset (Fin 1024)).fold max (Ideal.ofBits .f32 0xFF800000#32) (fun j => s (reduces_S1024x1024_S1024.lift (ix1 p) j)) = _
  rw [ofBits_neg_inf_f32]
  refine congrArg (fun f => (Finset.univ : Finset (Fin 1024)).fold max (⊥ : EReal) f) (funext fun j => congrArg s (funext fun a => Fin.ext ?_))
  match a with
  | ⟨0, _⟩ => rfl
  | ⟨1, _⟩ => rfl

/-- The sum along the lanes at row `p`. -/
theorem rowsum_apply (s : FVec Ideal S1024x1024 .f32) (p : Fin 1024) :
    multiReduction .add [1] S1024 s 0x00000000#32 reduces_S1024x1024_S1024 (.inl rfl) rfl (ix1 p)
      = ∑ j : Fin 1024, s (ix2 p j) := by
  refine (Ideal.multiReduction_add_single s 0x00000000#32 reduces_S1024x1024_S1024 (.inl rfl) rfl (ix1 p)).trans ?_
  show ∑ j : Fin 1024, s (reduces_S1024x1024_S1024.lift (ix1 p) j) = _
  refine Finset.sum_congr rfl fun j _ => congrArg s (funext fun a => Fin.ext ?_)
  match a with
  | ⟨0, _⟩ => rfl
  | ⟨1, _⟩ => rfl

/-! ## One update at an index -/

/-- The row maximum of the scores of query row `p`. -/
def rowMaxE (q k : Vec Ideal S1x1024x1024 .bf16) (p : Fin 1024) : EReal :=
  (Finset.univ : Finset (Fin 1024)).fold max (⊥ : EReal) (fun j => scoreE q k p j)

theorem pay9_apply (q k : Vec Ideal S1x1024x1024 .bf16) (mp : Vec Ideal S1024x1 .f32) (p : Fin 1024) (u : Fin 1) :
    k1_pay9 q k mp (ix2 p u) = max (mp (ix2 p u)) (rowMaxE q k p) := by
  unfold k1_pay9 rowMaxE
  rw [maximumf_apply, shapeCast_a_a1_apply, rowmax_apply]
  simp only [pay8_apply]

theorem pay10_apply (q k : Vec Ideal S1x1024x1024 .bf16) (mp mq : Vec Ideal S1024x1 .f32) (p : Fin 1024) (u : Fin 1) :
    k1_pay10 q k mp mq (ix2 p u) = Ideal.exp (mq (ix2 p u) - max (mp (ix2 p u)) (rowMaxE q k p)) := by
  unfold k1_pay10
  show Ideal.exp (mq (ix2 p u) - k1_pay9 q k mp (ix2 p u)) = _
  rw [pay9_apply]

theorem pay11_apply (q k : Vec Ideal S1x1024x1024 .bf16) (mp : Vec Ideal S1024x1 .f32) (p j : Fin 1024) :
    k1_pay11 q k mp (ix2 p j) = Ideal.exp (scoreE q k p j - max (mp (ix2 p (0 : Fin 1))) (rowMaxE q k p)) := by
  unfold k1_pay11
  show Ideal.exp (k1_pay8 q k (ix2 p j) - broadcastTo S1024x1024 (k1_pay9 q k mp) broadcasts_S1024x1_S1024x1024 (ix2 p j)) = _
  rw [pay8_apply, broadcastTo_a1_ab_apply, pay9_apply]

theorem pay12_apply (q k : Vec Ideal S1x1024x1024 .bf16) (mp mq lp : Vec Ideal S1024x1 .f32) (p : Fin 1024) :
    k1_pay12 q k mp mq lp (ix2 p (0 : Fin 1))
      = Ideal.exp (mq (ix2 p (0 : Fin 1)) - max (mp (ix2 p (0 : Fin 1))) (rowMaxE q k p)) * lp (ix2 p (0 : Fin 1))
        + ∑ j : Fin 1024, Ideal.exp (scoreE q k p j - max (mp (ix2 p (0 : Fin 1))) (rowMaxE q k p)) := by
  unfold k1_pay12
  rw [shapeCast_self, addf_apply, mulf_apply, pay10_apply, shapeCast_a_a1_apply, rowsum_apply]
  simp only [pay11_apply]

theorem pay13_apply (q k : Vec Ideal S1x1024x1024 .bf16) (mp mq : Vec Ideal S1024x1 .f32) (p e : Fin 1024) :
    k1_pay13 q k mp mq (ix2 p e) = Ideal.exp (mq (ix2 p (0 : Fin 1)) - max (mp (ix2 p (0 : Fin 1))) (rowMaxE q k p)) := by
  unfold k1_pay13
  rw [broadcastTo_a1_ab_apply, pay10_apply]

theorem pay7_apply (v : Vec Ideal S1x1024x1024 .bf16) (j e : Fin 1024) : k1_pay7 v (ix2 j e) = v (ix3 (0 : Fin 1) j e) := by
  unfold k1_pay7
  rw [shapeCast_1ab_ab_apply]

theorem pay1_apply (v8 : FVec Ideal S1024x1024 .bf16) (v20 : FVec Ideal S1024x1024 .f32) (v29 : Vec Ideal S1024x1024 .f32)
    (v30 : FVec Ideal S1024x1024 .f32) (p e : Fin 1024) :
    k1_pay1 v8 v20 v29 v30 (ix2 p e) = v30 (ix2 p e) * v29 (ix2 p e) + ∑ j : Fin 1024, v20 (ix2 p j) * v8 (ix2 j e) := by
  unfold k1_pay1
  rw [shapeCast_self, addf_apply, mulf_apply, mm_apply]
  rfl

theorem pay2_eq (v : FVec Ideal S1024x1 .f32) : k1_pay2 v = v := by
  unfold k1_pay2
  rw [shapeCast_self]

theorem pay3_apply (a : Vec Ideal S1024x1024 .f32) (l : Vec Ideal S1024x1 .f32) (u : Fin 1) (p e : Fin 1024) :
    k1_pay3 a l (ix3 u p e) = Ideal.div (a (ix2 p e)) (l (ix2 p (0 : Fin 1))) := by
  unfold k1_pay3
  rw [shapeCast_ab_1ab_apply, divf_apply, broadcastTo_a1_ab_apply]

/-- The reset values: minus infinity for the running maximum, zero for the denominator and the numerator. -/
theorem pay4_apply (i : S1024x1.Idx) : k1_pay4 (F := Ideal) i = ⊥ := by
  unfold k1_pay4
  rw [shapeCast_self]
  exact ofBits_neg_inf_f32
theorem pay5_apply (i : S1024x1.Idx) : k1_pay5 (F := Ideal) i = 0 := by
  unfold k1_pay5
  rw [shapeCast_self]
  exact Ideal.ofBits_zero_f32
theorem pay6_apply (i : S1024x1024.Idx) : k1_pay6 (F := Ideal) i = 0 := by
  unfold k1_pay6
  rw [shapeCast_self]
  exact Ideal.ofBits_zero_f32

/-! ## One update: the running maximum, denominator and numerator at an index -/

theorem stepM_apply (q k : Vec Ideal S1x1024x1024 .bf16) (mp : Vec Ideal S1024x1 .f32) (p : Fin 1024) :
    stepM q k mp (ix2 p (0 : Fin 1)) = max (mp (ix2 p (0 : Fin 1))) (rowMaxE q k p) := by
  unfold stepM
  rw [pay2_eq, pay9_apply]

theorem stepL_apply (q k : Vec Ideal S1x1024x1024 .bf16) (mp lp : Vec Ideal S1024x1 .f32) (p : Fin 1024) :
    stepL q k mp lp (ix2 p (0 : Fin 1))
      = Ideal.exp (mp (ix2 p (0 : Fin 1)) - stepM q k mp (ix2 p (0 : Fin 1))) * lp (ix2 p (0 : Fin 1))
        + ∑ j : Fin 1024, Ideal.exp (scoreE q k p j - stepM q k mp (ix2 p (0 : Fin 1))) := by
  rw [stepM_apply]
  unfold stepL
  rw [pay12_apply]

theorem stepA_apply (q k v : Vec Ideal S1x1024x1024 .bf16) (mp : Vec Ideal S1024x1 .f32) (ap : Vec Ideal S1024x1024 .f32)
    (p e : Fin 1024) :
    stepA q k v mp ap (ix2 p e)
      = Ideal.exp (mp (ix2 p (0 : Fin 1)) - stepM q k mp (ix2 p (0 : Fin 1))) * ap (ix2 p e)
        + ∑ j : Fin 1024, Ideal.exp (scoreE q k p j - stepM q k mp (ix2 p (0 : Fin 1))) * v (ix3 (0 : Fin 1) j e) := by
  rw [stepM_apply]
  unfold stepA
  rw [pay1_apply, pay13_apply]
  simp only [pay11_apply, pay7_apply]

end Cert.KernelIdeal.Hand

end
-- ==== Proof.AttnValueReal.lean ====
/-
  One online-softmax update on real numbers, read in the extended reals: the running maximum from minus infinity and
  from a real number, the exponential of a difference, the rescaled denominator and numerator as coercions of the real
  expressions, and the quotient of two real numbers by a non-zero divisor.
-/
import proofs.«415141_j87746181857559_3_alg».proof.Proof.AttnValueLayout
import proofs.«415141_j87746181857559_3_alg».proof.Proof.LibRealSums

noncomputable section

namespace Cert.KernelIdeal.Hand

open Idealize.ShloMosaic Idealize.ShloMosaic.RealSums Finset

/-! ## The running maximum -/

/-- From minus infinity: the maximum of the real scores themselves. -/
theorem max_bot_fold_coe {n : ℕ} (hn : (univ : Finset (Fin n)).Nonempty) (s : Fin n → ℝ) :
    max (⊥ : EReal) ((univ : Finset (Fin n)).fold max (⊥ : EReal) (fun j => ((s j : ℝ) : EReal)))
      = ((univ.sup' hn s : ℝ) : EReal) := by
  rw [fold_max_bot_coe hn s, max_eq_right bot_le]

/-- From a real previous maximum: the real maximum of it and the scores'. -/
theorem max_coe_fold_coe {n : ℕ} (hn : (univ : Finset (Fin n)).Nonempty) (mp : ℝ) (s : Fin n → ℝ) :
    max ((mp : ℝ) : EReal) ((univ : Finset (Fin n)).fold max (⊥ : EReal) (fun j => ((s j : ℝ) : EReal)))
      = ((max mp (univ.sup' hn s) : ℝ) : EReal) := by
  rw [fold_max_bot_coe hn s]
  exact (EReal.coe_strictMono.monotone.map_max).symm

/-! ## The exponential of a difference -/

theorem exp_bot_sub_coe (m : ℝ) : Ideal.exp ((⊥ : EReal) - ((m : ℝ) : EReal)) = 0 := by
  rw [sub_eq_add_neg, EReal.bot_add, Ideal.exp_bot]

theorem exp_coe_sub_coe (a m : ℝ) : Ideal.exp (((a : ℝ) : EReal) - ((m : ℝ) : EReal)) = ((Real.exp (a - m) : ℝ) : EReal) := by
  rw [← EReal.coe_sub, Ideal.exp_coe]

/-! ## The denominator and the numerator -/

/-- The first update's denominator: the weight of the previous one is `exp (-∞ - m) = 0`. -/
theorem den_first {n : ℕ} (s : Fin n → ℝ) (m : ℝ) (lp : EReal) :
    Ideal.exp ((⊥ : EReal) - ((m : ℝ) : EReal)) * lp + ∑ j : Fin n, Ideal.exp (((s j : ℝ) : EReal) - ((m : ℝ) : EReal))
      = ((∑ j : Fin n, Real.exp (s j - m) : ℝ) : EReal) := by
  rw [exp_bot_sub_coe, zero_mul, zero_add, coe_sum]
  exact Finset.sum_congr rfl fun j _ => exp_coe_sub_coe (s j) m

/-- A later update's denominator, from a real previous maximum and denominator. -/
theorem den_next {n : ℕ} (s : Fin n → ℝ) (mp m lp : ℝ) :
    Ideal.exp (((mp : ℝ) : EReal) - ((m : ℝ) : EReal)) * ((lp : ℝ) : EReal)
        + ∑ j : Fin n, Ideal.exp (((s j : ℝ) : EReal) - ((m : ℝ) : EReal))
      = ((Real.exp (mp - m) * lp + ∑ j : Fin n, Real.exp (s j - m) : ℝ) : EReal) := by
  rw [EReal.coe_add, EReal.coe_mul, coe_sum, exp_coe_sub_coe]
  exact congrArg _ (Finset.sum_congr rfl fun j _ => exp_coe_sub_coe (s j) m)

/-- The first update's numerator. -/
theorem num_first {n : ℕ} (s w : Fin n → ℝ) (m : ℝ) (ap : EReal) :
    Ideal.exp ((⊥ : EReal) - ((m : ℝ) : EReal)) * ap
        + ∑ j : Fin n, Ideal.exp (((s j : ℝ) : EReal) - ((m : ℝ) : EReal)) * ((w j : ℝ) : EReal)
      = ((∑ j : Fin n, Real.exp (s j - m) * w j : ℝ) : EReal) := by
  rw [exp_bot_sub_coe, zero_mul, zero_add, coe_sum]
  exact Finset.sum_congr rfl fun j _ => by rw [exp_coe_sub_coe, EReal.coe_mul]

/-- A later update's numerator, from a real previous maximum and numerator. -/
theorem num_next {n : ℕ} (s w : Fin n → ℝ) (mp m ap : ℝ) :
    Ideal.exp (((mp : ℝ) : EReal) - ((m : ℝ) : EReal)) * ((ap : ℝ) : EReal)
        + ∑ j : Fin n, Ideal.exp (((s j : ℝ) : EReal) - ((m : ℝ) : EReal)) * ((w j : ℝ) : EReal)
      = ((Real.exp (mp - m) * ap + ∑ j : Fin n, Real.exp (s j - m) * w j : ℝ) : EReal) := by
  rw [EReal.coe_add, EReal.coe_mul, coe_sum, exp_coe_sub_coe]
  exact congrArg _ (Finset.sum_congr rfl fun j _ => by rw [exp_coe_sub_coe, EReal.coe_mul])

/-! ## The quotient -/

theorem div_coe_coe (a l : ℝ) (hl : l ≠ 0) : Ideal.div ((a : ℝ) : EReal) ((l : ℝ) : EReal) = ((a / l : ℝ) : EReal) := by
  rw [Ideal.div_coe hl, ← EReal.coe_mul, mul_one_div]

/-- A rescaled positive-or-zero denominator plus a nonempty sum of exponentials is positive. -/
theorem den_pos {n : ℕ} (hn : (univ : Finset (Fin n)).Nonempty) (s0 s1 : Fin n → ℝ) (m1 m2 : ℝ) :
    0 < Real.exp (m1 - m2) * (∑ j : Fin n, Real.exp (s0 j - m1)) + ∑ j : Fin n, Real.exp (s1 j - m2) :=
  add_pos_of_nonneg_of_pos
    (mul_nonneg (Real.exp_pos _).le (Finset.sum_nonneg fun j _ => (Real.exp_pos _).le))
    (Finset.sum_pos (fun j _ => Real.exp_pos _) hn)

end Cert.KernelIdeal.Hand

end
-- ==== Proof.Spec2.lean ====
/-
  The two-block online softmax as a function of ANY real query, key and value arrays, and the kernel's result as an
  instance of it.
-/
import proofs.«415141_j87746181857559_3_alg».proof.Proof.Spec

noncomputable section

namespace Cert.Spec

open Finset

variable (Q K W : Fin 4 → Fin 2048 → Fin 1024 → ℝ)

/-- The score of query `q` against key `j`. -/
def fS (bt : Fin 4) (q j : Fin 2048) : ℝ := ∑ e, Q bt q e * K bt j e
/-- The running maximum after the first key block, after the second. -/
def fM1 (bt : Fin 4) (q : Fin 2048) : ℝ := univ.sup' ⟨0, mem_univ _⟩ fun j' => fS Q K bt q (key0 j')
def fM2 (bt : Fin 4) (q : Fin 2048) : ℝ := max (fM1 Q K bt q) (univ.sup' ⟨0, mem_univ _⟩ fun j' => fS Q K bt q (key1 j'))
/-- The running denominator and numerator after the first key block. -/
def fL1 (bt : Fin 4) (q : Fin 2048) : ℝ := ∑ j', Real.exp (fS Q K bt q (key0 j') - fM1 Q K bt q)
def fA1 (bt : Fin 4) (q : Fin 2048) (e : Fin 1024) : ℝ := ∑ j', Real.exp (fS Q K bt q (key0 j') - fM1 Q K bt q) * W bt (key0 j') e
/-- After the second key block. -/
def fL2 (bt : Fin 4) (q : Fin 2048) : ℝ :=
  Real.exp (fM1 Q K bt q - fM2 Q K bt q) * fL1 Q K bt q + ∑ j', Real.exp (fS Q K bt q (key1 j') - fM2 Q K bt q)
def fA2 (bt : Fin 4) (q : Fin 2048) (e : Fin 1024) : ℝ :=
  Real.exp (fM1 Q K bt q - fM2 Q K bt q) * fA1 Q K W bt q e + ∑ j', Real.exp (fS Q K bt q (key1 j') - fM2 Q K bt q) * W bt (key1 j') e
/-- Numerator over denominator. -/
def flashOf (bt : Fin 4) (q : Fin 2048) (e : Fin 1024) : ℝ := fA2 Q K W bt q e / fL2 Q K bt q

/-- The kernel's result is the online softmax of its scaled query projection and its key and value projections. -/
theorem outK_eq_flashOf (I : Inp) (bt : Fin 4) (q : Fin 2048) (e : Fin 1024) :
    outK I bt q e = flashOf (qK I) (proj I I.wk I.bk) (proj I I.wv I.bv) bt q e := rfl

end Cert.Spec

end
-- ==== Proof.AttnValueStep.lean ====
/-
  One online-softmax update of the attention call on blocks that hold real numbers: with the query block holding rows
  `row p` of the real queries of batch `bt`, and the key and value blocks holding the first (second) half of that
  batch's keys and values, the update from the reset values leaves the coercions of `fM1`, `fL1`, `fA1`, the update
  after it those of `fM2`, `fL2`, `fA2`, and the stored quotient is the coercion of `flashOf`.
-/
import proofs.«415141_j87746181857559_3_alg».proof.Proof.AttnValuePay
import proofs.«415141_j87746181857559_3_alg».proof.Proof.AttnValueReal
import proofs.«415141_j87746181857559_3_alg».proof.Proof.Spec2

set_option maxRecDepth 16384

noncomputable section

namespace Cert.KernelIdeal.Hand

open Idealize.ShloMosaic Idealize.ShloMosaic.TcCoe Idealize.ShloMosaic.ValueIdx
open Cert.KernelIdeal Cert.KernelIdeal.Gen

open Idealize.ShloMosaic.RealSums Cert.Spec Finset

variable (Q K W : Fin 4 → Fin 2048 → Fin 1024 → ℝ) (bt : Fin 4) (row : Fin 1024 → Fin 2048)

/-- The scores of real blocks are the coercions of the real scores. -/
theorem scoreE_real (key : Fin 1024 → Fin 2048) (q k : Vec Ideal S1x1024x1024 .bf16)
    (hq : ∀ (p e : Fin 1024), q (ix3 (0 : Fin 1) p e) = ((Q bt (row p) e : ℝ) : EReal))
    (hk : ∀ (j e : Fin 1024), k (ix3 (0 : Fin 1) j e) = ((K bt (key j) e : ℝ) : EReal)) (p j : Fin 1024) :
    scoreE q k p j = ((fS Q K bt (row p) (key j) : ℝ) : EReal) := by
  unfold scoreE fS
  rw [coe_sum]
  exact Finset.sum_congr rfl fun e _ => by rw [hq, hk, EReal.coe_mul]

/-- THE FIRST UPDATE, from the reset values, on the first half of the keys and values. -/
theorem first_real (q k v : Vec Ideal S1x1024x1024 .bf16)
    (hq : ∀ (p e : Fin 1024), q (ix3 (0 : Fin 1) p e) = ((Q bt (row p) e : ℝ) : EReal))
    (hk : ∀ (j e : Fin 1024), k (ix3 (0 : Fin 1) j e) = ((K bt (key0 j) e : ℝ) : EReal))
    (hv : ∀ (j e : Fin 1024), v (ix3 (0 : Fin 1) j e) = ((W bt (key0 j) e : ℝ) : EReal)) (p e : Fin 1024) :
    stepM q k (k1_pay4 (F := Ideal)) (ix2 p (0 : Fin 1)) = ((fM1 Q K bt (row p) : ℝ) : EReal)
      ∧ stepL q k (k1_pay4 (F := Ideal)) (k1_pay5 (F := Ideal)) (ix2 p (0 : Fin 1)) = ((fL1 Q K bt (row p) : ℝ) : EReal)
      ∧ stepA q k v (k1_pay4 (F := Ideal)) (k1_pay6 (F := Ideal)) (ix2 p e) = ((fA1 Q K W bt (row p) e : ℝ) : EReal) := by
  have hM : stepM q k (k1_pay4 (F := Ideal)) (ix2 p (0 : Fin 1)) = ((fM1 Q K bt (row p) : ℝ) : EReal) := by
    rw [stepM_apply, pay4_apply]
    unfold rowMaxE
    simp only [scoreE_real Q K bt row key0 q k hq hk]
    exact max_bot_fold_coe ⟨0, mem_univ _⟩ (fun j => fS Q K bt (row p) (key0 j))
  refine ⟨hM, ?_, ?_⟩
  · rw [stepL_apply, hM, pay4_apply]
    simp only [scoreE_real Q K bt row key0 q k hq hk]
    exact den_first (fun j => fS Q K bt (row p) (key0 j)) (fM1 Q K bt (row p)) _
  · rw [stepA_apply, hM, pay4_apply]
    simp only [scoreE_real Q K bt row key0 q k hq hk, hv]
    exact num_first (fun j => fS Q K bt (row p) (key0 j)) (fun j => W bt (key0 j) e) (fM1 Q K bt (row p)) _

/-- THE SECOND UPDATE, from what the first left, on the second half of the keys and values. -/
theorem second_real (q k v : Vec Ideal S1x1024x1024 .bf16) (mp lp : Vec Ideal S1024x1 .f32) (ap : Vec Ideal S1024x1024 .f32)
    (hq : ∀ (p e : Fin 1024), q (ix3 (0 : Fin 1) p e) = ((Q bt (row p) e : ℝ) : EReal))
    (hk : ∀ (j e : Fin 1024), k (ix3 (0 : Fin 1) j e) = ((K bt (key1 j) e : ℝ) : EReal))
    (hv : ∀ (j e : Fin 1024), v (ix3 (0 : Fin 1) j e) = ((W bt (key1 j) e : ℝ) : EReal))
    (hmp : ∀ p : Fin 1024, mp (ix2 p (0 : Fin 1)) = ((fM1 Q K bt (row p) : ℝ) : EReal))
    (hlp : ∀ p : Fin 1024, lp (ix2 p (0 : Fin 1)) = ((fL1 Q K bt (row p) : ℝ) : EReal))
    (hap : ∀ p e : Fin 1024, ap (ix2 p e) = ((fA1 Q K W bt (row p) e : ℝ) : EReal)) (p e : Fin 1024) :
    stepM q k mp (ix2 p (0 : Fin 1)) = ((fM2 Q K bt (row p) : ℝ) : EReal)
      ∧ stepL q k mp lp (ix2 p (0 : Fin 1)) = ((fL2 Q K bt (row p) : ℝ) : EReal)
      ∧ stepA q k v mp ap (ix2 p e) = ((fA2 Q K W bt (row p) e : ℝ) : EReal) := by
  have hM : stepM q k mp (ix2 p (0 : Fin 1)) = ((fM2 Q K bt (row p) : ℝ) : EReal) := by
    rw [stepM_apply, hmp]
    unfold rowMaxE
    simp only [scoreE_real Q K bt row key1 q k hq hk]
    exact max_coe_fold_coe ⟨0, mem_univ _⟩ (fM1 Q K bt (row p)) (fun j => fS Q K bt (row p) (key1 j))
  refine ⟨hM, ?_, ?_⟩
  · rw [stepL_apply, hM, hmp, hlp]
    simp only [scoreE_real Q K bt row key1 q k hq hk]
    exact den_next (fun j => fS Q K bt (row p) (key1 j)) (fM1 Q K bt (row p)) (fM2 Q K bt (row p)) (fL1 Q K bt (row p))
  · rw [stepA_apply, hM, hmp, hap]
    simp only [scoreE_real Q K bt row key1 q k hq hk, hv]
    exact num_next (fun j => fS Q K bt (row p) (key1 j)) (fun j => W bt (key1 j) e) (fM1 Q K bt (row p)) (fM2 Q K bt (row p))
      (fA1 Q K W bt (row p) e)

/-- The final denominator is positive. -/
theorem fL2_pos (q : Fin 2048) : 0 < fL2 Q K bt q :=
  den_pos ⟨0, mem_univ _⟩ (fun j => fS Q K bt q (key0 j)) (fun j => fS Q K bt q (key1 j)) (fM1 Q K bt q) (fM2 Q K bt q)

/-- THE STORED QUOTIENT of a real numerator by the real denominator. -/
theorem quotient_real (a : Vec Ideal S1024x1024 .f32) (l : Vec Ideal S1024x1 .f32) (u : Fin 1) (p e : Fin 1024)
    (ha : a (ix2 p e) = ((fA2 Q K W bt (row p) e : ℝ) : EReal))
    (hl : l (ix2 p (0 : Fin 1)) = ((fL2 Q K bt (row p) : ℝ) : EReal)) :
    k1_pay3 a l (ix3 u p e) = ((flashOf Q K W bt (row p) e : ℝ) : EReal) := by
  rw [pay3_apply, ha, hl]
  exact div_coe_coe _ _ (fL2_pos Q K bt (row p)).ne'

end Cert.KernelIdeal.Hand

end
-- ==== Proof.AttnValue.lean ====
/-
  What the attention call leaves in its result array, over real inputs: at (batch, query, feature) the two-block online
  softmax `Cert.Spec.flashOf` of the query, key and value bands of the array it reads. The entry is what the point at
  key tile 1 of that batch and query tile stored; that point's blocks and the blocks of the point before it hold the
  tile's queries and the two halves of the batch's keys and values; two updates and the quotient give the value.
-/
import proofs.«415141_j87746181857559_3_alg».proof.Proof.AttnValueBlocks
import proofs.«415141_j87746181857559_3_alg».proof.Proof.AttnValueStep

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-- Equal coordinates, equal entries. -/
theorem entry_congr (X : Fin 4 → Fin 2048 → Fin 1024 → ℝ) {a a' : Fin 4} {b b' : Fin 2048} (e : Fin 1024)
    (ha : a.val = a'.val) (hb : b.val = b'.val) : X a b e = X a' b' e := by
  rw [Fin.ext ha, Fin.ext hb]

/-- If the call finds real numbers in the array it reads — queries `Q` in columns 0..1023, keys `K` in 1024..2047,
    values `W` in 2048..3071 — it leaves in its result array, at (bt, q, e), the online softmax of them. -/
theorem attn_final_real (c : Dev nD) (Q K W : Fin 4 → Fin 2048 → Fin 1024 → ℝ)
    (hQ : ∀ (bt : Fin 4) (s : Fin 2048) (e : Fin 1024), V c main_v13 (ix3 bt s (band0 e)) = ((Q bt s e : ℝ) : EReal))
    (hK : ∀ (bt : Fin 4) (s : Fin 2048) (e : Fin 1024), V c main_v13 (ix3 bt s (band1 e)) = ((K bt s e : ℝ) : EReal))
    (hW : ∀ (bt : Fin 4) (s : Fin 2048) (e : Fin 1024), V c main_v13 (ix3 bt s (band2 e)) = ((W bt s e : ℝ) : EReal))
    (bt : Fin 4) (q : Fin 2048) (e : Fin 1024) :
    (dat1 (F := Ideal) V c).arrAt 3 cfg1.N (ix3 bt q e) = ((Cert.Spec.flashOf Q K W bt q e : ℝ) : EReal) := by
  rw [attn_arr_eq V c bt q e]
  have hbt : bt.val < 4 := bt.isLt
  have hq : q.val < 2048 := q.isLt
  have ht : (ptOf bt q).val = 4 * bt.val + 2 * (q.val / 1024) + 1 := rfl
  have hp : (prevPt (ptOf bt q)).val = 4 * bt.val + 2 * (q.val / 1024) := by
    show (ptOf bt q).val - 1 = _
    omega
  -- the query rows of the tile that holds row q
  let row : Fin 1024 → Fin 2048 := fun p => ⟨(q.val / 1024) * 1024 + p.val, by have := p.isLt; omega⟩
  have hrow : ∀ p : Fin 1024, (row p).val = (q.val / 1024) * 1024 + p.val := fun _ => rfl
  -- the blocks of the point at key tile 0 hold the queries of that tile and the first half of the keys and values
  have hqA : ∀ (p e : Fin 1024), qblk V c (prevPt (ptOf bt q)) (ix3 (0 : Fin 1) p e) = ((Q bt (row p) e : ℝ) : EReal) := fun p e => by
    rw [qblk_apply, hQ]
    refine congrArg _ (entry_congr Q e ?_ ?_)
    · show (prevPt (ptOf bt q)).val / 4 = bt.val
      omega
    · show (prevPt (ptOf bt q)).val / 2 % 2 * 1024 + p.val = (q.val / 1024) * 1024 + p.val
      omega
  have hkA : ∀ (j e : Fin 1024), kblk V c (prevPt (ptOf bt q)) (ix3 (0 : Fin 1) j e) = ((K bt (Cert.Spec.key0 j) e : ℝ) : EReal) := fun j e => by
    rw [kblk_apply, hK]
    refine congrArg _ (entry_congr K e ?_ ?_)
    · show (prevPt (ptOf bt q)).val / 4 = bt.val
      omega
    · show (prevPt (ptOf bt q)).val % 2 * 1024 + j.val = j.val
      omega
  have hvA : ∀ (j e : Fin 1024), vblk V c (prevPt (ptOf bt q)) (ix3 (0 : Fin 1) j e) = ((W bt (Cert.Spec.key0 j) e : ℝ) : EReal) := fun j e => by
    rw [vblk_apply, hW]
    refine congrArg _ (entry_congr W e ?_ ?_)
    · show (prevPt (ptOf bt q)).val / 4 = bt.val
      omega
    · show (prevPt (ptOf bt q)).val % 2 * 1024 + j.val = j.val
      omega
  -- those of the point at key tile 1 the same queries and the second half
  have hqB : ∀ (p e : Fin 1024), qblk V c (ptOf bt q) (ix3 (0 : Fin 1) p e) = ((Q bt (row p) e : ℝ) : EReal) := fun p e => by
    rw [qblk_apply, hQ]
    refine congrArg _ (entry_congr Q e ?_ ?_)
    · show (ptOf bt q).val / 4 = bt.val
      omega
    · show (ptOf bt q).val / 2 % 2 * 1024 + p.val = (q.val / 1024) * 1024 + p.val
      omega
  have hkB : ∀ (j e : Fin 1024), kblk V c (ptOf bt q) (ix3 (0 : Fin 1) j e) = ((K bt (Cert.Spec.key1 j) e : ℝ) : EReal) := fun j e => by
    rw [kblk_apply, hK]
    refine congrArg _ (entry_congr K e ?_ ?_)
    · show (ptOf bt q).val / 4 = bt.val
      omega
    · show (ptOf bt q).val % 2 * 1024 + j.val = 1024 + j.val
      omega
  have hvB : ∀ (j e : Fin 1024), vblk V c (ptOf bt q) (ix3 (0 : Fin 1) j e) = ((W bt (Cert.Spec.key1 j) e : ℝ) : EReal) := fun j e => by
    rw [vblk_apply, hW]
    refine congrArg _ (entry_congr W e ?_ ?_)
    · show (ptOf bt q).val / 4 = bt.val
      omega
    · show (ptOf bt q).val % 2 * 1024 + j.val = 1024 + j.val
      omega
  -- the scratch contents after the point at key tile 0
  have hmA : ∀ p : Fin 1024, mA V c (prevPt (ptOf bt q)) (ix2 p (0 : Fin 1)) = ((Cert.Spec.fM1 Q K bt (row p) : ℝ) : EReal) := fun p => by
    unfold mA
    exact (first_real Q K W bt row _ _ _ hqA hkA hvA p 0).1
  have hlA : ∀ p : Fin 1024, lA V c (prevPt (ptOf bt q)) (ix2 p (0 : Fin 1)) = ((Cert.Spec.fL1 Q K bt (row p) : ℝ) : EReal) := fun p => by
    unfold lA
    exact (first_real Q K W bt row _ _ _ hqA hkA hvA p 0).2.1
  have haA : ∀ p e : Fin 1024, aA V c (prevPt (ptOf bt q)) (ix2 p e) = ((Cert.Spec.fA1 Q K W bt (row p) e : ℝ) : EReal) := fun p e => by
    unfold aA
    exact (first_real Q K W bt row _ _ _ hqA hkA hvA p e).2.2
  -- after the point at key tile 1, and the stored quotient
  have hB := second_real Q K W bt row (qblk V c (ptOf bt q)) (kblk V c (ptOf bt q)) (vblk V c (ptOf bt q))
    (mA V c (prevPt (ptOf bt q))) (lA V c (prevPt (ptOf bt q))) (aA V c (prevPt (ptOf bt q))) hqB hkB hvB hmA hlA haA
    ⟨q.val % 1024, Nat.mod_lt _ (by decide)⟩ e
  have hout : outB V c (ptOf bt q) (ix3 (0 : Fin 1) ⟨q.val % 1024, Nat.mod_lt _ (by decide)⟩ e)
      = ((Cert.Spec.flashOf Q K W bt (row ⟨q.val % 1024, Nat.mod_lt _ (by decide)⟩) e : ℝ) : EReal) := by
    unfold outB
    exact quotient_real Q K W bt row _ _ 0 _ e (by unfold aB; exact hB.2.2) (by unfold lB; exact hB.2.1)
  rw [hout]
  refine congrArg _ (congrArg (fun s => Cert.Spec.flashOf Q K W bt s e) (Fin.ext ?_))
  show (q.val / 1024) * 1024 + q.val % 1024 = q.val
  omega

end Cert.KernelIdeal.Hand

end
-- ==== Proof.Bridge.lean ====
/-
  The kernel's result over real inputs: the projection call leaves the scaled queries, the keys and the values in the
  three column bands of its result; the attention call's online softmax of them is `Cert.Spec.outK`.
-/
import proofs.«415141_j87746181857559_3_alg».proof.Proof.Run
import proofs.«415141_j87746181857559_3_alg».proof.Proof.HostRead
import proofs.«415141_j87746181857559_3_alg».proof.Proof.ProjValue
import proofs.«415141_j87746181857559_3_alg».proof.Proof.AttnValue
import proofs.«415141_j87746181857559_3_alg».proof.Proof.Spec2

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen Cert.Lift

variable (m : (ℓ : Loc nD τ sig) → Buf (Elt Ideal) ℓ) (c : Dev nD) (I : Cert.Spec.Inp)

/-! ## The flattened rows and the three column bands, as real numbers -/

/-- Row `bt * 2048 + s` of the flattened activations is position `s` of batch `bt`. -/
theorem xflat_row (bt : Fin 4) (s : Fin 2048) (d : Fin 1024) (h : bt.val * 2048 + s.val < 8192) :
    xflat I (⟨bt.val * 2048 + s.val, h⟩ : Fin 8192) d = I.x bt s d := by
  have e0 : (bt.val * 2048 + s.val) / 2048 = bt.val := by have := s.isLt; omega
  have e1 : (bt.val * 2048 + s.val) % 2048 = s.val := by have := s.isLt; omega
  unfold xflat
  exact congrFun (congr (congrArg I.x (Fin.ext e0)) (Fin.ext e1)) d

/-- The query band of the concatenated weights is the query weights scaled by 1/32 … -/
theorem wcat_band0 (d e : Fin 1024) : wcat I d (band0 e) = I.wq e d * (1 / 32) := by
  unfold wcat
  rw [dif_pos (show (band0 e).val < 1024 from e.isLt)]
/-- … the key band the key weights … -/
theorem wcat_band1 (d e : Fin 1024) : wcat I d (band1 e) = I.wk e d := by
  unfold wcat
  rw [dif_neg (show ¬(band1 e).val < 1024 by show ¬1024 + e.val < 1024; omega),
    dif_pos (show (band1 e).val < 2048 by show 1024 + e.val < 2048; have := e.isLt; omega)]
  exact congrArg (fun z => I.wk z d) (Fin.ext (by show 1024 + e.val - 1024 = e.val; omega))
/-- … and the value band the value weights. -/
theorem wcat_band2 (d e : Fin 1024) : wcat I d (band2 e) = I.wv e d := by
  unfold wcat
  rw [dif_neg (show ¬(band2 e).val < 1024 by show ¬2048 + e.val < 1024; omega),
    dif_neg (show ¬(band2 e).val < 2048 by show ¬2048 + e.val < 2048; omega)]
  exact congrArg (fun z => I.wv z d) (Fin.ext (by show 2048 + e.val - 2048 = e.val; omega))

/-- The concatenated bias likewise. -/
theorem bcat_band0 (e : Fin 1024) : bcat I (band0 e) = I.bq e * (1 / 32) := by
  unfold bcat
  rw [dif_pos (show (band0 e).val < 1024 from e.isLt)]
theorem bcat_band1 (e : Fin 1024) : bcat I (band1 e) = I.bk e := by
  unfold bcat
  rw [dif_neg (show ¬(band1 e).val < 1024 by show ¬1024 + e.val < 1024; omega),
    dif_pos (show (band1 e).val < 2048 by show 1024 + e.val < 2048; have := e.isLt; omega)]
  exact congrArg I.bk (Fin.ext (by show 1024 + e.val - 1024 = e.val; omega))
theorem bcat_band2 (e : Fin 1024) : bcat I (band2 e) = I.bv e := by
  unfold bcat
  rw [dif_neg (show ¬(band2 e).val < 1024 by show ¬2048 + e.val < 1024; omega),
    dif_neg (show ¬(band2 e).val < 2048 by show ¬2048 + e.val < 2048; omega)]
  exact congrArg I.bv (Fin.ext (by show 2048 + e.val - 2048 = e.val; omega))

/-! ## The array the attention call reads -/

/-- Over real inputs the array the attention call reads holds, at (bt, s, j), row `bt * 2048 + s` of the flattened
    activations against column `j` of the concatenated weights, plus the concatenated bias at `j`. -/
theorem attn_operand_real
    (h0 : m ((c.tc : Thread nD τ).loc main_arg0) = lift3 I.x) (h1 : m ((c.tc : Thread nD τ).loc main_arg1) = lift2 I.wq)
    (h2 : m ((c.tc : Thread nD τ).loc main_arg2) = lift1 I.bq) (h3 : m ((c.tc : Thread nD τ).loc main_arg3) = lift2 I.wk)
    (h4 : m ((c.tc : Thread nD τ).loc main_arg4) = lift1 I.bk) (h5 : m ((c.tc : Thread nD τ).loc main_arg5) = lift2 I.wv)
    (h6 : m ((c.tc : Thread nD τ).loc main_arg6) = lift1 I.bv) (bt : Fin 4) (s : Fin 2048) (j : Fin 3072) :
    E3 m c main_v13 (ix3 bt s j) = (((∑ d, I.x bt s d * wcat I d j) + bcat I j : ℝ) : EReal) := by
  have hr : bt.val * 2048 + s.val < 8192 := by have := bt.isLt; have := s.isLt; omega
  rw [E3_v13]
  unfold arr0
  rw [proj_final_real (E1 m) c (xflat I) (wcat I) (bcat I) (E1_v0 m c I h0) (E1_v9 m c I h1 h3 h5) (E1_v11 m c I h2 h4 h6)]
  refine congrArg (fun r : ℝ => (r : EReal)) (congrArg (· + bcat I j) (Finset.sum_congr rfl fun d _ => ?_))
  rw [xflat_row I bt s d hr]

/-- Over real inputs the kernel's result array, at batch `i 0`, query `i 1`, feature `i 2`, is the real number
    `Cert.Spec.outK` of those inputs. -/
theorem kernel_out_real
    (h0 : m ((c.tc : Thread nD τ).loc main_arg0) = lift3 I.x) (h1 : m ((c.tc : Thread nD τ).loc main_arg1) = lift2 I.wq)
    (h2 : m ((c.tc : Thread nD τ).loc main_arg2) = lift1 I.bq) (h3 : m ((c.tc : Thread nD τ).loc main_arg3) = lift2 I.wk)
    (h4 : m ((c.tc : Thread nD τ).loc main_arg4) = lift1 I.bk) (h5 : m ((c.tc : Thread nD τ).loc main_arg5) = lift2 I.wv)
    (h6 : m ((c.tc : Thread nD τ).loc main_arg6) = lift1 I.bv) (i : S4x2048x1024.Idx) :
    arr1 m c i = ((Cert.Spec.outK I (i 0) (i 1) (i 2) : ℝ) : EReal) := by
  have hop := attn_operand_real m c I h0 h1 h2 h3 h4 h5 h6
  -- the query band: the scaled query projection
  have hQ : ∀ (bt : Fin 4) (s : Fin 2048) (e : Fin 1024),
      E3 m c main_v13 (ix3 bt s (band0 e)) = ((Cert.Spec.qK I bt s e : ℝ) : EReal) := fun bt s e => by
    rw [hop, bcat_band0]
    unfold Cert.Spec.qK
    exact congrArg (fun r : ℝ => (r : EReal))
      (congrArg (· + I.bq e * (1 / 32)) (Finset.sum_congr rfl fun d _ => by rw [wcat_band0]))
  -- the key band: the key projection
  have hK : ∀ (bt : Fin 4) (s : Fin 2048) (e : Fin 1024),
      E3 m c main_v13 (ix3 bt s (band1 e)) = ((Cert.Spec.proj I I.wk I.bk bt s e : ℝ) : EReal) := fun bt s e => by
    rw [hop, bcat_band1]
    unfold Cert.Spec.proj
    exact congrArg (fun r : ℝ => (r : EReal))
      (congrArg (· + I.bk e) (Finset.sum_congr rfl fun d _ => by rw [wcat_band1]))
  -- the value band: the value projection
  have hW : ∀ (bt : Fin 4) (s : Fin 2048) (e : Fin 1024),
      E3 m c main_v13 (ix3 bt s (band2 e)) = ((Cert.Spec.proj I I.wv I.bv bt s e : ℝ) : EReal) := fun bt s e => by
    rw [hop, bcat_band2]
    unfold Cert.Spec.proj
    exact congrArg (fun r : ℝ => (r : EReal))
      (congrArg (· + I.bv e) (Finset.sum_congr rfl fun d _ => by rw [wcat_band2]))
  -- the attention call's online softmax of the three bands is the kernel's result
  have key := attn_final_real (E3 m) c (Cert.Spec.qK I) (Cert.Spec.proj I I.wk I.bk) (Cert.Spec.proj I I.wv I.bv) hQ hK hW
    (i 0) (i 1) (i 2)
  show (dat1 (F := Ideal) (E3 m) c).arrAt 3 cfg1.N i = _
  exact ((congrArg ((dat1 (F := Ideal) (E3 m) c).arrAt 3 cfg1.N) (eq_ix3 (n0 := 4) (n1 := 2048) (n2 := 1024) i)).trans key).trans
    (congrArg (fun r : ℝ => (r : EReal)) (Cert.Spec.outK_eq_flashOf I (i 0) (i 1) (i 2)).symm)

end Cert.KernelIdeal.Hand

end
-- ==== Proof.RefValue.lean ====
/-
  The reference program read at an index over real inputs: projections, scores divided by √1024 = 32, the row
  maximum, the shifted exponentials and their sum, the normalised weights and the weighted sum of the values — each
  stage a real number, the last one `Cert.Spec.outR`.
-/
import proofs.«415141_j87746181857559_3_alg».proof.Proof.Gen.ReferenceIdeal.Run
import proofs.«415141_j87746181857559_3_alg».proof.Proof.Gen.ReferenceIdeal.Read
import proofs.«415141_j87746181857559_3_alg».proof.Proof.Lift
import proofs.«415141_j87746181857559_3_alg».proof.Proof.LibRealSums
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe Idealize.SL.Sem
open Cert.Lift
open Idealize.ShloMosaic.ValueIdx Idealize.ShloMosaic.RealSums

variable (I : Cert.Spec.Inp)

/-! ## Indices: each stage's operand index, at an index given by coordinates, is again given by coordinates -/

theorem lidx0_ix (bt : Fin 4) (s : Fin 2048) (e d : Fin 1024) : lidx_main_v0 (ix3 bt s e) d = ix3 bt s d := by
  funext a; match a with | ⟨0, _⟩ => rfl | ⟨1, _⟩ => rfl | ⟨2, _⟩ => rfl
theorem ridx0_ix (bt : Fin 4) (s : Fin 2048) (e d : Fin 1024) : ridx_main_v0 (ix3 bt s e) d = ix2 e d := by
  funext a; match a with | ⟨0, _⟩ => rfl | ⟨1, _⟩ => rfl
theorem idx12_ix (bt : Fin 4) (s : Fin 2048) (e : Fin 1024) : idx_main_v1 (idx_main_v2 (ix3 bt s e)) = ix1 e := by
  funext a; match a with | ⟨0, _⟩ => rfl

/-! ## The projections -/

/-- A projection of the real inputs, read at (bt, s, e): the sum over the features of activation times weight, plus the bias. -/
theorem v3_real (w : Fin 1024 → Fin 1024 → ℝ) (b : Fin 1024 → ℝ) (bt : Fin 4) (s : Fin 2048) (e : Fin 1024) :
    Read.val_main_v3 (F := Ideal) (lift3 I.x) (lift2 w) (lift1 b) (ix3 bt s e)
      = ((Cert.Spec.proj I w b bt s e : ℝ) : EReal) := by
  rw [Read.val_main_v3_apply, Read.val_main_v0_apply, Read.val_main_v2_apply, Read.val_main_v1_apply, idx12_ix]
  unfold Cert.Spec.proj
  rw [EReal.coe_add, coe_sum]
  refine congr (congrArg _ (Finset.sum_congr rfl fun d _ => ?_)) rfl
  rw [lidx0_ix, ridx0_ix, EReal.coe_mul]
  rfl

/-- The key and value projections are the same operations under other names. -/
theorem v7_real (w : Fin 1024 → Fin 1024 → ℝ) (b : Fin 1024 → ℝ) (bt : Fin 4) (s : Fin 2048) (e : Fin 1024) :
    Read.val_main_v7 (F := Ideal) (lift3 I.x) (lift2 w) (lift1 b) (ix3 bt s e)
      = ((Cert.Spec.proj I w b bt s e : ℝ) : EReal) :=
  v3_real I w b bt s e
theorem v11_real (w : Fin 1024 → Fin 1024 → ℝ) (b : Fin 1024 → ℝ) (bt : Fin 4) (s : Fin 2048) (e : Fin 1024) :
    Read.val_main_v11 (F := Ideal) (lift3 I.x) (lift2 w) (lift1 b) (ix3 bt s e)
      = ((Cert.Spec.proj I w b bt s e : ℝ) : EReal) :=
  v3_real I w b bt s e

/-! ## The scores -/

theorem lidx12_ix (bt : Fin 4) (q j : Fin 2048) (e : Fin 1024) : lidx_main_v12 (ix3 bt q j) e = ix3 bt q e := by
  funext a; match a with | ⟨0, _⟩ => rfl | ⟨1, _⟩ => rfl | ⟨2, _⟩ => rfl
theorem ridx12_ix (bt : Fin 4) (q j : Fin 2048) (e : Fin 1024) : ridx_main_v12 (ix3 bt q j) e = ix3 bt j e := by
  funext a; match a with | ⟨0, _⟩ => rfl | ⟨1, _⟩ => rfl | ⟨2, _⟩ => rfl

/-- The product of the query and key projections, summed over the features. -/
theorem v12_real (bt : Fin 4) (q j : Fin 2048) :
    Read.val_main_v12 (F := Ideal) (lift3 I.x) (lift2 I.wq) (lift1 I.bq) (lift2 I.wk) (lift1 I.bk) (ix3 bt q j)
      = ((∑ e, Cert.Spec.proj I I.wq I.bq bt q e * Cert.Spec.proj I I.wk I.bk bt j e : ℝ) : EReal) := by
  rw [Read.val_main_v12_apply, coe_sum]
  refine Finset.sum_congr rfl fun e _ => ?_
  rw [lidx12_ix, ridx12_ix, v3_real, v7_real, EReal.coe_mul]

/-- The word 0x44800000 is the number 1024. -/
theorem ofBits_1024 : Ideal.ofBits .f32 0x44800000#32 = ((1024 : ℝ) : EReal) := by
  simp [Ideal.ofBits, Ideal.ieee]
  rw [← EReal.coe_mul]
  exact congrArg _ (by norm_num)

/-- The word 0xFF800000 is minus infinity. -/
theorem ofBits_neg_inf : Ideal.ofBits .f32 0xFF800000#32 = (⊥ : EReal) := by
  simp [Ideal.ofBits, Ideal.ieee]

theorem sqrt_1024 : Real.sqrt 1024 = 32 := by
  rw [show (1024 : ℝ) = 32 ^ 2 by norm_num]
  exact Real.sqrt_sq (by norm_num)

/-- The divisor: √1024 = 32 at every index. -/
theorem v14_real (i : S4x2048x2048.Idx) : Read.val_main_v14 (F := Ideal) i = ((32 : ℝ) : EReal) := by
  rw [Read.val_main_v14_apply, Read.val_main_v13_apply, Read.val_main_cst_apply]
  show Ideal.sqrt (Ideal.ofBits .f32 0x44800000#32) = _
  rw [ofBits_1024]
  show (if (1024 : ℝ) < 0 then (⊥ : EReal) else ((Real.sqrt 1024 : ℝ) : EReal)) = _
  rw [if_neg (by norm_num), sqrt_1024]

/-- The score of query `q` against key `j`. -/
theorem v15_real (bt : Fin 4) (q j : Fin 2048) :
    Read.val_main_v15 (F := Ideal) (lift3 I.x) (lift2 I.wq) (lift1 I.bq) (lift2 I.wk) (lift1 I.bk) (ix3 bt q j)
      = ((Cert.Spec.sR I bt q j : ℝ) : EReal) := by
  rw [Read.val_main_v15_apply, v12_real, v14_real]
  show Ideal.div _ _ = _
  rw [Ideal.div_coe (by norm_num : (32 : ℝ) ≠ 0), ← EReal.coe_mul]
  unfold Cert.Spec.sR
  rw [mul_one_div]

/-! ## The row maximum -/

/-- A fold of `max` from −∞ over the coercions of real numbers, over a nonempty set, is the coercion of their supremum. -/
theorem fold_max_bot_coe {ι : Type*} (s : Finset ι) (hs : s.Nonempty) (f : ι → ℝ) :
    s.fold max (⊥ : EReal) (fun k => ((f k : ℝ) : EReal)) = ((s.sup' hs f : ℝ) : EReal) := by
  apply le_antisymm
  · rw [Finset.fold_max_le]
    exact ⟨bot_le, fun k hk => EReal.coe_le_coe_iff.2 (Finset.le_sup' f hk)⟩
  · obtain ⟨k, hk, e⟩ := Finset.exists_mem_eq_sup' hs f
    rw [e, Finset.le_fold_max]
    exact Or.inr ⟨k, hk, le_rfl⟩

/-- The index over (bt, q) with key `k` inserted on the reduced axis. -/
theorem lift_ix (h : S4x2048x2048.Reduces [2] S4x2048) (bt : Fin 4) (q k : Fin 2048) :
    h.lift (ix2 bt q) k = ix3 bt q k := by
  funext a
  apply Fin.ext
  match a with | ⟨0, _⟩ => rfl | ⟨1, _⟩ => rfl | ⟨2, _⟩ => rfl

/-- The maximum over the keys of the scores, taken from −∞: the supremum of the real scores. -/
theorem v16_real (bt : Fin 4) (q : Fin 2048) :
    Read.val_main_v16 (F := Ideal) (lift3 I.x) (lift2 I.wq) (lift1 I.bq) (lift2 I.wk) (lift1 I.bk) (ix2 bt q)
      = ((Cert.Spec.mR I bt q : ℝ) : EReal) := by
  have h : S4x2048x2048.Reduces [2] S4x2048 := by decide
  unfold Read.val_main_v16
  rw [Host.reduce_eq_fold_single FloatOps.maximumf _ _ reducesTo_S4x2048x2048_S4x2048_d2 h h_S_ (ix2 bt q)]
  have hx : (Read.val_main_v15 (F := Ideal) (lift3 I.x) (lift2 I.wq) (lift1 I.bq) (lift2 I.wk) (lift1 I.bk) ∘ h.lift (ix2 bt q))
      = fun k : Fin 2048 => ((Cert.Spec.sR I bt q k : ℝ) : EReal) := by
    funext k
    exact (congrArg (Read.val_main_v15 (F := Ideal) (lift3 I.x) (lift2 I.wq) (lift1 I.bq) (lift2 I.wk) (lift1 I.bk))
      (lift_ix h bt q k)).trans (v15_real I bt q k)
  rw [hx, Read.val_main_cst_0_apply]
  show Finset.fold max (Ideal.ofBits .f32 0xFF800000#32) (fun k : Fin 2048 => ((Cert.Spec.sR I bt q k : ℝ) : EReal)) Finset.univ = _
  rw [ofBits_neg_inf]
  unfold Cert.Spec.mR
  exact fold_max_bot_coe _ _ _

/-- −∞ at every index. -/
theorem v17_real (i : S4x2048.Idx) : Read.val_main_v17 (F := Ideal) i = (⊥ : EReal) := by
  rw [Read.val_main_v17_apply, Read.val_main_cst_1_apply]
  exact ofBits_neg_inf

/-- The maximum with −∞ changes nothing. -/
theorem v18_real (bt : Fin 4) (q : Fin 2048) :
    Read.val_main_v18 (F := Ideal) (lift3 I.x) (lift2 I.wq) (lift1 I.bq) (lift2 I.wk) (lift1 I.bk) (ix2 bt q)
      = ((Cert.Spec.mR I bt q : ℝ) : EReal) := by
  rw [Read.val_main_v18_apply, v16_real, v17_real]
  exact max_eq_right bot_le

theorem idx1920_ix (bt : Fin 4) (q j : Fin 2048) : idx_main_v19 (idx_main_v20 (ix3 bt q j)) = ix2 bt q := by
  funext a; match a with | ⟨0, _⟩ => rfl | ⟨1, _⟩ => rfl

/-- The row maximum, broadcast along the keys. -/
theorem v20_real (bt : Fin 4) (q j : Fin 2048) :
    Read.val_main_v20 (F := Ideal) (lift3 I.x) (lift2 I.wq) (lift1 I.bq) (lift2 I.wk) (lift1 I.bk) (ix3 bt q j)
      = ((Cert.Spec.mR I bt q : ℝ) : EReal) := by
  rw [Read.val_main_v20_apply, Read.val_main_v19_apply, idx1920_ix, v18_real]

/-! ## The shifted exponentials, their sum, the weights -/

/-- The score minus the row maximum. -/
theorem v21_real (bt : Fin 4) (q j : Fin 2048) :
    Read.val_main_v21 (F := Ideal) (lift3 I.x) (lift2 I.wq) (lift1 I.bq) (lift2 I.wk) (lift1 I.bk) (ix3 bt q j)
      = ((Cert.Spec.sR I bt q j - Cert.Spec.mR I bt q : ℝ) : EReal) := by
  rw [Read.val_main_v21_apply, v15_real, v20_real]
  exact (EReal.coe_sub _ _).symm

/-- Its exponential. -/
theorem v22_real (bt : Fin 4) (q j : Fin 2048) :
    Read.val_main_v22 (F := Ideal) (lift3 I.x) (lift2 I.wq) (lift1 I.bq) (lift2 I.wk) (lift1 I.bk) (ix3 bt q j)
      = ((Cert.Spec.eR I bt q j : ℝ) : EReal) := by
  rw [Read.val_main_v22_apply, v21_real]
  rfl

theorem idx23_ix (bt : Fin 4) (q k : Fin 2048) : idx_main_v23 (ix2 bt q) k = ix3 bt q k := by
  funext a; match a with | ⟨0, _⟩ => rfl | ⟨1, _⟩ => rfl | ⟨2, _⟩ => rfl

/-- The sum over the keys of the exponentials, from 0. -/
theorem v23_real (bt : Fin 4) (q : Fin 2048) :
    Read.val_main_v23 (F := Ideal) (lift3 I.x) (lift2 I.wq) (lift1 I.bq) (lift2 I.wk) (lift1 I.bk) (ix2 bt q)
      = ((Cert.Spec.lR I bt q : ℝ) : EReal) := by
  rw [Read.val_main_v23_apply, Read.val_main_cst_2_apply]
  show Ideal.ofBits .f32 0x00000000#32 + _ = _
  rw [Ideal.ofBits_zero_f32, zero_add]
  unfold Cert.Spec.lR
  rw [coe_sum]
  refine Finset.sum_congr rfl fun k _ => ?_
  rw [idx23_ix, v22_real]

theorem idx2425_ix (bt : Fin 4) (q j : Fin 2048) : idx_main_v24 (idx_main_v25 (ix3 bt q j)) = ix2 bt q := by
  funext a; match a with | ⟨0, _⟩ => rfl | ⟨1, _⟩ => rfl

/-- That sum, broadcast along the keys. -/
theorem v25_real (bt : Fin 4) (q j : Fin 2048) :
    Read.val_main_v25 (F := Ideal) (lift3 I.x) (lift2 I.wq) (lift1 I.bq) (lift2 I.wk) (lift1 I.bk) (ix3 bt q j)
      = ((Cert.Spec.lR I bt q : ℝ) : EReal) := by
  rw [Read.val_main_v25_apply, Read.val_main_v24_apply, idx2425_ix, v23_real]

/-- A sum of exponentials over the 2048 keys is positive. -/
theorem lR_pos (bt : Fin 4) (q : Fin 2048) : 0 < Cert.Spec.lR I bt q := by
  unfold Cert.Spec.lR Cert.Spec.eR
  exact Finset.sum_pos (fun j _ => Real.exp_pos _) ⟨0, Finset.mem_univ _⟩

/-- The normalised weight of key `j`: the divisor is a positive real, so the quotient is the real quotient. -/
theorem v26_real (bt : Fin 4) (q j : Fin 2048) :
    Read.val_main_v26 (F := Ideal) (lift3 I.x) (lift2 I.wq) (lift1 I.bq) (lift2 I.wk) (lift1 I.bk) (ix3 bt q j)
      = ((Cert.Spec.eR I bt q j / Cert.Spec.lR I bt q : ℝ) : EReal) := by
  rw [Read.val_main_v26_apply, v22_real, v25_real]
  show Ideal.div _ _ = _
  rw [Ideal.div_coe (lR_pos I bt q).ne', ← EReal.coe_mul, mul_one_div]

/-! ## The result -/

theorem lidx27_ix (bt : Fin 4) (q k : Fin 2048) (e : Fin 1024) : lidx_main_v27 (ix3 bt q e) k = ix3 bt q k := by
  funext a; match a with | ⟨0, _⟩ => rfl | ⟨1, _⟩ => rfl | ⟨2, _⟩ => rfl
theorem ridx27_ix (bt : Fin 4) (q k : Fin 2048) (e : Fin 1024) : ridx_main_v27 (ix3 bt q e) k = ix3 bt k e := by
  funext a; match a with | ⟨0, _⟩ => rfl | ⟨1, _⟩ => rfl | ⟨2, _⟩ => rfl

/-- The weights against the value projections, summed over the keys. -/
theorem v27_real (bt : Fin 4) (q : Fin 2048) (e : Fin 1024) :
    Read.val_main_v27 (F := Ideal) (lift3 I.x) (lift2 I.wq) (lift1 I.bq) (lift2 I.wk) (lift1 I.bk) (lift2 I.wv) (lift1 I.bv) (ix3 bt q e)
      = ((Cert.Spec.outR I bt q e : ℝ) : EReal) := by
  rw [Read.val_main_v27_apply]
  unfold Cert.Spec.outR
  rw [coe_sum]
  refine Finset.sum_congr rfl fun k _ => ?_
  rw [lidx27_ix, ridx27_ix, v26_real, v11_real, EReal.coe_mul]

/-- Over real inputs the reference's result, at batch `bt`, query `q`, feature `e`, is the real number
    `Cert.Spec.outR` of those inputs. -/
theorem ref_out_real (I : Cert.Spec.Inp) (i : S4x2048x1024.Idx) :
    Read.val_main_v27 (F := Ideal) (lift3 I.x) (lift2 I.wq) (lift1 I.bq) (lift2 I.wk) (lift1 I.bk) (lift2 I.wv) (lift1 I.bv) i
      = ((Cert.Spec.outR I (i 0) (i 1) (i 2) : ℝ) : EReal) :=
  (congrArg (Read.val_main_v27 (F := Ideal) (lift3 I.x) (lift2 I.wq) (lift1 I.bq) (lift2 I.wk) (lift1 I.bk) (lift2 I.wv) (lift1 I.bv))
      (eq_ix3 (n0 := 4) (n1 := 2048) (n2 := 1024) i)).trans
    (v27_real I (i 0) (i 1) (i 2))

end Cert.ReferenceIdeal.RefValue

end
-- ==== Proof.Finite.lean ====
/-
  The precondition read: every input array holds finite numbers, so each is an array of real numbers.
-/
import proofs.«415141_j87746181857559_3_alg».proof.Defs
import proofs.«415141_j87746181857559_3_alg».proof.Proof.Lift
import proofs.«415141_j87746181857559_3_alg».proof.Proof.LibRealSums
import Idealize.ShloMosaic.Lib.ReduceAll
import Idealize.ShloMosaic.Lib.ValueIdx
import Idealize.ShloMosaic.Lib.StableHlo.Predicate

noncomputable section

namespace Cert.Finite

open Idealize.ShloMosaic Idealize.ShloMosaic.TcCoe Idealize.SL.Sem Cert.Lift

variable [hP : Cert.Pre_finite_inputs.Facts]

/-! ## One `all (|x| < +∞)` read back -/

/-- The scalar shape has exactly one index. -/
instance subsingleton_scalar_idx : Subsingleton (⟨0, ![]⟩ : Shape).Idx := ⟨fun a b => funext fun d => d.elim0⟩

/-- The f32 word `0x7F800000` denotes `+∞`. -/
theorem inf_f32 : Ideal.ofBits .f32 0x7F800000#32 = (⊤ : EReal) := by simp [Ideal.ofBits, Ideal.ieee]

/-- An extended real whose absolute value `max x (-x)` is below `+∞` is a real number: `⊥` and `⊤` both have
    absolute value `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- `all (|x| < +∞)` over an array of any shape, read back: if the conjunction over all axes of the comparisons
    `|x i| < +∞` is true, every entry of `x` is a real number. -/
theorem real_of_all_finite {s : Shape} {axes : List (Fin s.rank)} (x : FVec Ideal s .f32)
    (hb : (⟨0, ![]⟩ : Shape).BroadcastsInDim s (![] : Fin 0 → Fin s.rank)) (hr : s.ReducesTo axes ⟨0, ![]⟩)
    (h0 : 0 < (⟨0, ![]⟩ : Shape).numel)
    (e : Host.reduce IntOp.andi
          (cmpf .olt (Host.absf x) (broadcastInDim s ![] hb (constant (⟨0, ![]⟩ : Shape) .f32 0x7F800000#32)))
          (constantI (⟨0, ![]⟩ : Shape) 1 1#1) hr h0 ValueIdx.ix0 = 1#1) (i : s.Idx) :
    ∃ r : ℝ, x i = (r : EReal) := by
  -- the conjunction is true, so each comparison is
  have hi := Host.reduce_andi_all _ _ hr h0 ValueIdx.ix0 e i
  -- the comparison at `i` is `max (x i) (-(x i)) < ⊤`
  rw [ValueIdx.cmpf_apply, StableHlo.Predicate.bcast_scalar hb h0, ValueIdx.constant_apply, inf_f32] at hi
  have hlt : max (x i) (-(x i)) < ⊤ := by
    have hd : decide (max (x i) (-(x i)) < (⊤ : EReal)) = true := (StableHlo.Predicate.ofBool_eq_one_iff _).1 hi
    exact of_decide_eq_true hd
  exact real_of_abs_lt_top _ hlt

/-! ## The seven argument arrays -/

/-- Under the precondition, on every device, the seven argument arrays of the idealized kernel are real arrays:
    there are real inputs `I` whose coercions they are. -/
theorem real_inputs (m : (ℓ : Loc Cert.KernelIdeal.nD Cert.KernelIdeal.τ Cert.KernelIdeal.sig) → Buf (Elt Ideal) ℓ)
    (hpre : Cert.Pre_KernelIdeal m) (c : Dev Cert.KernelIdeal.nD) :
    ∃ I : Cert.Spec.Inp,
      m ((c.tc : Thread Cert.KernelIdeal.nD Cert.KernelIdeal.τ).loc Cert.KernelIdeal.main_arg0) = lift3 I.x
      ∧ m ((c.tc : Thread Cert.KernelIdeal.nD Cert.KernelIdeal.τ).loc Cert.KernelIdeal.main_arg1) = lift2 I.wq
      ∧ m ((c.tc : Thread Cert.KernelIdeal.nD Cert.KernelIdeal.τ).loc Cert.KernelIdeal.main_arg2) = lift1 I.bq
      ∧ m ((c.tc : Thread Cert.KernelIdeal.nD Cert.KernelIdeal.τ).loc Cert.KernelIdeal.main_arg3) = lift2 I.wk
      ∧ m ((c.tc : Thread Cert.KernelIdeal.nD Cert.KernelIdeal.τ).loc Cert.KernelIdeal.main_arg4) = lift1 I.bk
      ∧ m ((c.tc : Thread Cert.KernelIdeal.nD Cert.KernelIdeal.τ).loc Cert.KernelIdeal.main_arg5) = lift2 I.wv
      ∧ m ((c.tc : Thread Cert.KernelIdeal.nD Cert.KernelIdeal.τ).loc Cert.KernelIdeal.main_arg6) = lift1 I.bv := by
  -- the predicate's one scalar, written out: a conjunction of seven `all (|x| < +∞)`
  have h := congrFun (hpre c) ValueIdx.ix0
  dsimp only [Cert.Pre_finite_inputs.fn, Cert.Pre_finite_inputs.fn_part1, andi] at h
  simp only [IntOp.andi_eq_one] at h
  obtain ⟨⟨⟨⟨⟨⟨h0, h1⟩, h2⟩, h3⟩, h4⟩, h5⟩, h6⟩ := h
  -- each conjunct makes its array an array of real numbers
  choose f0 hf0 using real_of_all_finite _ _ _ _ h0
  choose f1 hf1 using real_of_all_finite _ _ _ _ h1
  choose f2 hf2 using real_of_all_finite _ _ _ _ h2
  choose f3 hf3 using real_of_all_finite _ _ _ _ h3
  choose f4 hf4 using real_of_all_finite _ _ _ _ h4
  choose f5 hf5 using real_of_all_finite _ _ _ _ h5
  choose f6 hf6 using real_of_all_finite _ _ _ _ h6
  -- the real inputs, coordinate by coordinate
  refine ⟨⟨fun a b d => f0 (ValueIdx.ix3 a b d), fun a b => f1 (ValueIdx.ix2 a b), fun a => f2 (ValueIdx.ix1 a),
    fun a b => f3 (ValueIdx.ix2 a b), fun a => f4 (ValueIdx.ix1 a), fun a b => f5 (ValueIdx.ix2 a b),
    fun a => f6 (ValueIdx.ix1 a)⟩, ?_, ?_, ?_, ?_, ?_, ?_, ?_⟩
  · funext i; rw [lift3_apply]; exact (hf0 i).trans (congrArg (fun j => ((f0 j : ℝ) : EReal)) (ValueIdx.eq_ix3 i))
  · funext i; rw [lift2_apply]; exact (hf1 i).trans (congrArg (fun j => ((f1 j : ℝ) : EReal)) (ValueIdx.eq_ix2 i))
  · funext i; rw [lift1_apply]; exact (hf2 i).trans (congrArg (fun j => ((f2 j : ℝ) : EReal)) (ValueIdx.eq_ix1 i))
  · funext i; rw [lift2_apply]; exact (hf3 i).trans (congrArg (fun j => ((f3 j : ℝ) : EReal)) (ValueIdx.eq_ix2 i))
  · funext i; rw [lift1_apply]; exact (hf4 i).trans (congrArg (fun j => ((f4 j : ℝ) : EReal)) (ValueIdx.eq_ix1 i))
  · funext i; rw [lift2_apply]; exact (hf5 i).trans (congrArg (fun j => ((f5 j : ℝ) : EReal)) (ValueIdx.eq_ix2 i))
  · funext i; rw [lift1_apply]; exact (hf6 i).trans (congrArg (fun j => ((f6 j : ℝ) : EReal)) (ValueIdx.eq_ix1 i))

end Cert.Finite

end
-- ==== Proof.lean ====
/-
  The certificate of a two-call attention kernel against plain softmax attention.

  The kernel projects the activations with ONE matmul against the concatenated, transposed weight matrices (the query's
  weights and bias pre-scaled by 1/32 = 1/√1024) and then runs a two-block online softmax over the keys; the reference
  projects separately, divides the scores by √1024, normalises the shifted exponentials and takes the weighted sum of
  the values. At the ideal instance, over finite inputs, every intermediate quantity of either program is a real number,
  and over the reals the two results are one function of the inputs (`Cert.Spec.outK_eq_outR`).

  The frames: each call of the kernel is a record over the thread state (its body obligation, the three input windows of
  the attention call sharing one array); the reference is a straight line of host operations.
-/
import proofs.«415141_j87746181857559_3_alg».proof.Defs
import proofs.«415141_j87746181857559_3_alg».proof.Proof.Gen.Kernel
import proofs.«415141_j87746181857559_3_alg».proof.Proof.Gen.KernelIdeal
import proofs.«415141_j87746181857559_3_alg».proof.Proof.Gen.ReferenceIdeal
import proofs.«415141_j87746181857559_3_alg».proof.Proof.Gen.Pre_finite_inputs
import proofs.«415141_j87746181857559_3_alg».proof.Proof.Gen.ReferenceIdeal.Run
import proofs.«415141_j87746181857559_3_alg».proof.Proof.Gen.ReferenceIdeal.Read
import proofs.«415141_j87746181857559_3_alg».proof.Proof.KRunData
import proofs.«415141_j87746181857559_3_alg».proof.Proof.Run
import proofs.«415141_j87746181857559_3_alg».proof.Proof.Bridge
import proofs.«415141_j87746181857559_3_alg».proof.Proof.RefValue
import proofs.«415141_j87746181857559_3_alg».proof.Proof.Finite
import Idealize.ShloMosaic.Adequacy
import Idealize.ShloMosaic.Init

noncomputable section

namespace Cert.Proof

open Idealize.ShloMosaic Idealize.SL.Sem

/-- The bit-level kernel runs, faults nowhere and leaves its arguments unchanged. -/
theorem frame_k : Cert.frame_Kernel (hKernel := Cert.Kernel.Gen.facts) (hPre_finite_inputs := Cert.Pre_finite_inputs.Gen.facts) :=
  fun m ρ _ => Cert.Kernel.Hand.frame_main m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Hand.frame_main m ρ

/-- The reference is a line of host operations: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on finite arguments both idealized programs end with equal results: the arguments are real
    arrays (the precondition), the kernel's result is `outK` of them, the reference's is `outR`, and the two are equal. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.arr1 m c, Cert.KernelIdeal.Hand.run_main m ρ, ?_⟩
  refine (θ_run Cert.ReferenceIdeal.defs _ _).mono (fun _ h c => ⟨(h c).1.trans ?_, (h c).2⟩)
    (Cert.ReferenceIdeal.Value.run (F := Ideal) m' ρ')
  obtain ⟨I, h0, h1, h2, h3, h4, h5, h6⟩ := Cert.Finite.real_inputs m hpre c
  rw [Cert.ReferenceIdeal.Read.val_main_v27_eq, (hagree c).1, (hagree c).2.1, (hagree c).2.2.1, (hagree c).2.2.2.1,
    (hagree c).2.2.2.2.1, (hagree c).2.2.2.2.2.1, (hagree c).2.2.2.2.2.2, h0, h1, h2, h3, h4, h5, h6]
  funext i
  exact (Cert.ReferenceIdeal.RefValue.ref_out_real I i).trans
    ((congrArg (fun r : ℝ => (r : EReal)) (Cert.Spec.outK_eq_outR I _ _ _).symm).trans
      (Cert.KernelIdeal.Hand.kernel_out_real m c I h0 h1 h2 h3 h4 h5 h6 i).symm)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
